-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x128 : Shape := ⟨4, ![8, 128, 128, 128]⟩
abbrev S8x256x64x64 : Shape := ⟨4, ![8, 256, 64, 64]⟩
abbrev S256 : Shape := ⟨1, ![256]⟩
abbrev S128x256 : Shape := ⟨2, ![128, 256]⟩
abbrev S256x256 : Shape := ⟨2, ![256, 256]⟩
abbrev S_ : Shape := ⟨0, ![]⟩

class Facts : Prop where
  bcast_S_S8x128x128x128 : S_.BroadcastsInDim S8x128x128x128 (![] : Fin 0 → Fin S8x128x128x128.rank)
  reducesTo_S8x128x128x128_S_d0_1_2_3 : S8x128x128x128.ReducesTo [0, 1, 2, 3] S_
  h_S_ : 0 < S_.numel
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part5 {F : FTy → Type} [FloatOps F] (main_arg4 : IVec S256 32) (main_arg5 : IVec S256 32) (main_v81 : IVec S_ 1) (main_v83 : IVec S256 1) (main_c_33 : IVec S_ 1) : IVec S_ 1 :=
  let main_v84 : IVec S_ 1 := (fun x v => Host.reduce IntOp.andi x v reducesTo_S256_S_d0 h_S_) main_v83 main_c_33
  let main_v85 : IVec S_ 1 := andi main_v81 main_v84
  let main_c_34 : IVec S_ 32 := constantI S_ 32 4096#32
  let main_v86 : IVec S256 32 := broadcastInDim S256 ![] bcast_S_S256 main_c_34
  let main_v87 : IVec S256 1 := cmpi .slt main_arg4 main_v86
  let main_c_35 : IVec S_ 1 := constantI S_ 1 1#1
  let main_v88 : IVec S_ 1 := (fun x v => Host.reduce IntOp.andi x v reducesTo_S256_S_d0 h_S_) main_v87 main_c_35
  let main_v89 : IVec S_ 1 := andi main_v85 main_v88
  let main_c_36 : IVec S_ 32 := constantI S_ 32 0#32
  let main_v90 : IVec S256 32 := broadcastInDim S256 ![] bcast_S_S256 main_c_36
  let main_v91 : IVec S256 1 := cmpi .sge main_arg5 main_v90
  let main_c_37 : IVec S_ 1 := constantI S_ 1 1#1
  let main_v92 : IVec S_ 1 := (fun x v => Host.reduce IntOp.andi x v reducesTo_S256_S_d0 h_S_) main_v91 main_c_37
  let main_v93 : IVec S_ 1 := andi main_v89 main_v92
  let main_c_38 : IVec S_ 32 := constantI S_ 32 4096#32
  let main_v94 : IVec S256 32 := broadcastInDim S256 ![] bcast_S_S256 main_c_38
  let main_v95 : IVec S256 1 := cmpi .slt main_arg5 main_v94
  let main_c_39 : IVec S_ 1 := constantI S_ 1 1#1
  let main_v96 : IVec S_ 1 := (fun x v => Host.reduce IntOp.andi x v reducesTo_S256_S_d0 h_S_) main_v95 main_c_39
  let main_v97 : IVec S_ 1 := andi main_v93 main_v96
  main_v97

def fn_part4 {F : FTy → Type} [FloatOps F] (main_arg3 : IVec S256 32) (main_arg4 : IVec S256 32) (main_arg5 : IVec S256 32) (main_arg17 : FVec F S256 .f32) (main_v63 : IVec S_ 1) (main_v67 : IVec S_ 1) : IVec S_ 1 :=
  let main_v68 : IVec S_ 1 := andi main_v63 main_v67
  let main_v69 : FVec F S256 .f32 := Host.absf main_arg17
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_c_28 : IVec S_ 32 := constantI S_ 32 0#32
  let main_v74 : IVec S256 32 := broadcastInDim S256 ![] bcast_S_S256 main_c_28
  let main_v75 : IVec S256 1 := cmpi .sge main_arg3 main_v74
  let main_c_29 : IVec S_ 1 := constantI S_ 1 1#1
  let main_v76 : IVec S_ 1 := (fun x v => Host.reduce IntOp.andi x v reducesTo_S256_S_d0 h_S_) main_v75 main_c_29
  let main_v77 : IVec S_ 1 := andi main_v73 main_v76
  let main_c_30 : IVec S_ 32 := constantI S_ 32 16384#32
  let main_v78 : IVec S256 32 := broadcastInDim S256 ![] bcast_S_S256 main_c_30
  let main_v79 : IVec S256 1 := cmpi .slt main_arg3 main_v78
  let main_c_31 : IVec S_ 1 := constantI S_ 1 1#1
  let main_v80 : IVec S_ 1 := (fun x v => Host.reduce IntOp.andi x v reducesTo_S256_S_d0 h_S_) main_v79 main_c_31
  let main_v81 : IVec S_ 1 := andi main_v77 main_v80
  let main_c_32 : IVec S_ 32 := constantI S_ 32 0#32
  let main_v82 : IVec S256 32 := broadcastInDim S256 ![] bcast_S_S256 main_c_32
  let main_v83 : IVec S256 1 := cmpi .sge main_arg4 main_v82
  let main_c_33 : IVec S_ 1 := constantI S_ 1 1#1
  fn_part5 (F := F) main_arg4 main_arg5 main_v81 main_v83 main_c_33

def fn_part3 {F : FTy → Type} [FloatOps F] (main_arg3 : IVec S256 32) (main_arg4 : IVec S256 32) (main_arg5 : IVec S256 32) (main_arg14 : FVec F S256x256 .f32) (main_arg15 : FVec F S256 .f32) (main_arg16 : FVec F S256x256 .f32) (main_arg17 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg14
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg15
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg16
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg3 main_arg4 main_arg5 main_arg17 main_v63 main_v67

def fn_part2 {F : FTy → Type} [FloatOps F] (main_arg3 : IVec S256 32) (main_arg4 : IVec S256 32) (main_arg5 : IVec S256 32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_v33 : IVec S_ 1) : IVec S_ 1 :=
  let main_v34 : FVec F S256x256 .f32 := Host.absf main_arg10
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg12
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg3 main_arg4 main_arg5 main_arg14 main_arg15 main_arg16 main_arg17 main_v48 main_v49 main_v50

def fn_part1 {F : FTy → Type} [FloatOps F] (main_arg3 : IVec S256 32) (main_arg4 : IVec S256 32) (main_arg5 : IVec S256 32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg3 main_arg4 main_arg5 main_arg10 main_arg11 main_arg12 main_arg13 main_arg14 main_arg15 main_arg16 main_arg17 main_v33

def fn {F : FTy → Type} [FloatOps F] (main_arg0 : FVec F S8x128x128x128 .f32) (main_arg1 : FVec F S8x256x64x64 .f32) (main_arg2 : FVec F S8x256x64x64 .f32) (main_arg3 : IVec S256 32) (main_arg4 : IVec S256 32) (main_arg5 : IVec S256 32) (main_arg6 : FVec F S128x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) : IVec S_ 1 :=
  let main_v0 : FVec F S8x128x128x128 .f32 := Host.absf main_arg0
  let main_cst : FVec F S_ .f32 := constant S_ .f32 0x7F800000#32
  let main_v1 : FVec F S8x128x128x128 .f32 := broadcastInDim S8x128x128x128 ![] bcast_S_S8x128x128x128 main_cst
  let main_v2 : IVec S8x128x128x128 1 := cmpf .olt main_v0 main_v1
  let main_c : IVec S_ 1 := constantI S_ 1 1#1
  let main_v3 : IVec S_ 1 := (fun x v => Host.reduce IntOp.andi x v reducesTo_S8x128x128x128_S_d0_1_2_3 h_S_) main_v2 main_c
  let main_v4 : FVec F S8x256x64x64 .f32 := Host.absf main_arg1
  let main_cst_0 : FVec F S_ .f32 := constant S_ .f32 0x7F800000#32
  let main_v5 : FVec F S8x256x64x64 .f32 := broadcastInDim S8x256x64x64 ![] bcast_S_S8x256x64x64 main_cst_0
  let main_v6 : IVec S8x256x64x64 1 := cmpf .olt main_v4 main_v5
  let main_c_1 : IVec S_ 1 := constantI S_ 1 1#1
  let main_v7 : IVec S_ 1 := (fun x v => Host.reduce IntOp.andi x v reducesTo_S8x256x64x64_S_d0_1_2_3 h_S_) main_v6 main_c_1
  let main_v8 : IVec S_ 1 := andi main_v3 main_v7
  let main_v9 : FVec F S8x256x64x64 .f32 := Host.absf main_arg2
  let main_cst_2 : FVec F S_ .f32 := constant S_ .f32 0x7F800000#32
  let main_v10 : FVec F S8x256x64x64 .f32 := broadcastInDim S8x256x64x64 ![] bcast_S_S8x256x64x64 main_cst_2
  let main_v11 : IVec S8x256x64x64 1 := cmpf .olt main_v9 main_v10
  let main_c_3 : IVec S_ 1 := constantI S_ 1 1#1
  let main_v12 : IVec S_ 1 := (fun x v => Host.reduce IntOp.andi x v reducesTo_S8x256x64x64_S_d0_1_2_3 h_S_) main_v11 main_c_3
  let main_v13 : IVec S_ 1 := andi main_v8 main_v12
  let main_v14 : FVec F S128x256 .f32 := Host.absf main_arg6
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg3 main_arg4 main_arg5 main_arg7 main_arg8 main_arg9 main_arg10 main_arg11 main_arg12 main_arg13 main_arg14 main_arg15 main_arg16 main_arg17 main_v13 main_v16
-- ==== Kernel.lean ====
abbrev S8x128x128x128 : Shape := ⟨4, ![8, 128, 128, 128]⟩
abbrev S8x256x64x64 : Shape := ⟨4, ![8, 256, 64, 64]⟩
abbrev S256 : Shape := ⟨1, ![256]⟩
abbrev S128x256 : Shape := ⟨2, ![128, 256]⟩
abbrev S256x256 : Shape := ⟨2, ![256, 256]⟩
abbrev S8x128x16384 : Shape := ⟨3, ![8, 128, 16384]⟩
abbrev S1x256 : Shape := ⟨2, ![1, 256]⟩
abbrev S2048x256 : Shape := ⟨2, ![2048, 256]⟩
abbrev S1x128x8192 : Shape := ⟨3, ![1, 128, 8192]⟩
abbrev S128x8192 : Shape := ⟨2, ![128, 8192]⟩
abbrev S8192x1 : Shape := ⟨2, ![8192, 1]⟩
abbrev S8192x256 : Shape := ⟨2, ![8192, 256]⟩
abbrev S256x128 : Shape := ⟨2, ![256, 128]⟩
abbrev S256x1 : Shape := ⟨2, ![256, 1]⟩
abbrev S8x256x4096 : Shape := ⟨3, ![8, 256, 4096]⟩
abbrev S1x256x4096 : Shape := ⟨3, ![1, 256, 4096]⟩
abbrev S256x4096 : Shape := ⟨2, ![256, 4096]⟩
abbrev S4096x1 : Shape := ⟨2, ![4096, 1]⟩
abbrev S4096x256 : Shape := ⟨2, ![4096, 256]⟩

abbrev nBuf : Space → Nat
  | .hbm => 33
  | .vmem => 30
  | .smem => 0
  | _ => 0

abbrev bufTy : (tb : Table) → Fin (tcTables nBuf tb) → BufTy
  | .hbm, ⟨0, _⟩ => ⟨S8x128x128x128, .f32⟩
  | .hbm, ⟨1, _⟩ => ⟨S8x256x64x64, .f32⟩
  | .hbm, ⟨2, _⟩ => ⟨S8x256x64x64, .f32⟩
  | .hbm, ⟨3, _⟩ => ⟨S256, .i32⟩
  | .hbm, ⟨4, _⟩ => ⟨S256, .i32⟩
  | .hbm, ⟨5, _⟩ => ⟨S256, .i32⟩
  | .hbm, ⟨6, _⟩ => ⟨S128x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S8x128x16384, .f32⟩
  | .hbm, ⟨19, _⟩ => ⟨S1x256, .i32⟩
  | .hbm, ⟨20, _⟩ => ⟨S1x256, .f32⟩
  | .hbm, ⟨21, _⟩ => ⟨S1x256, .f32⟩
  | .hbm, ⟨22, _⟩ => ⟨S2048x256, .f32⟩
  | .hbm, ⟨23, _⟩ => ⟨S8x256x4096, .f32⟩
  | .hbm, ⟨24, _⟩ => ⟨S1x256, .i32⟩
  | .hbm, ⟨25, _⟩ => ⟨S1x256, .f32⟩
  | .hbm, ⟨26, _⟩ => ⟨S1x256, .f32⟩
  | .hbm, ⟨27, _⟩ => ⟨S2048x256, .f32⟩
  | .hbm, ⟨28, _⟩ => ⟨S8x256x4096, .f32⟩
  | .hbm, ⟨29, _⟩ => ⟨S1x256, .i32⟩
  | .hbm, ⟨30, _⟩ => ⟨S1x256, .f32⟩
  | .hbm, ⟨31, _⟩ => ⟨S1x256, .f32⟩
  | .hbm, ⟨32, _⟩ => ⟨S2048x256, .f32⟩
  | .local _ .vmem, ⟨0, _⟩ => ⟨S1x256, .i32⟩
  | .local _ .vmem, ⟨1, _⟩ => ⟨S1x128x8192, .f32⟩
  | .local _ .vmem, ⟨2, _⟩ => ⟨S1x128x8192, .f32⟩
  | .local _ .vmem, ⟨3, _⟩ => ⟨S128x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S256x256, .f32⟩
  | .local _ .vmem, ⟨9, _⟩ => ⟨S128x256, .f32⟩
  | .local _ .vmem, ⟨10, _⟩ => ⟨S1x256, .i32⟩
  | .local _ .vmem, ⟨11, _⟩ => ⟨S1x256x4096, .f32⟩
  | .local _ .vmem, ⟨12, _⟩ => ⟨S1x256x4096, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S1x256, .i32⟩
  | .local _ .vmem, ⟨21, _⟩ => ⟨S1x256x4096, .f32⟩
  | .local _ .vmem, ⟨22, _⟩ => ⟨S1x256x4096, .f32⟩
  | .local _ .vmem, ⟨23, _⟩ => ⟨S256x256, .f32⟩
  | .local _ .vmem, ⟨24, _⟩ => ⟨S1x256, .f32⟩
  | .local _ .vmem, ⟨25, _⟩ => ⟨S256x256, .f32⟩
  | .local _ .vmem, ⟨26, _⟩ => ⟨S1x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc2_scratch0 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v24 : BitVec 1 := Scalar.cmpi .eq arg1 c1_i32
  let v25 : BitVec 32 := Scalar.extui v24
  let c0_i32_9 : BitVec 32 := 0#32
  let v26 : BitVec 1 := Scalar.cmpi .ne v25 c0_i32_9
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 1], ![false, false]⟩

def k1_cond2 (i : grid1.Coords) : BitVec 1 :=
  let arg1 : BitVec 32 := BitVec.ofNat 32 (i 1).val
  let c0_i32_9 : BitVec 32 := 0#32
  let v24 : BitVec 1 := Scalar.cmpi .eq arg1 c0_i32_9
  let v25 : BitVec 32 := Scalar.extui v24
  let c0_i32_10 : BitVec 32 := 0#32
  let v26 : BitVec 1 := Scalar.cmpi .ne v25 c0_i32_10
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S1x256 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![8, 1], ![false, false]⟩

def k2_cond2 (i : grid2.Coords) : BitVec 1 :=
  let arg1 : BitVec 32 := BitVec.ofNat 32 (i 1).val
  let c0_i32_9 : BitVec 32 := 0#32
  let v24 : BitVec 1 := Scalar.cmpi .eq arg1 c0_i32_9
  let v25 : BitVec 32 := Scalar.extui v24
  let c0_i32_10 : BitVec 32 := 0#32
  let v26 : BitVec 1 := Scalar.cmpi .ne v25 c0_i32_10
  v26

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .vmem S1x256 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x256x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S256x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S8x128x128x128_S8x128x16384 : S8x128x128x128.ShapeCasts S8x128x16384
  shapeCasts_S256_S1x256 : S256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128x8192_S1x128x8192_0_0_0 : ∀ a, (![0, 0, 0] : Fin 3 → Nat) a + S1x128x8192.size a ≤ S1x128x8192.size a
  h_S1x128x8192 : 0 < S1x128x8192.numel
  shapeCasts_S1x128x8192_S128x8192 : S1x128x8192.ShapeCasts S128x8192
  bitsLt_bf16_f32 : FTy.bits .bf16 < FTy.bits .f32
  iota_S8192x1_d0_w32 : S8192x1.Iotas .tc 32 [0]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S8192x1_S8192x256 : S8192x1.Broadcasts S8192x256
  broadcasts_S1x256_S8192x256 : S1x256.Broadcasts S8192x256
  natLt_1_32 : 1 < 32
  transposes_S128x256_p1_0_S256x128 : S128x256.Transposes [1, 0] S256x128
  broadcasts_S1x256_S256x256 : S1x256.Broadcasts S256x256
  inb_S256x256_S256x256_0_0 : ∀ a, (![0, 0] : Fin 2 → Nat) a + S256x256.size a ≤ S256x256.size a
  h_S256x256 : 0 < S256x256.numel
  reduces_S256x256_S256 : S256x256.Reduces [1] S256
  shapeCasts_S256_S256x1 : S256.ShapeCasts S256x1
  broadcasts_S256x1_S256x256 : S256x1.Broadcasts S256x256
  shapeCasts_S8x256x64x64_S8x256x4096 : S8x256x64x64.ShapeCasts S8x256x4096
  shapeCasts_S256x256_S256x256 : S256x256.ShapeCasts S256x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  iota_S4096x1_d0_w32 : S4096x1.Iotas .tc 32 [0]
  broadcasts_S4096x1_S4096x256 : S4096x1.Broadcasts S4096x256
  broadcasts_S1x256_S4096x256 : S1x256.Broadcasts S4096x256
  transposes_S256x256_p1_0_S256x256 : S256x256.Transposes [1, 0] S256x256
  dot_S128x8192_S8192x256_S128x256_1_0_0_1_n_n_wf : DotDims.WF S128x8192 S8192x256 S128x256 [1] [0] [0] [1] [] []
  dot_S256x128_S128x256_S256x256_1_0_0_1_n_n_wf : DotDims.WF S256x128 S128x256 S256x256 [1] [0] [0] [1] [] []
  dot_S256x256_S256x256_S256x256_1_0_0_1_n_n_wf : DotDims.WF S256x256 S256x256 S256x256 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x256.size a ≤ S1x256.size a
  hwx0_0 : ∀ i : grid0.Coords, EltTy.bits .i32 = 32 ∨ (Rect.block (s := S1x256) S1x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x8192.size a ≤ S8x128x16384.size a
  hwx0_1 : ∀ i : grid0.Coords, EltTy.bits .f32 = 32 ∨ (Rect.block (s := S8x128x16384) S1x128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S2048x256.size a
  hwx0_6 : ∀ i : grid0.Coords, EltTy.bits .f32 = 32 ∨ (Rect.block (s := S2048x256) S256x256.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x256.size a ≤ S1x256.size a
  hwx1_0 : ∀ i : grid1.Coords, EltTy.bits .i32 = 32 ∨ (Rect.block (s := S1x256) S1x256.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x4096.size a ≤ S8x256x4096.size a
  hwx1_1 : ∀ i : grid1.Coords, EltTy.bits .f32 = 32 ∨ (Rect.block (s := S8x256x4096) S1x256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S2048x256.size a
  hwx1_6 : ∀ i : grid1.Coords, EltTy.bits .f32 = 32 ∨ (Rect.block (s := S2048x256) S256x256.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x256.size a ≤ S1x256.size a
  hwx2_0 : ∀ i : grid2.Coords, EltTy.bits .i32 = 32 ∨ (Rect.block (s := S1x256) S1x256.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x4096.size a ≤ S8x256x4096.size a
  hwx2_1 : ∀ i : grid2.Coords, EltTy.bits .f32 = 32 ∨ (Rect.block (s := S8x256x4096) S1x256x4096.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S2048x256.size a
  hwx2_6 : ∀ i : grid2.Coords, EltTy.bits .f32 = 32 ∨ (Rect.block (s := S2048x256) S256x256.size (cc2_transform_6 i) (hinb2_6 i)).WholeWords (EltTy.packing .f32)

variable [Facts₀]

def dot_S128x8192_S8192x256_S128x256_1_0_0_1_n_n : DotDims S128x8192 S8192x256 S128x256 where
  lhsContracting := [1]
  rhsContracting := [0]
  lhsNonContracting := [0]
  rhsNonContracting := [1]
  lhsBatch := []
  rhsBatch := []
  wf := dot_S128x8192_S8192x256_S128x256_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_v1) S1x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v6) S1x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S256x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v11) S1x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1x256x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S256x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S8x128x128x128 : Shape := ⟨4, ![8, 128, 128, 128]⟩
abbrev S8x256x64x64 : Shape := ⟨4, ![8, 256, 64, 64]⟩
abbrev S256 : Shape := ⟨1, ![256]⟩
abbrev S128x256 : Shape := ⟨2, ![128, 256]⟩
abbrev S256x256 : Shape := ⟨2, ![256, 256]⟩
abbrev S8x16384x128 : Shape := ⟨3, ![8, 16384, 128]⟩
abbrev S_ : Shape := ⟨0, ![]⟩
abbrev S256x1 : Shape := ⟨2, ![256, 1]⟩
abbrev S8x256x128 : Shape := ⟨3, ![8, 256, 128]⟩
abbrev S2048x128 : Shape := ⟨2, ![2048, 128]⟩
abbrev S2048x256 : Shape := ⟨2, ![2048, 256]⟩
abbrev S1x256 : Shape := ⟨2, ![1, 256]⟩
abbrev S2048 : Shape := ⟨1, ![2048]⟩
abbrev S2048x1 : Shape := ⟨2, ![2048, 1]⟩
abbrev S8x64x64x256 : Shape := ⟨4, ![8, 64, 64, 256]⟩
abbrev S8x4096x256 : Shape := ⟨3, ![8, 4096, 256]⟩
abbrev S8x256x256 : Shape := ⟨3, ![8, 256, 256]⟩

abbrev nBuf : Space → Nat
  | .hbm => 117
  | .vmem => 0
  | .smem => 0
  | _ => 0

abbrev bufTy : (tb : Table) → Fin (tcTables nBuf tb) → BufTy
  | .hbm, ⟨0, _⟩ => ⟨S8x128x128x128, .f32⟩
  | .hbm, ⟨1, _⟩ => ⟨S8x256x64x64, .f32⟩
  | .hbm, ⟨2, _⟩ => ⟨S8x256x64x64, .f32⟩
  | .hbm, ⟨3, _⟩ => ⟨S256, .i32⟩
  | .hbm, ⟨4, _⟩ => ⟨S256, .i32⟩
  | .hbm, ⟨5, _⟩ => ⟨S256, .i32⟩
  | .hbm, ⟨6, _⟩ => ⟨S128x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S8x128x128x128, .f32⟩
  | .hbm, ⟨19, _⟩ => ⟨S8x16384x128, .f32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S8x256x128, .f32⟩
  | .hbm, ⟨29, _⟩ => ⟨S2048x128, .f32⟩
  | .hbm, ⟨30, _⟩ => ⟨S2048x256, .f32⟩
  | .hbm, ⟨31, _⟩ => ⟨S1x256, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S1x256, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x256, .f32⟩
  | .hbm, ⟨50, _⟩ => ⟨S2048x256, .f32⟩
  | .hbm, ⟨51, _⟩ => ⟨S8x64x64x256, .f32⟩
  | .hbm, ⟨52, _⟩ => ⟨S8x4096x256, .f32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S256x1, .i32⟩
  | .hbm, ⟨61, _⟩ => ⟨S8x256x256, .f32⟩
  | .hbm, ⟨62, _⟩ => ⟨S2048x256, .f32⟩
  | .hbm, ⟨63, _⟩ => ⟨S2048x256, .f32⟩
  | .hbm, ⟨64, _⟩ => ⟨S1x256, .f32⟩
  | .hbm, ⟨65, _⟩ => ⟨S2048x256, .f32⟩
  | .hbm, ⟨66, _⟩ => ⟨S2048x256, .f32⟩
  | .hbm, ⟨67, _⟩ => ⟨S_, .f32⟩
  | .hbm, ⟨68, _⟩ => ⟨S2048x256, .f32⟩
  | .hbm, ⟨69, _⟩ => ⟨S2048x256, .f32⟩
  | .hbm, ⟨70, _⟩ => ⟨S2048x256, .f32⟩
  | .hbm, ⟨71, _⟩ => ⟨S1x256, .f32⟩
  | .hbm, ⟨72, _⟩ => ⟨S2048x256, .f32⟩
  | .hbm, ⟨73, _⟩ => ⟨S2048x256, .f32⟩
  | .hbm, ⟨74, _⟩ => ⟨S2048x256, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S2048x256, .f32⟩
  | .hbm, ⟨83, _⟩ => ⟨S2048x256, .f32⟩
  | .hbm, ⟨84, _⟩ => ⟨S8x64x64x256, .f32⟩
  | .hbm, ⟨85, _⟩ => ⟨S8x4096x256, .f32⟩
  | .hbm, ⟨86, _⟩ => ⟨S_, .i32⟩
  | .hbm, ⟨87, _⟩ => ⟨S256, .i32⟩
  | .hbm, ⟨88, _⟩ => ⟨S256, .i1⟩
  | .hbm, ⟨89, _⟩ => ⟨S_, .i32⟩
  | .hbm, ⟨90, _⟩ => ⟨S256, .i32⟩
  | .hbm, ⟨91, _⟩ => ⟨S256, .i32⟩
  | .hbm, ⟨92, _⟩ => ⟨S256, .i32⟩
  | .hbm, ⟨93, _⟩ => ⟨S256x1, .i32⟩
  | .hbm, ⟨94, _⟩ => ⟨S8x256x256, .f32⟩
  | .hbm, ⟨95, _⟩ => ⟨S2048x256, .f32⟩
  | .hbm, ⟨96, _⟩ => ⟨S2048x256, .f32⟩
  | .hbm, ⟨97, _⟩ => ⟨S1x256, .f32⟩
  | .hbm, ⟨98, _⟩ => ⟨S2048x256, .f32⟩
  | .hbm, ⟨99, _⟩ => ⟨S2048x256, .f32⟩
  | .hbm, ⟨100, _⟩ => ⟨S_, .f32⟩
  | .hbm, ⟨101, _⟩ => ⟨S2048x256, .f32⟩
  | .hbm, ⟨102, _⟩ => ⟨S2048x256, .f32⟩
  | .hbm, ⟨103, _⟩ => ⟨S2048x256, .f32⟩
  | .hbm, ⟨104, _⟩ => ⟨S1x256, .f32⟩
  | .hbm, ⟨105, _⟩ => ⟨S2048x256, .f32⟩
  | .hbm, ⟨106, _⟩ => ⟨S2048x256, .f32⟩
  | .hbm, ⟨107, _⟩ => ⟨S2048x256, .f32⟩
  | .hbm, ⟨108, _⟩ => ⟨S_, .f32⟩
  | .hbm, ⟨109, _⟩ => ⟨S2048, .f32⟩
  | .hbm, ⟨110, _⟩ => ⟨S2048x1, .f32⟩
  | .hbm, ⟨111, _⟩ => ⟨S2048x1, .f32⟩
  | .hbm, ⟨112, _⟩ => ⟨S_, .f32⟩
  | .hbm, ⟨113, _⟩ => ⟨S2048x1, .f32⟩
  | .hbm, ⟨114, _⟩ => ⟨S2048x1, .f32⟩
  | .hbm, ⟨115, _⟩ => ⟨S2048x256, .f32⟩
  | .hbm, ⟨116, _⟩ => ⟨S2048x256, .f32⟩
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call0_cst : Ref sig .tc := ⟨.hbm, 34, rfl⟩
abbrev main_call0_v0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_2 : Ref sig .tc := ⟨.hbm, 53, rfl⟩
abbrev main_v29 : Ref sig .tc := ⟨.hbm, 54, rfl⟩
abbrev main_v30 : Ref sig .tc := ⟨.hbm, 55, rfl⟩
abbrev main_c_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call1_cst : Ref sig .tc := ⟨.hbm, 67, rfl⟩
abbrev main_call1_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_5 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_6 : Ref sig .tc := ⟨.hbm, 86, rfl⟩
abbrev main_v56 : Ref sig .tc := ⟨.hbm, 87, rfl⟩
abbrev main_v57 : Ref sig .tc := ⟨.hbm, 88, rfl⟩
abbrev main_c_7 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call2_cst : Ref sig .tc := ⟨.hbm, 100, rfl⟩
abbrev main_call2_v0 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_8 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_9 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]

class Facts₀ : Prop where
  transposes_S8x128x128x128_S8x128x128x128_0_2_3_1 : S8x128x128x128.Transposes [0, 2, 3, 1] S8x128x128x128
  shapeCasts_S8x128x128x128_S8x16384x128 : S8x128x128x128.ShapeCasts S8x16384x128
  bcast_S_S256 : S_.BroadcastsInDim S256 (![] : Fin 0 → Fin S256.rank)
  bcast_S256_S256x1_0 : S256.BroadcastsInDim S256x1 (![0] : Fin 1 → Fin S256x1.rank)
  shapeCasts_S8x256x128_S2048x128 : S8x256x128.ShapeCasts S2048x128
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  reducesTo_S2048x256_S2048_d1 : S2048x256.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  transposes_S8x256x64x64_S8x64x64x256_0_2_3_1 : S8x256x64x64.Transposes [0, 2, 3, 1] S8x64x64x256
  shapeCasts_S8x64x64x256_S8x4096x256 : S8x64x64x256.ShapeCasts S8x4096x256
  shapeCasts_S8x256x256_S2048x256 : S8x256x256.ShapeCasts S2048x256
  gather_S8x16384x128_S256x1_S8x256x128_02_1_n_n_1_1_81128_wf : GatherDims.WF S8x16384x128 S256x1 S8x256x128 [0, 2] [1] [] [1] [] 1 ![8, 1, 128]
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  gather_S8x4096x256_S256x1_S8x256x256_02_1_n_n_1_1_81256_wf : GatherDims.WF S8x4096x256 S256x1 S8x256x256 [0, 2] [1] [] [1] [] 1 ![8, 1, 256]

variable [Facts₀]

def gather_S8x16384x128_S256x1_S8x256x128_02_1_n_n_1_1_81128 : GatherDims S8x16384x128 S256x1 S8x256x128 where
  offsetDims := [0, 2]
  collapsedSliceDims := [1]
  operandBatchingDims := []
  startIndicesBatchingDims := []
  startIndexMap := [1]
  indexVectorDim := 1
  sliceSizes := ![8, 1, 128]
  wf := gather_S8x16384x128_S256x1_S8x256x128_02_1_n_n_1_1_81128_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S8x4096x256_S256x1_S8x256x256_02_1_n_n_1_1_81256 : GatherDims S8x4096x256 S256x1 S8x256x256 where
  offsetDims := [0, 2]
  collapsedSliceDims := [1]
  operandBatchingDims := []
  startIndicesBatchingDims := []
  startIndexMap := [1]
  indexVectorDim := 1
  sliceSizes := ![8, 1, 256]
  wf := gather_S8x4096x256_S256x1_S8x256x256_02_1_n_n_1_1_81256_wf

class Facts : Prop extends Facts₀ where

variable [Facts]
-- ==== Proof.FrameKI.R0Setup.lean ====
/-
  Kernel call 0 (grid 8 × 2: batch, then the two halves of the 16384 positions): the vocabulary its body's runs and
  its proof data are stated over. A window's block at a point is read off the array the region finds; an input's
  staging buffer holds that block at every point; the two branch conditions of the body are decided over the grid
  (the accumulator is reset at the even points, the output written at the odd ones); the scratch accumulator is the
  one scoped buffer of this call that is no staging buffer, and the rest of the scoped buffers ride along unopened.
-/
import proofs.«402699_j35115652612732_3_alg».proof.Proof.Gen.KernelIdeal.Launch
import proofs.«402699_j35115652612732_3_alg».proof.Proof.Gen.KernelIdeal.Skeleton
import proofs.«402699_j35115652612732_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (where it is not fetched the
    block index has not moved), for any proof data over `V` whose body leaves the block in place: one statement per
    input window (the windows are uncut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
end

/-! ## The branch conditions over the grid -/

/-- The accumulator is reset: the position coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- The output is computed and stored: the position coordinate is the last. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-- The output window is idle (and not written back) exactly at the even points. -/
theorem idle0_6_even : ∀ t : Fin cfg0.N, t.val % 2 = 0 → cfg0.idle 6 (grid0.coords t) = true := by decide +kernel
theorem live0_6_odd : ∀ t : Fin cfg0.N, t.val % 2 = 1 → cfg0.idle 6 (grid0.coords t) = false := by decide +kernel
theorem noFlush0_6_even : ∀ t : Fin cfg0.N, t.val % 2 = 0 → (cfg0.win 6).flush t = false := by decide +kernel

/-! ## The memrefs the body is called with -/

abbrev ms0_0 (t : Fin cfg0.N) : Memref sig .tc .vmem S1x256 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
/-- The scratch accumulator, a whole scoped buffer of the kernel's own. -/
abbrev scM0 : Memref sig .tc .vmem S128x256 .f32 := Memref.whole cc0_scratch0

/-- The class invariant with the scratch accumulator singled out: the accumulator at some contents, every other scoped
    buffer that is no staging buffer of this call unopened, the generator register at some state. -/
theorem PhiA0_eq (c : Dev nD) :
    (Pipeline.ΦA spec0 c : sProp 𝕄)
      = iprop((iprop(∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole, bigSepL]
  try rfl

end Cert.KernelIdeal.Fr

end
-- ==== Proof.FrameKI.R0Body.lean ====
/-
  Kernel call 0: what one call of the body does to its buffers, in its two cases.
  At an even point (position coordinate 0) the accumulator is zeroed and the first half's contribution added; the
  output buffer is not touched. At an odd point the second half's contribution is added to what the point before
  left, and the output buffer receives the perceptron-and-normalise of the accumulated block. The stored values are
  the skeleton's payloads of the loaded blocks: every store fills its whole buffer, so what a later load of the
  buffer reads, and what the buffer ends with, is the last stored payload.
-/
import proofs.«402699_j35115652612732_3_alg».proof.Proof.FrameKI.R0Setup
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer access, rank 2 and rank 3. -/
theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl

set_option maxHeartbeats 4000000 in
/-- EVEN POINT. Inputs at their blocks, the output buffer at contents `xi6` handed back untouched, the accumulator at
    anything: the body ends with the accumulator at the first half's contribution over zeros. -/
theorem run0_even (c : Dev nD) (E : Set ℕ) (i : grid0.Coords) (hc0 : cond0_0 i) (hc1 : ¬cond0_1 i) (arg2 : Memref sig .tc .vmem S1x256 .i32) (harg2 : arg2.IsWhole) (arg3 : Memref sig .tc .vmem S1x128x8192 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S128x256 .f32) (harg9 : arg9.IsWhole)
    (x0 : Vec F S1x256 .i32) (x1 : Vec F S1x128x8192 .f32) (x2 : Vec F S128x256 .f32) (x3 : Vec F S1x256 .f32) (x4 : Vec F S256x256 .f32) (x5 : Vec F S1x256 .f32) (xi6 : Vec F S256x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
        ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare (k0_pay2 i x1 x0 (k0_pay1 (F := F)))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  iexists _; isplitr
  swap; · iexact H9
  ipureintro
  try sl_unfold_words
  rw [View.read_writes_eq_canon _ _ _ (fun y => ⟨_, List.mem_cons_self, View.mem_set_unit_zero hz2 inb_S128x256_S128x256_0_0 y⟩)]
  rw [View.canon_cons_unit_zero hz2]
  try sl_unfold_words
  try rw [View.readCov_unit_zero _ hz2]
  try rw [View.readCov_unit_zero _ hz2]
  simp only [View.readAt_eq_ld, harg2.read_unread, harg3.read_unread, harg4.read_unread, harg5.read_unread, harg6.read_unread, harg7.read_unread, harg9.read_unread, View.ld_unit_zero (S := S1x128x8192) hz3, View.ld_unit_zero (S := S1x256) hz2, View.ld_unit_zero (S := S128x256) hz2, View.ld_unit_zero (S := S256x256) hz2]

set_option maxHeartbeats 4000000 in
/-- ODD POINT. Inputs at their blocks, the output buffer at anything, the accumulator at `xs` (what the point before
    left): the body ends with the accumulator at the second half's contribution over `xs` and the output buffer at the
    perceptron-and-normalise of that. -/
theorem run0_odd (c : Dev nD) (E : Set ℕ) (i : grid0.Coords) (hc0 : ¬cond0_0 i) (hc1 : cond0_1 i) (arg2 : Memref sig .tc .vmem S1x256 .i32) (harg2 : arg2.IsWhole) (arg3 : Memref sig .tc .vmem S1x128x8192 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S128x256 .f32) (harg9 : arg9.IsWhole)
    (x0 : Vec F S1x256 .i32) (x1 : Vec F S1x128x8192 .f32) (x2 : Vec F S128x256 .f32) (x3 : Vec F S1x256 .f32) (x4 : Vec F S256x256 .f32) (x5 : Vec F S1x256 .f32) (xs : Vec F S128x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k0_pay3 (k0_pay2 i x1 x0 xs) x2 x3 x4 x5)
            ∗ owns (c : Thread nD τ) arg9 fullShare (k0_pay2 i x1 x0 xs)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg9.eq_unread hf9
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H8]
  · iexists _; isplitr
    swap; · iexact H8
    ipureintro
    try sl_unfold_words
    rw [View.read_writes_eq_canon _ _ _ (fun y => ⟨_, List.mem_cons_self, View.mem_set_unit_zero hz2 inb_S256x256_S256x256_0_0 y⟩)]
    rw [View.canon_cons_unit_zero hz2]
    try sl_unfold_words
    try rw [View.readCov_unit_zero _ hz2]
    try rw [View.readCov_unit_zero _ hz2]
    simp only [View.readAt_eq_ld, harg2.read_unread, harg3.read_unread, harg4.read_unread, harg5.read_unread, harg6.read_unread, harg7.read_unread, harg9.read_unread, View.ld_unit_zero (S := S1x128x8192) hz3, View.ld_unit_zero (S := S1x256) hz2, View.ld_unit_zero (S := S128x256) hz2, View.ld_unit_zero (S := S256x256) hz2]
  iexists _; isplitr
  swap; · iexact H9
  ipureintro
  try sl_unfold_words
  rw [View.read_writes_eq_canon _ _ _ (fun y => ⟨_, List.mem_cons_self, View.mem_set_unit_zero hz2 inb_S128x256_S128x256_0_0 y⟩)]
  rw [View.canon_cons_unit_zero hz2]
  try sl_unfold_words
  try rw [View.readCov_unit_zero _ hz2]
  try rw [View.readCov_unit_zero _ hz2]
  simp only [View.readAt_eq_ld, harg2.read_unread, harg3.read_unread, harg4.read_unread, harg5.read_unread, harg6.read_unread, harg7.read_unread, harg9.read_unread, View.ld_unit_zero (S := S1x128x8192) hz3, View.ld_unit_zero (S := S1x256) hz2, View.ld_unit_zero (S := S128x256) hz2, View.ld_unit_zero (S := S256x256) hz2]

end Cert.KernelIdeal.Fr

end
-- ==== Proof.FrameKI.R0Dat.lean ====
/-
  Kernel call 0: the proof data of its pipeline over the contents `V` the region finds, and the body obligation.
  After point `t = 2·b + k` the accumulator holds the contributions of the halves `0 … k` of batch `b`; an input's
  buffer holds its block; the output's buffer, at an odd point, holds the perceptron-and-normalise of the full
  accumulation of its batch. The region invariant carries the accumulator at that value from one point to the next.
-/
import proofs.«402699_j35115652612732_3_alg».proof.Proof.FrameKI.R0Body

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The point before `t` (itself at the first point). -/
abbrev prev0 (t : Fin cfg0.N) : Fin cfg0.N := ⟨t.val - 1, Nat.lt_of_le_of_lt (Nat.sub_le _ _) t.isLt⟩

/-- What an even point leaves in the accumulator: the first half's contribution over zeros. -/
def accEven0 (c : Dev nD) (t : Fin cfg0.N) : Vec F S128x256 .f32 :=
  k0_pay2 (grid0.coords t) (iblk0 V c 1 t) (iblk0 V c 0 t) (k0_pay1 (F := F))

/-- The accumulator after point `t`: at an even point the first half's contribution; at an odd one the second half's
    added to what the (even) point before left. -/
def scAt0 (c : Dev nD) (t : Fin cfg0.N) : Vec F S128x256 .f32 :=
  if t.val % 2 = 0 then accEven0 V c t
  else k0_pay2 (grid0.coords t) (iblk0 V c 1 t) (iblk0 V c 0 t) (accEven0 V c (prev0 t))

/-- The output buffer after (odd) point `t`: the perceptron and the normalisation of the accumulated block. -/
def outAt0 (c : Dev nD) (t : Fin cfg0.N) : Vec F S256x256 .f32 :=
  k0_pay3 (scAt0 V c t) (iblk0 V c 2 t) (iblk0 V c 3 t) (iblk0 V c 4 t) (iblk0 V c 5 t)

theorem scAt0_even (c : Dev nD) (t : Fin cfg0.N) (h : t.val % 2 = 0) : scAt0 V c t = accEven0 V c t := if_pos h
theorem scAt0_odd (c : Dev nD) (t : Fin cfg0.N) (h : ¬t.val % 2 = 0) :
    scAt0 V c t = k0_pay2 (grid0.coords t) (iblk0 V c 1 t) (iblk0 V c 0 t) (accEven0 V c (prev0 t)) := if_neg h

/-- The region invariant before position `n`: before the first point the class's (the accumulator at anything);
    afterwards the accumulator at what the point before left, the other scoped buffers unopened, the generator register
    at some state. -/
def PhiS0 (c : Dev nD) : (n : ℕ) → n ≤ cfg0.N → sProp 𝕄
  | 0, _ => Pipeline.ΦA spec0 c
  | n + 1, hn => iprop((owns (c : Thread nD τ) scM0 fullShare (scAt0 V c ⟨n, hn⟩)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (scAt0 V c ⟨n, hn⟩)
      ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop((owns (c : Thread nD τ) scM0 fullShare (scAt0 V c ⟨n - 1, by omega⟩)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- Whatever the position, the invariant holds the accumulator at SOME contents beside the rest: the class's. -/
theorem PhiS0_weak (c : Dev nD) (n : ℕ) (h : n ≤ cfg0.N) : PhiS0 V c n h ⊢ Pipeline.ΦA spec0 c := by
  by_cases hz : n = 0
  · rw [PhiS0_zero V c n h hz]
  · rw [PhiS0_pos V c n h hz, PhiA0_eq]
    iintro ⟨⟨HS, HR⟩, Hg⟩
    isplitr [Hg]
    · isplitl [HS]
      · iexists _; iexact HS
      iexact HR
    iexact Hg

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

theorem leaves0_in (c : Dev nD) (t : Fin cfg0.N) :
    (dat0 V c).leavesExact 0 t = owns (c : Thread nD τ) (ms0_0 t) fullShare (iblk0 V c 0 t)
    ∧ (dat0 V c).leavesExact 1 t = owns (c : Thread nD τ) (ms0_1 t) fullShare (iblk0 V c 1 t)
    ∧ (dat0 V c).leavesExact 2 t = owns (c : Thread nD τ) (ms0_2 t) fullShare (iblk0 V c 2 t)
    ∧ (dat0 V c).leavesExact 3 t = owns (c : Thread nD τ) (ms0_3 t) fullShare (iblk0 V c 3 t)
    ∧ (dat0 V c).leavesExact 4 t = owns (c : Thread nD τ) (ms0_4 t) fullShare (iblk0 V c 4 t)
    ∧ (dat0 V c).leavesExact 5 t = owns (c : Thread nD τ) (ms0_5 t) fullShare (iblk0 V c 5 t) := by
  refine ⟨?_, ?_, ?_, ?_, ?_, ?_⟩
  · unfold Dat.leavesExact; rw [show cfg0.idle 0 (grid0.coords t) = false from rfl, after0_0]
  · unfold Dat.leavesExact; rw [show cfg0.idle 1 (grid0.coords t) = false from rfl, after0_1]
  · unfold Dat.leavesExact; rw [show cfg0.idle 2 (grid0.coords t) = false from rfl, after0_2]
  · unfold Dat.leavesExact; rw [show cfg0.idle 3 (grid0.coords t) = false from rfl, after0_3]
  · unfold Dat.leavesExact; rw [show cfg0.idle 4 (grid0.coords t) = false from rfl, after0_4]
  · unfold Dat.leavesExact; rw [show cfg0.idle 5 (grid0.coords t) = false from rfl, after0_5]

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  obtain ⟨e0, e1, e2, e3, e4, e5⟩ := leaves0_in V c t
  rw [e0, e1, e2, e3, e4, e5]
  rw [show (dat0 V c).owesAt () t.succ = (dat0 V c).owesAt () t.castSucc from rfl]
  rw [show (dat0 V c).Φ t.succ = PhiS0 V c (t.val + 1) t.isLt from rfl, PhiS0_succ]
  by_cases h0 : t.val % 2 = 0
  · -- an even point: the accumulator reset and the first half added; the output window idle, handed back untouched
    have hc0 : cond0_0 (grid0.coords t) := (hcond0_0 t).mpr h0
    have hc1 : ¬cond0_1 (grid0.coords t) := fun h => by have := (hcond0_1 t).mp h; omega
    rw [Dat.leavesExact_idle (dat0 V c) 6 t (idle0_6_even t h0) (noFlush0_6_even t h0)]
    rw [scAt0_even V c ⟨t.val, t.isLt⟩ h0]
    rw [Phi0_castSucc]
    refine (sep_mono (PhiS0_weak V c _ _) .rfl).trans ?_
    rw [PhiA0_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run0_even c Set.univ (grid0.coords t) hc0 hc1 (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0 (Memref.isWhole_whole _)
      (iblk0 V c 0 t) (iblk0 V c 1 t) (iblk0 V c 2 t) (iblk0 V c 3 t) (iblk0 V c 4 t) (iblk0 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR Hg]
    · isplitr [Hg]
      · isplitl [HS]; · unfold accEven0; iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · -- an odd point: the second half added to what the even point before left; the output stored
    have hz : t.val ≠ 0 := by omega
    have hc0 : ¬cond0_0 (grid0.coords t) := fun h => h0 ((hcond0_0 t).mp h)
    have hc1 : cond0_1 (grid0.coords t) := (hcond0_1 t).mpr (by omega)
    rw [show (dat0 V c).leavesExact 6 t = owns (c : Thread nD τ) (ms0_6 t) fullShare (outAt0 V c t) from by
      unfold Dat.leavesExact; rw [live0_6_odd t (by omega), after0_6]]
    rw [scAt0_odd V c ⟨t.val, t.isLt⟩ h0]
    rw [Phi0_castSucc, PhiS0_pos V c _ _ hz]
    rw [scAt0_even V c ⟨t.val - 1, by omega⟩ (by show (t.val - 1) % 2 = 0; omega)]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run0_odd c Set.univ (grid0.coords t) hc0 hc1 (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0 (Memref.isWhole_whole _)
      (iblk0 V c 0 t) (iblk0 V c 1 t) (iblk0 V c 2 t) (iblk0 V c 3 t) (iblk0 V c 4 t) (iblk0 V c 5 t) (accEven0 V c (prev0 t)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitr [Hg]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold outAt0; rw [scAt0_odd V c t h0]
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]

theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl]
  exact PhiS0_weak V c _ _

end

end Cert.KernelIdeal.Fr

end
-- ==== Proof.FrameKI.R1Setup.lean ====
/-
  Kernel call 1 (grid 8 × 1: batch; the 4096 positions in one block): the vocabulary its body's run and its proof data
  are stated over. A window's block at a point is read off the array the region finds; an input's staging buffer
  holds that block at every point; with one position block both branch conditions of the body hold at every point
  (the accumulator is reset, filled and consumed within the point); the scratch accumulator is singled out of the
  scoped buffers that are no staging buffer of this call, the rest riding along unopened.
-/
import proofs.«402699_j35115652612732_3_alg».proof.Proof.Gen.KernelIdeal.Launch
import proofs.«402699_j35115652612732_3_alg».proof.Proof.Gen.KernelIdeal.Skeleton
import proofs.«402699_j35115652612732_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (where it is not fetched the
    block index has not moved), for any proof data over `V` whose body leaves the block in place: one statement per
    input window (the windows are uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
end

/-! ## The branch conditions over the grid -/

/-- The accumulator is reset: the position coordinate is 0 — at every point of this grid. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) :=
  (by decide +kernel : ∀ t : Fin grid1.N, cond1_0 (grid1.coords t))
/-- The output is computed and stored: the position coordinate is the last — at every point of this grid. -/
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))
/-- So the output window is never idle. -/
theorem live1_6 : ∀ t : Fin cfg1.N, cfg1.idle 6 (grid1.coords t) = false := by decide +kernel

/-! ## The memrefs the body is called with -/

abbrev ms1_0 (t : Fin cfg1.N) : Memref sig .tc .vmem S1x256 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x256 .f32 := win1_6.stage (cfg1.slots t 6)
abbrev hs1_6 (t : Fin cfg1.N) : (ms1_6 t).IsWhole := hstage1_6 ((cfg1.slots t 6).cast nbuf1_6)
/-- The scratch accumulator, a whole scoped buffer of the kernel's own. -/
abbrev scM1 : Memref sig .tc .vmem S256x256 .f32 := Memref.whole cc1_scratch0

/-- The class invariant with the scratch accumulator singled out: the accumulator at some contents, every other scoped
    buffer that is no staging buffer of this call unopened, the generator register at some state. -/
theorem PhiA1_eq (c : Dev nD) :
    (Pipeline.ΦA spec1 c : sProp 𝕄)
      = iprop((iprop(∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole, bigSepL]
  try rfl

end Cert.KernelIdeal.Fr

end
-- ==== Proof.FrameKI.R1Body.lean ====
/-
  Kernel call 1: what one call of the body does to its buffers. Every point resets the accumulator, adds the one
  position block's contribution and stores the perceptron-and-normalise of the accumulated block into the output
  buffer. Every store fills its whole buffer, so what a later load of the buffer reads is the last stored payload.
-/
import proofs.«402699_j35115652612732_3_alg».proof.Proof.FrameKI.R1Setup
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer access, rank 2 and rank 3. -/
theorem hzB1 : (![0, 0] : Fin 2 → Nat) = fun _ => 0 := by funext a; match a with | ⟨0, _⟩ => rfl | ⟨1, _⟩ => rfl
theorem hzC1 : (![0, 0, 0] : Fin 3 → Nat) = fun _ => 0 := by funext a; match a with | ⟨0, _⟩ => rfl | ⟨1, _⟩ => rfl | ⟨2, _⟩ => rfl

set_option maxHeartbeats 4000000 in
/-- Inputs at their blocks, the output buffer and the accumulator at anything: the body ends with the output buffer at
    the perceptron-and-normalise of the block's contribution over zeros, the accumulator at some contents. -/
theorem run1 (c : Dev nD) (E : Set ℕ) (i : grid1.Coords) (hc0 : cond1_0 i) (hc1 : cond1_1 i) (arg2 : Memref sig .tc .vmem S1x256 .i32) (harg2 : arg2.IsWhole) (arg3 : Memref sig .tc .vmem S1x256x4096 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole)
    (x0 : Vec F S1x256 .i32) (x1 : Vec F S1x256x4096 .f32) (x2 : Vec F S256x256 .f32) (x3 : Vec F S1x256 .f32) (x4 : Vec F S256x256 .f32) (x5 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare (k1_pay3 (k1_pay2 i x1 x0 (k1_pay1 (F := F))) x2 x3 x4 x5)
            ∗ (∃ d, owns (c : Thread nD τ) arg9 fullShare d)) -∗ K ⟨⟩))
      ⊢ wp frame (wpE (defs₀ (F := F)) Variants.none c none) E (cc1__fused_kernel i arg2 harg2 arg3 harg3 arg4 harg4 arg5 harg5 arg6 harg6 arg7 harg7 arg8 harg8 arg9 harg9) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H8]
  · iexists _; isplitr
    swap; · iexact H8
    ipureintro
    try sl_unfold_words
    rw [View.read_writes_eq_canon _ _ _ (fun y => ⟨_, List.mem_cons_self, View.mem_set_unit_zero hzB1 inb_S256x256_S256x256_0_0 y⟩)]
    rw [View.canon_cons_unit_zero hzB1]
    try sl_unfold_words
    try rw [View.readCov_unit_zero _ hzB1]
    try rw [View.readCov_eq_canon_ld _ _ _ (fun y => ⟨_, List.mem_cons_self, View.mem_set_unit_zero hzB1 inb_S256x256_S256x256_0_0 y⟩), View.canon_cons_unit_zero hzB1]
    try rw [View.readCov_unit_zero _ hzB1]
    simp only [View.readAt_eq_ld, harg2.read_unread, harg3.read_unread, harg4.read_unread, harg5.read_unread, harg6.read_unread, harg7.read_unread, View.ld_unit_zero (S := S1x256x4096) hzC1, View.ld_unit_zero (S := S1x256) hzB1, View.ld_unit_zero (S := S256x256) hzB1]
  iexists _; iexists _; isplitr
  swap; · iexact H9
  ipureintro; rfl

end Cert.KernelIdeal.Fr

end
-- ==== Proof.FrameKI.R1Dat.lean ====
/-
  Kernel call 1: the proof data of its pipeline over the contents `V` the region finds, and the body obligation.
  After point `t` (batch `t`) an input's buffer holds its block and the output's buffer holds the
  perceptron-and-normalise of the contribution of the batch's one position block over zeros. Nothing is carried from
  one point to the next (every point resets the accumulator), so the region invariant is the class's.
-/
import proofs.«402699_j35115652612732_3_alg».proof.Proof.FrameKI.R1Body

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The output buffer after point `t`. -/
def outAt1 (c : Dev nD) (t : Fin cfg1.N) : Vec F S256x256 .f32 :=
  k1_pay3 (k1_pay2 (grid1.coords t) (iblk1 V c 1 t) (iblk1 V c 0 t) (k1_pay1 (F := F))) (iblk1 V c 2 t) (iblk1 V c 3 t) (iblk1 V c 4 t) (iblk1 V c 5 t)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t)

theorem leaves1 (c : Dev nD) (t : Fin cfg1.N) :
    (dat1 V c).leavesExact 0 t = owns (c : Thread nD τ) (ms1_0 t) fullShare (iblk1 V c 0 t)
    ∧ (dat1 V c).leavesExact 1 t = owns (c : Thread nD τ) (ms1_1 t) fullShare (iblk1 V c 1 t)
    ∧ (dat1 V c).leavesExact 2 t = owns (c : Thread nD τ) (ms1_2 t) fullShare (iblk1 V c 2 t)
    ∧ (dat1 V c).leavesExact 3 t = owns (c : Thread nD τ) (ms1_3 t) fullShare (iblk1 V c 3 t)
    ∧ (dat1 V c).leavesExact 4 t = owns (c : Thread nD τ) (ms1_4 t) fullShare (iblk1 V c 4 t)
    ∧ (dat1 V c).leavesExact 5 t = owns (c : Thread nD τ) (ms1_5 t) fullShare (iblk1 V c 5 t)
    ∧ (dat1 V c).leavesExact 6 t = owns (c : Thread nD τ) (ms1_6 t) fullShare (outAt1 V c t) := by
  refine ⟨?_, ?_, ?_, ?_, ?_, ?_, ?_⟩
  · unfold Dat.leavesExact; rw [show cfg1.idle 0 (grid1.coords t) = false from rfl, after1_0]
  · unfold Dat.leavesExact; rw [show cfg1.idle 1 (grid1.coords t) = false from rfl, after1_1]
  · unfold Dat.leavesExact; rw [show cfg1.idle 2 (grid1.coords t) = false from rfl, after1_2]
  · unfold Dat.leavesExact; rw [show cfg1.idle 3 (grid1.coords t) = false from rfl, after1_3]
  · unfold Dat.leavesExact; rw [show cfg1.idle 4 (grid1.coords t) = false from rfl, after1_4]
  · unfold Dat.leavesExact; rw [show cfg1.idle 5 (grid1.coords t) = false from rfl, after1_5]
  · unfold Dat.leavesExact; rw [live1_6 t, after1_6]

set_option maxHeartbeats 4000000 in
/-- The body at any point: the inputs' buffers hold their blocks; both branches are taken; the invariant hands the body
    the accumulator at anything and takes it back at anything. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  obtain ⟨e0, e1, e2, e3, e4, e5, e6⟩ := leaves1 V c t
  rw [e0, e1, e2, e3, e4, e5, e6]
  rw [show (dat1 V c).owesAt () t.succ = (dat1 V c).owesAt () t.castSucc from rfl,
    show (dat1 V c).Φ t.succ = Pipeline.ΦA spec1 c from rfl, show (dat1 V c).Φ t.castSucc = Pipeline.ΦA spec1 c from rfl, PhiA1_eq]
  iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
  iapply (run1 c Set.univ (grid1.coords t) (hcond1_0 t) (hcond1_1 t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) scM1 (Memref.isWhole_whole _)
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [HS HR Hg]
  · isplitr [Hg]
    · isplitl [HS]; · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold outAt1
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end

end Cert.KernelIdeal.Fr

end
-- ==== Proof.FrameKI.Run.lean ====
/-
  The whole run of @main: three stretches of host reshapes, each followed by a kernel call. The buffer contents at
  every boundary are a fold from the launch memory: a host stretch applies its operations, a kernel call replaces
  its output array by what its write-backs leave and changes nothing else. Every weakly fair execution from a memory
  with zero counters terminates, and the final memory holds every unscoped buffer at the last boundary's contents —
  so each argument as launched (no stretch writes one, no call outputs into one) and each result array at what its
  call's pipeline leaves.
-/
import proofs.«402699_j35115652612732_3_alg».proof.Proof.FrameKI.R0Dat
import proofs.«402699_j35115652612732_3_alg».proof.Proof.FrameKI.R1Dat
import proofs.«402699_j35115652612732_3_alg».proof.Proof.FrameKI.R2Dat
import proofs.«402699_j35115652612732_3_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_keep (c : Dev nD) (b : Ref sig .tc) (hb : b ∉ (hostOps0_W : List (Ref sig .tc))) :
    W1 m ρ c (Proc.devRef .tc b) = W0 m ρ c (Proc.devRef .tc b) :=
  StableHlo.after_of_writes_sub hostOps0 _ hostOps0_writes hb

/-- At kernel call 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Kernel call 0 changes no buffer but its output array: an input's array ends as entered. -/
theorem W2_keep (c : Dev nD) (b : Ref sig .tc) (hb : b ≠ Pipeline.arrRef spec0 6) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact ((dat0 (V1 m ρ) c).arrAt_in 2 rfl _).trans (A_eq0 (V1 m ρ) c 2)
    | ⟨3, _⟩ => exact ((dat0 (V1 m ρ) c).arrAt_in 3 rfl _).trans (A_eq0 (V1 m ρ) c 3)
    | ⟨4, _⟩ => exact ((dat0 (V1 m ρ) c).arrAt_in 4 rfl _).trans (A_eq0 (V1 m ρ) c 4)
    | ⟨5, _⟩ => exact ((dat0 (V1 m ρ) c).arrAt_in 5 rfl _).trans (A_eq0 (V1 m ρ) c 5)
    | ⟨6, _⟩ => exact absurd rfl hb
  · exact W2_of_ne m ρ c b fun w e => h ⟨w, e⟩

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
theorem W3_keep (c : Dev nD) (b : Ref sig .tc) (hb : b ∉ (hostOps1_W : List (Ref sig .tc))) :
    W3 m ρ c (Proc.devRef .tc b) = W2 m ρ c (Proc.devRef .tc b) :=
  StableHlo.after_of_writes_sub hostOps1 _ hostOps1_writes hb

/-- At kernel call 1's exit: its arrays at what the pipeline leaves (the inputs as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Kernel call 1 changes no buffer but its output array: an input's array ends as entered. -/
theorem W4_keep (c : Dev nD) (b : Ref sig .tc) (hb : b ≠ Pipeline.arrRef spec1 6) :
    W4 m ρ c (Proc.devRef .tc b) = W3 m ρ c (Proc.devRef .tc b) := by
  by_cases h : ∃ w, Pipeline.arrRef spec1 w = b
  · obtain ⟨w, rfl⟩ := h
    rw [W4_arr]
    match w with
    | ⟨0, _⟩ => exact ((dat1 (V3 m ρ) c).arrAt_in 0 rfl _).trans (A_eq1 (V3 m ρ) c 0)
    | ⟨1, _⟩ => exact ((dat1 (V3 m ρ) c).arrAt_in 1 rfl _).trans (A_eq1 (V3 m ρ) c 1)
    | ⟨2, _⟩ => exact ((dat1 (V3 m ρ) c).arrAt_in 2 rfl _).trans (A_eq1 (V3 m ρ) c 2)
    | ⟨3, _⟩ => exact ((dat1 (V3 m ρ) c).arrAt_in 3 rfl _).trans (A_eq1 (V3 m ρ) c 3)
    | ⟨4, _⟩ => exact ((dat1 (V3 m ρ) c).arrAt_in 4 rfl _).trans (A_eq1 (V3 m ρ) c 4)
    | ⟨5, _⟩ => exact ((dat1 (V3 m ρ) c).arrAt_in 5 rfl _).trans (A_eq1 (V3 m ρ) c 5)
    | ⟨6, _⟩ => exact absurd rfl hb
  · exact W4_of_ne m ρ c b fun w e => h ⟨w, e⟩

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
theorem W5_keep (c : Dev nD) (b : Ref sig .tc) (hb : b ∉ (hostOps2_W : List (Ref sig .tc))) :
    W5 m ρ c (Proc.devRef .tc b) = W4 m ρ c (Proc.devRef .tc b) :=
  StableHlo.after_of_writes_sub hostOps2 _ hostOps2_writes hb

/-- At kernel call 2's exit: its arrays at what the pipeline leaves (the inputs as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Kernel call 2 changes no buffer but its output array: an input's array ends as entered. -/
theorem W6_keep (c : Dev nD) (b : Ref sig .tc) (hb : b ≠ Pipeline.arrRef spec2 6) :
    W6 m ρ c (Proc.devRef .tc b) = W5 m ρ c (Proc.devRef .tc b) := by
  by_cases h : ∃ w, Pipeline.arrRef spec2 w = b
  · obtain ⟨w, rfl⟩ := h
    rw [W6_arr]
    match w with
    | ⟨0, _⟩ => exact ((dat2 (V5 m ρ) c).arrAt_in 0 rfl _).trans (A_eq2 (V5 m ρ) c 0)
    | ⟨1, _⟩ => exact ((dat2 (V5 m ρ) c).arrAt_in 1 rfl _).trans (A_eq2 (V5 m ρ) c 1)
    | ⟨2, _⟩ => exact ((dat2 (V5 m ρ) c).arrAt_in 2 rfl _).trans (A_eq2 (V5 m ρ) c 2)
    | ⟨3, _⟩ => exact ((dat2 (V5 m ρ) c).arrAt_in 3 rfl _).trans (A_eq2 (V5 m ρ) c 3)
    | ⟨4, _⟩ => exact ((dat2 (V5 m ρ) c).arrAt_in 4 rfl _).trans (A_eq2 (V5 m ρ) c 4)
    | ⟨5, _⟩ => exact ((dat2 (V5 m ρ) c).arrAt_in 5 rfl _).trans (A_eq2 (V5 m ρ) c 5)
    | ⟨6, _⟩ => exact absurd rfl hb
  · exact W6_of_ne m ρ c b fun w e => h ⟨w, e⟩

/-- A buffer no host stretch writes and no call outputs into ends as launched. -/
theorem W6_kept (c : Dev nD) (b : Ref sig .tc) (h0 : b ∉ (hostOps0_W : List (Ref sig .tc))) (h1 : b ∉ (hostOps1_W : List (Ref sig .tc)))
    (h2 : b ∉ (hostOps2_W : List (Ref sig .tc))) (o0 : b ≠ Pipeline.arrRef spec0 6) (o1 : b ≠ Pipeline.arrRef spec1 6) (o2 : b ≠ Pipeline.arrRef spec2 6) :
    W6 m ρ c (Proc.devRef .tc b) = m ((c : Thread nD τ).loc b) :=
  (W6_keep m ρ c b o2).trans <| (W5_keep m ρ c b h2).trans <| (W4_keep m ρ c b o1).trans <| (W3_keep m ρ c b h1).trans <|
    (W2_keep m ρ c b o0).trans <| (W1_keep m ρ c b h0).trans rfl

/-- The three result arrays at the end: what their calls' pipelines leave (later items do not touch them). -/
theorem W6_out0 (c : Dev nD) : W6 m ρ c (Proc.devRef .tc main_v4) = (dat0 (V1 m ρ) c).arrAt 6 cfg0.N :=
  (W6_keep m ρ c main_v4 (by decide)).trans <| (W5_keep m ρ c main_v4 (by decide)).trans <| (W4_keep m ρ c main_v4 (by decide)).trans <|
    (W3_keep m ρ c main_v4 (by decide)).trans (W2_arr m ρ c 6)
theorem W6_out1 (c : Dev nD) : W6 m ρ c (Proc.devRef .tc main_v9) = (dat1 (V3 m ρ) c).arrAt 6 cfg1.N :=
  (W6_keep m ρ c main_v9 (by decide)).trans <| (W5_keep m ρ c main_v9 (by decide)).trans (W4_arr m ρ c 6)
theorem W6_out2 (c : Dev nD) : W6 m ρ c (Proc.devRef .tc main_v14) = (dat2 (V5 m ρ) c).arrAt 6 cfg2.N :=
  W6_arr m ρ c 6

/-! ## The proof data family and the thread state -/

abbrev adm : (p : Fin 3) → (pcfgs (F := F) p).Adm := fun p => (cfgs p).toPCfg_adm
/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The calls as segments -/

set_option backward.isDefEq.respectTransparency.types false in
/-- KERNEL CALL 0 over the thread state: entered from every unscoped buffer at `W1`, left at `W2`. Its arrays are
    split out of the unscoped buffers and put back at what the write-backs leave; the generator register goes into the
    region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1
        ∗ Pipeline.scopedRest (Pipeline.pin (pcfgs (F := F)) adm 0).spec c) : sProp 𝕄) ⊢ Pipeline.ΦA spec0 c := by
      unfold Pipeline.ΦA
      iintro ⟨Hp, -, Hr⟩
      isplitl [Hr]; · iexact Hr
      iexact Hp
    exact h1.trans (show Pipeline.ΦA spec0 c ⊢ (pdats m ρ 0 c).Φ 0 from hin0 (V1 m ρ) c)
  hout c := by
    have h2 : Pipeline.ΦA spec0 c ⊢ (iprop((∃ r, prngReg c r) ∗ Pipeline.ownSems0 (Ix := Unit) (Name := ℕ) (U := UR sig nD τ) (Lvl := ℕ) (Val := Elt F) (τ := τ) (fun k : PEmpty => k.elim) c
        ∗ Pipeline.scopedRest (Pipeline.pin (pcfgs (F := F)) adm 0).spec c) : sProp 𝕄) := by
      rw [Pipeline.ownSems0_none]; unfold Pipeline.ΦA
      iintro ⟨Hr, Hp⟩
      isplitl [Hp]; · iexact Hp
      isplitr; · iempintro
      iexact Hr
    exact (show (pdats m ρ 0 c).Φ (Fin.last _) ⊢ Pipeline.ΦA spec0 c from hout0 (V1 m ρ) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- KERNEL CALL 1 over the thread state: entered from every unscoped buffer at `W3`, left at `W4`. Its arrays are
    split out of the unscoped buffers and put back at what the write-backs leave; the generator register goes into the
    region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h1.trans (show Pipeline.ΦA spec1 c ⊢ (pdats m ρ 1 c).Φ 0 from hin1 (V3 m ρ) c)
  hout c := by
    have h2 : Pipeline.ΦA spec1 c ⊢ (iprop((∃ r, prngReg c r) ∗ Pipeline.ownSems0 (Ix := Unit) (Name := ℕ) (U := UR sig nD τ) (Lvl := ℕ) (Val := Elt F) (τ := τ) (fun k : PEmpty => k.elim) c
        ∗ Pipeline.scopedRest (Pipeline.pin (pcfgs (F := F)) adm 1).spec c) : sProp 𝕄) := by
      rw [Pipeline.ownSems0_none]; unfold Pipeline.ΦA
      iintro ⟨Hr, Hp⟩
      isplitl [Hp]; · iexact Hp
      isplitr; · iempintro
      iexact Hr
    exact (show (pdats m ρ 1 c).Φ (Fin.last _) ⊢ Pipeline.ΦA spec1 c from hout1 (V3 m ρ) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- KERNEL CALL 2 over the thread state: entered from every unscoped buffer at `W5`, left at `W6`. Its arrays are
    split out of the unscoped buffers and put back at what the write-backs leave; the generator register goes into the
    region invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 2).pre c (fun _ => fullShare) (adm (F := F) 2).1
        ∗ Pipeline.scopedRest (Pipeline.pin (pcfgs (F := F)) adm 2).spec c) : sProp 𝕄) ⊢ Pipeline.ΦA spec2 c := by
      unfold Pipeline.ΦA
      iintro ⟨Hp, -, Hr⟩
      isplitl [Hr]; · iexact Hr
      iexact Hp
    exact h1.trans (show Pipeline.ΦA spec2 c ⊢ (pdats m ρ 2 c).Φ 0 from hin2 (V5 m ρ) c)
  hout c := by
    have h2 : Pipeline.ΦA spec2 c ⊢ (iprop((∃ r, prngReg c r) ∗ Pipeline.ownSems0 (Ix := Unit) (Name := ℕ) (U := UR sig nD τ) (Lvl := ℕ) (Val := Elt F) (τ := τ) (fun k : PEmpty => k.elim) c
        ∗ Pipeline.scopedRest (Pipeline.pin (pcfgs (F := F)) adm 2).spec c) : sProp 𝕄) := by
      rw [Pipeline.ownSems0_none]; unfold Pipeline.ΦA
      iintro ⟨Hr, Hp⟩
      isplitl [Hp]; · iexact Hp
      isplitr; · iempintro
      iexact Hr
    exact (show (pdats m ρ 2 c).Φ (Fin.last _) ⊢ Pipeline.ΦA spec2 c from hout2 (V5 m ρ) c).trans h2
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: every weakly fair execution of @main from memory `m` with zero counters terminates, nothing faulting, and
    the final memory holds every unscoped buffer of every core at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c main_arg0 (by decide)).trans (W6_kept m ρ c main_arg0 (by decide) (by decide) (by decide) (by decide) (by decide) (by decide)),
    (h c main_arg1 (by decide)).trans (W6_kept m ρ c main_arg1 (by decide) (by decide) (by decide) (by decide) (by decide) (by decide)),
    (h c main_arg2 (by decide)).trans (W6_kept m ρ c main_arg2 (by decide) (by decide) (by decide) (by decide) (by decide) (by decide)),
    (h c main_arg3 (by decide)).trans (W6_kept m ρ c main_arg3 (by decide) (by decide) (by decide) (by decide) (by decide) (by decide)),
    (h c main_arg4 (by decide)).trans (W6_kept m ρ c main_arg4 (by decide) (by decide) (by decide) (by decide) (by decide) (by decide)),
    (h c main_arg5 (by decide)).trans (W6_kept m ρ c main_arg5 (by decide) (by decide) (by decide) (by decide) (by decide) (by decide)),
    (h c main_arg6 (by decide)).trans (W6_kept m ρ c main_arg6 (by decide) (by decide) (by decide) (by decide) (by decide) (by decide)),
    (h c main_arg7 (by decide)).trans (W6_kept m ρ c main_arg7 (by decide) (by decide) (by decide) (by decide) (by decide) (by decide)),
    (h c main_arg8 (by decide)).trans (W6_kept m ρ c main_arg8 (by decide) (by decide) (by decide) (by decide) (by decide) (by decide)),
    (h c main_arg9 (by decide)).trans (W6_kept m ρ c main_arg9 (by decide) (by decide) (by decide) (by decide) (by decide) (by decide)),
    (h c main_arg10 (by decide)).trans (W6_kept m ρ c main_arg10 (by decide) (by decide) (by decide) (by decide) (by decide) (by decide)),
    (h c main_arg11 (by decide)).trans (W6_kept m ρ c main_arg11 (by decide) (by decide) (by decide) (by decide) (by decide) (by decide)),
    (h c main_arg12 (by decide)).trans (W6_kept m ρ c main_arg12 (by decide) (by decide) (by decide) (by decide) (by decide) (by decide)),
    (h c main_arg13 (by decide)).trans (W6_kept m ρ c main_arg13 (by decide) (by decide) (by decide) (by decide) (by decide) (by decide)),
    (h c main_arg14 (by decide)).trans (W6_kept m ρ c main_arg14 (by decide) (by decide) (by decide) (by decide) (by decide) (by decide)),
    (h c main_arg15 (by decide)).trans (W6_kept m ρ c main_arg15 (by decide) (by decide) (by decide) (by decide) (by decide) (by decide)),
    (h c main_arg16 (by decide)).trans (W6_kept m ρ c main_arg16 (by decide) (by decide) (by decide) (by decide) (by decide) (by decide)),
    (h c main_arg17 (by decide)).trans (W6_kept m ρ c main_arg17 (by decide) (by decide) (by decide) (by decide) (by decide) (by decide))⟩) (run_all m ρ)

/-- THE RESULTS: each result array ends at what its call's pipeline leaves, beside the frame. -/
theorem results : θ_run defs (onTc (τ := τ) (main (F := F))) ⟨m, fun _ => 0, ρ⟩ (fun r => ∀ c : Dev nD,
      r.2.mem ((c.tc : Thread nD τ).loc main_v4) = (dat0 (V1 m ρ) c).arrAt 6 cfg0.N
      ∧ r.2.mem ((c.tc : Thread nD τ).loc main_v9) = (dat1 (V3 m ρ) c).arrAt 6 cfg1.N
      ∧ r.2.mem ((c.tc : Thread nD τ).loc main_v14) = (dat2 (V5 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c main_v4 (by decide)).trans (W6_out0 m ρ c), (h c main_v9 (by decide)).trans (W6_out1 m ρ c),
    (h c main_v14 (by decide)).trans (W6_out2 m ρ c),
    (h c main_arg0 (by decide)).trans (W6_kept m ρ c main_arg0 (by decide) (by decide) (by decide) (by decide) (by decide) (by decide)),
    (h c main_arg1 (by decide)).trans (W6_kept m ρ c main_arg1 (by decide) (by decide) (by decide) (by decide) (by decide) (by decide)),
    (h c main_arg2 (by decide)).trans (W6_kept m ρ c main_arg2 (by decide) (by decide) (by decide) (by decide) (by decide) (by decide)),
    (h c main_arg3 (by decide)).trans (W6_kept m ρ c main_arg3 (by decide) (by decide) (by decide) (by decide) (by decide) (by decide)),
    (h c main_arg4 (by decide)).trans (W6_kept m ρ c main_arg4 (by decide) (by decide) (by decide) (by decide) (by decide) (by decide)),
    (h c main_arg5 (by decide)).trans (W6_kept m ρ c main_arg5 (by decide) (by decide) (by decide) (by decide) (by decide) (by decide)),
    (h c main_arg6 (by decide)).trans (W6_kept m ρ c main_arg6 (by decide) (by decide) (by decide) (by decide) (by decide) (by decide)),
    (h c main_arg7 (by decide)).trans (W6_kept m ρ c main_arg7 (by decide) (by decide) (by decide) (by decide) (by decide) (by decide)),
    (h c main_arg8 (by decide)).trans (W6_kept m ρ c main_arg8 (by decide) (by decide) (by decide) (by decide) (by decide) (by decide)),
    (h c main_arg9 (by decide)).trans (W6_kept m ρ c main_arg9 (by decide) (by decide) (by decide) (by decide) (by decide) (by decide)),
    (h c main_arg10 (by decide)).trans (W6_kept m ρ c main_arg10 (by decide) (by decide) (by decide) (by decide) (by decide) (by decide)),
    (h c main_arg11 (by decide)).trans (W6_kept m ρ c main_arg11 (by decide) (by decide) (by decide) (by decide) (by decide) (by decide)),
    (h c main_arg12 (by decide)).trans (W6_kept m ρ c main_arg12 (by decide) (by decide) (by decide) (by decide) (by decide) (by decide)),
    (h c main_arg13 (by decide)).trans (W6_kept m ρ c main_arg13 (by decide) (by decide) (by decide) (by decide) (by decide) (by decide)),
    (h c main_arg14 (by decide)).trans (W6_kept m ρ c main_arg14 (by decide) (by decide) (by decide) (by decide) (by decide) (by decide)),
    (h c main_arg15 (by decide)).trans (W6_kept m ρ c main_arg15 (by decide) (by decide) (by decide) (by decide) (by decide) (by decide)),
    (h c main_arg16 (by decide)).trans (W6_kept m ρ c main_arg16 (by decide) (by decide) (by decide) (by decide) (by decide) (by decide)),
    (h c main_arg17 (by decide)).trans (W6_kept m ρ c main_arg17 (by decide) (by decide) (by decide) (by decide) (by decide) (by decide))⟩) (run_all m ρ)

end Cert.KernelIdeal.Fr

end
-- ==== Proof.Spec.lean ====
/-
  What both programs compute, stated once over coordinates.

  For one feature map `feat : [8, C, H, W]` read as `[8, C, S]` with `S = H·W`, patch positions `pid : [256]`
  and a two-layer perceptron `(w1, b1, w2, b2)`: row `r = 256·b + p` of the result is the perceptron applied to the
  column of batch `b` at position `pid p` (all `C` channels), divided by its Euclidean norm plus `eps`.
-/
import Idealize.ShloMosaic.PureOps.Ideal
import Idealize.ShloMosaic.Lib.ValueIdx

noncomputable section

open scoped BigOperators

namespace Cert.Spec

open Idealize.ShloMosaic Idealize.ShloMosaic.ValueIdx

/-- The literal `1e-7` both programs add to the norm (its binary value; the same word on both sides). -/
def eps : EReal := Ideal.ofBits .f32 0x33D6BF95#32

/-- Entry `q` of a row of `S` numbers, the position read as a signed integer and held inside `[0, S − 1]`. -/
def pickAt {S : Nat} (hS : 0 < S) (row : Fin S → EReal) (q : BitVec 32) : EReal :=
  row ⟨min q.toInt.toNat (S - 1), by omega⟩

/-- The first layer with its rectifier: `max (x · w1[:, k] + b1 k) 0`. -/
def hidden {C : Nat} (x : Fin C → EReal) (w1 : Fin C → Fin 256 → EReal) (b1 : Fin 256 → EReal) (k : Fin 256) : EReal :=
  max (∑ c : Fin C, x c * w1 c k + b1 k) 0

/-- The second layer: `hidden · w2[:, j] + b2 j`. -/
def logit {C : Nat} (x : Fin C → EReal) (w1 : Fin C → Fin 256 → EReal) (b1 : Fin 256 → EReal)
    (w2 : Fin 256 → Fin 256 → EReal) (b2 : Fin 256 → EReal) (j : Fin 256) : EReal :=
  ∑ k : Fin 256, hidden x w1 b1 k * w2 k j + b2 j

/-- The row divided by its Euclidean norm plus `eps`. -/
def head {C : Nat} (x : Fin C → EReal) (w1 : Fin C → Fin 256 → EReal) (b1 : Fin 256 → EReal)
    (w2 : Fin 256 → Fin 256 → EReal) (b2 : Fin 256 → EReal) (j : Fin 256) : EReal :=
  Ideal.div (logit x w1 b1 w2 b2 j)
    (Ideal.sqrt (∑ k : Fin 256, logit x w1 b1 w2 b2 k * logit x w1 b1 w2 b2 k) + eps)

/-- The sampled column of batch `b` at patch `p`: channel `c` ↦ `feat[b, c, pid p]` over the flattened positions. -/
def column {C H W : Nat} (hS : 0 < H * W) (feat : (⟨4, ![8, C, H, W]⟩ : Shape).Idx → EReal)
    (pid : (⟨1, ![256]⟩ : Shape).Idx → BitVec 32) (b : Fin 8) (p : Fin 256) (c : Fin C) : EReal :=
  pickAt hS (fun s : Fin (H * W) =>
      feat (ix4 b c ⟨s.val / W, Nat.div_lt_of_lt_mul (lt_of_lt_of_eq s.isLt (Nat.mul_comm H W))⟩
        ⟨s.val % W, Nat.mod_lt _ (Nat.pos_of_ne_zero (by rintro rfl; simp at hS))⟩))
    (pid (ix1 p))

/-- THE RESULT of one scale: row `256·b + p`, column `j`. -/
def sampled {C H W : Nat} (hS : 0 < H * W) (feat : (⟨4, ![8, C, H, W]⟩ : Shape).Idx → EReal)
    (pid : (⟨1, ![256]⟩ : Shape).Idx → BitVec 32)
    (w1 : (⟨2, ![C, 256]⟩ : Shape).Idx → EReal) (b1 : (⟨1, ![256]⟩ : Shape).Idx → EReal)
    (w2 : (⟨2, ![256, 256]⟩ : Shape).Idx → EReal) (b2 : (⟨1, ![256]⟩ : Shape).Idx → EReal) :
    (⟨2, ![2048, 256]⟩ : Shape).Idx → EReal := fun i =>
  head (column hS feat pid ⟨(i 0).val / 256, by have := idx2_lt0 i; omega⟩ ⟨(i 0).val % 256, Nat.mod_lt _ (by decide)⟩)
    (fun c k => w1 (ix2 c k)) (fun k => b1 (ix1 k)) (fun k j => w2 (ix2 k j)) (fun j => b2 (ix1 j))
    ⟨(i 1).val, idx2_lt1 i⟩

/-- Scale 0: 128 channels over 128 × 128 positions. -/
abbrev sampled0 := @sampled 128 128 128 (by decide)
/-- Scales 1 and 2: 256 channels over 64 × 64 positions. -/
abbrev sampled12 := @sampled 256 64 64 (by decide)

end Cert.Spec

end
-- ==== Proof.HostRead.lean ====
/-
  The host reshapes before each call, read at an index.

  Before each of its three calls the program flattens the call's feature map `[8, C, H, W]` to `[8, C, H·W]` and views each of
  the three vectors the call reads (the positions and the two biases, `[256]`) as one row `[1, 256]`. A reshape keeps the
  elements in row-major order, so position `s` of the flattened map is element `(s / W, s % W)` of the map, and entry
  `(0, k)` of a row is entry `k` of its vector. Each statement is for an arbitrary valuation `W` of the buffers before the
  stretch, and for every float instance.
-/
import proofs.«402699_j35115652612732_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostRead

open Idealize.ShloMosaic Idealize.ShloMosaic.ValueIdx Idealize.ShloMosaic.TcCoe Cert.KernelIdeal Cert.KernelIdeal.Gen

variable {F : FTy → Type} [FloatOps F]

/-! ## The reshapes before call 0 -/

/-- The feature map of call 0, `[8, 128, 128, 128]`, flattened to `[8, 128, 16384]`: the same elements in row-major order. -/
theorem feat0_eq (W : Valuation τ sig (Elt F)) :
    (StableHlo.after hostOps0 W (Proc.devRef .tc main_v0) : S8x128x16384.Idx → Elt F .f32)
      = shapeCast S8x128x16384 (W (Proc.devRef .tc main_arg0) : S8x128x128x128.Idx → Elt F .f32) shapeCasts_S8x128x128x128_S8x128x16384 := by
  show StableHlo.after hostOps0 W (Proc.devRef .tc main_v0) = _
  after_results
  rfl
/-- Position `s` of the flattened map is row `s / 128`, column `s % 128` of the feature map. -/
theorem feat0 (W : Valuation τ sig (Elt F)) (b : Fin 8) (ch : Fin 128) (s : Fin 16384) :
    (StableHlo.after hostOps0 W (Proc.devRef .tc main_v0) : S8x128x16384.Idx → Elt F .f32) (ix3 b ch s)
      = (W (Proc.devRef .tc main_arg0) : S8x128x128x128.Idx → Elt F .f32)
          (ix4 b ch ⟨s.val / 128, by have := s.isLt; omega⟩ ⟨s.val % 128, Nat.mod_lt _ (by decide)⟩) := by
  rw [feat0_eq]
  refine shapeCast_apply (s := S8x128x128x128) (t := S8x128x16384) _ _ _ _ ?_
  rw [Shape.rowMajor_val_four, Shape.rowMajor_val_three]
  have := s.isLt
  show ((b.val * 128 + ch.val) * 128 + s.val / 128) * 128 + s.val % 128 = (b.val * 128 + ch.val) * 16384 + s.val
  omega

/-- The positions of call 0, `[256]`, as one row `[1, 256]`. -/
theorem pid0_eq (W : Valuation τ sig (Elt F)) :
    (StableHlo.after hostOps0 W (Proc.devRef .tc main_v1) : S1x256.Idx → BitVec 32)
      = shapeCast S1x256 (W (Proc.devRef .tc main_arg3) : S256.Idx → BitVec 32) shapeCasts_S256_S1x256 := by
  show StableHlo.after hostOps0 W (Proc.devRef .tc main_v1) = _
  after_results
  rfl
theorem pid0 (W : Valuation τ sig (Elt F)) (k : Fin 256) :
    (StableHlo.after hostOps0 W (Proc.devRef .tc main_v1) : S1x256.Idx → BitVec 32) (ix2 0 k)
      = (W (Proc.devRef .tc main_arg3) : S256.Idx → BitVec 32) (ix1 k) := by
  rw [pid0_eq]
  exact shapeCast_a_1a_apply _ _ 0 k

/-- The first layer's bias of call 0, `[256]`, as one row `[1, 256]`. -/
theorem bias1_0_eq (W : Valuation τ sig (Elt F)) :
    (StableHlo.after hostOps0 W (Proc.devRef .tc main_v2) : S1x256.Idx → Elt F .f32)
      = shapeCast S1x256 (W (Proc.devRef .tc main_arg7) : S256.Idx → Elt F .f32) shapeCasts_S256_S1x256 := by
  show StableHlo.after hostOps0 W (Proc.devRef .tc main_v2) = _
  after_results
  rfl
theorem bias1_0 (W : Valuation τ sig (Elt F)) (k : Fin 256) :
    (StableHlo.after hostOps0 W (Proc.devRef .tc main_v2) : S1x256.Idx → Elt F .f32) (ix2 0 k)
      = (W (Proc.devRef .tc main_arg7) : S256.Idx → Elt F .f32) (ix1 k) := by
  rw [bias1_0_eq]
  exact shapeCast_a_1a_apply _ _ 0 k

/-- The second layer's bias of call 0, `[256]`, as one row `[1, 256]`. -/
theorem bias2_0_eq (W : Valuation τ sig (Elt F)) :
    (StableHlo.after hostOps0 W (Proc.devRef .tc main_v3) : S1x256.Idx → Elt F .f32)
      = shapeCast S1x256 (W (Proc.devRef .tc main_arg9) : S256.Idx → Elt F .f32) shapeCasts_S256_S1x256 := by
  show StableHlo.after hostOps0 W (Proc.devRef .tc main_v3) = _
  after_results
  rfl
theorem bias2_0 (W : Valuation τ sig (Elt F)) (k : Fin 256) :
    (StableHlo.after hostOps0 W (Proc.devRef .tc main_v3) : S1x256.Idx → Elt F .f32) (ix2 0 k)
      = (W (Proc.devRef .tc main_arg9) : S256.Idx → Elt F .f32) (ix1 k) := by
  rw [bias2_0_eq]
  exact shapeCast_a_1a_apply _ _ 0 k

/-! ## The reshapes before call 1 -/

/-- The feature map of call 1, `[8, 256, 64, 64]`, flattened to `[8, 256, 4096]`: the same elements in row-major order. -/
theorem feat1_eq (W : Valuation τ sig (Elt F)) :
    (StableHlo.after hostOps1 W (Proc.devRef .tc main_v5) : S8x256x4096.Idx → Elt F .f32)
      = shapeCast S8x256x4096 (W (Proc.devRef .tc main_arg1) : S8x256x64x64.Idx → Elt F .f32) shapeCasts_S8x256x64x64_S8x256x4096 := by
  show StableHlo.after hostOps1 W (Proc.devRef .tc main_v5) = _
  after_results
  rfl
/-- Position `s` of the flattened map is row `s / 64`, column `s % 64` of the feature map. -/
theorem feat1 (W : Valuation τ sig (Elt F)) (b : Fin 8) (ch : Fin 256) (s : Fin 4096) :
    (StableHlo.after hostOps1 W (Proc.devRef .tc main_v5) : S8x256x4096.Idx → Elt F .f32) (ix3 b ch s)
      = (W (Proc.devRef .tc main_arg1) : S8x256x64x64.Idx → Elt F .f32)
          (ix4 b ch ⟨s.val / 64, by have := s.isLt; omega⟩ ⟨s.val % 64, Nat.mod_lt _ (by decide)⟩) := by
  rw [feat1_eq]
  refine shapeCast_apply (s := S8x256x64x64) (t := S8x256x4096) _ _ _ _ ?_
  rw [Shape.rowMajor_val_four, Shape.rowMajor_val_three]
  have := s.isLt
  show ((b.val * 256 + ch.val) * 64 + s.val / 64) * 64 + s.val % 64 = (b.val * 256 + ch.val) * 4096 + s.val
  omega

/-- The positions of call 1, `[256]`, as one row `[1, 256]`. -/
theorem pid1_eq (W : Valuation τ sig (Elt F)) :
    (StableHlo.after hostOps1 W (Proc.devRef .tc main_v6) : S1x256.Idx → BitVec 32)
      = shapeCast S1x256 (W (Proc.devRef .tc main_arg4) : S256.Idx → BitVec 32) shapeCasts_S256_S1x256 := by
  show StableHlo.after hostOps1 W (Proc.devRef .tc main_v6) = _
  after_results
  rfl
theorem pid1 (W : Valuation τ sig (Elt F)) (k : Fin 256) :
    (StableHlo.after hostOps1 W (Proc.devRef .tc main_v6) : S1x256.Idx → BitVec 32) (ix2 0 k)
      = (W (Proc.devRef .tc main_arg4) : S256.Idx → BitVec 32) (ix1 k) := by
  rw [pid1_eq]
  exact shapeCast_a_1a_apply _ _ 0 k

/-- The first layer's bias of call 1, `[256]`, as one row `[1, 256]`. -/
theorem bias1_1_eq (W : Valuation τ sig (Elt F)) :
    (StableHlo.after hostOps1 W (Proc.devRef .tc main_v7) : S1x256.Idx → Elt F .f32)
      = shapeCast S1x256 (W (Proc.devRef .tc main_arg11) : S256.Idx → Elt F .f32) shapeCasts_S256_S1x256 := by
  show StableHlo.after hostOps1 W (Proc.devRef .tc main_v7) = _
  after_results
  rfl
theorem bias1_1 (W : Valuation τ sig (Elt F)) (k : Fin 256) :
    (StableHlo.after hostOps1 W (Proc.devRef .tc main_v7) : S1x256.Idx → Elt F .f32) (ix2 0 k)
      = (W (Proc.devRef .tc main_arg11) : S256.Idx → Elt F .f32) (ix1 k) := by
  rw [bias1_1_eq]
  exact shapeCast_a_1a_apply _ _ 0 k

/-- The second layer's bias of call 1, `[256]`, as one row `[1, 256]`. -/
theorem bias2_1_eq (W : Valuation τ sig (Elt F)) :
    (StableHlo.after hostOps1 W (Proc.devRef .tc main_v8) : S1x256.Idx → Elt F .f32)
      = shapeCast S1x256 (W (Proc.devRef .tc main_arg13) : S256.Idx → Elt F .f32) shapeCasts_S256_S1x256 := by
  show StableHlo.after hostOps1 W (Proc.devRef .tc main_v8) = _
  after_results
  rfl
theorem bias2_1 (W : Valuation τ sig (Elt F)) (k : Fin 256) :
    (StableHlo.after hostOps1 W (Proc.devRef .tc main_v8) : S1x256.Idx → Elt F .f32) (ix2 0 k)
      = (W (Proc.devRef .tc main_arg13) : S256.Idx → Elt F .f32) (ix1 k) := by
  rw [bias2_1_eq]
  exact shapeCast_a_1a_apply _ _ 0 k

/-! ## The reshapes before call 2 -/

/-- The feature map of call 2, `[8, 256, 64, 64]`, flattened to `[8, 256, 4096]`: the same elements in row-major order. -/
theorem feat2_eq (W : Valuation τ sig (Elt F)) :
    (StableHlo.after hostOps2 W (Proc.devRef .tc main_v10) : S8x256x4096.Idx → Elt F .f32)
      = shapeCast S8x256x4096 (W (Proc.devRef .tc main_arg2) : S8x256x64x64.Idx → Elt F .f32) shapeCasts_S8x256x64x64_S8x256x4096 := by
  show StableHlo.after hostOps2 W (Proc.devRef .tc main_v10) = _
  after_results
  rfl
/-- Position `s` of the flattened map is row `s / 64`, column `s % 64` of the feature map. -/
theorem feat2 (W : Valuation τ sig (Elt F)) (b : Fin 8) (ch : Fin 256) (s : Fin 4096) :
    (StableHlo.after hostOps2 W (Proc.devRef .tc main_v10) : S8x256x4096.Idx → Elt F .f32) (ix3 b ch s)
      = (W (Proc.devRef .tc main_arg2) : S8x256x64x64.Idx → Elt F .f32)
          (ix4 b ch ⟨s.val / 64, by have := s.isLt; omega⟩ ⟨s.val % 64, Nat.mod_lt _ (by decide)⟩) := by
  rw [feat2_eq]
  refine shapeCast_apply (s := S8x256x64x64) (t := S8x256x4096) _ _ _ _ ?_
  rw [Shape.rowMajor_val_four, Shape.rowMajor_val_three]
  have := s.isLt
  show ((b.val * 256 + ch.val) * 64 + s.val / 64) * 64 + s.val % 64 = (b.val * 256 + ch.val) * 4096 + s.val
  omega

/-- The positions of call 2, `[256]`, as one row `[1, 256]`. -/
theorem pid2_eq (W : Valuation τ sig (Elt F)) :
    (StableHlo.after hostOps2 W (Proc.devRef .tc main_v11) : S1x256.Idx → BitVec 32)
      = shapeCast S1x256 (W (Proc.devRef .tc main_arg5) : S256.Idx → BitVec 32) shapeCasts_S256_S1x256 := by
  show StableHlo.after hostOps2 W (Proc.devRef .tc main_v11) = _
  after_results
  rfl
theorem pid2 (W : Valuation τ sig (Elt F)) (k : Fin 256) :
    (StableHlo.after hostOps2 W (Proc.devRef .tc main_v11) : S1x256.Idx → BitVec 32) (ix2 0 k)
      = (W (Proc.devRef .tc main_arg5) : S256.Idx → BitVec 32) (ix1 k) := by
  rw [pid2_eq]
  exact shapeCast_a_1a_apply _ _ 0 k

/-- The first layer's bias of call 2, `[256]`, as one row `[1, 256]`. -/
theorem bias1_2_eq (W : Valuation τ sig (Elt F)) :
    (StableHlo.after hostOps2 W (Proc.devRef .tc main_v12) : S1x256.Idx → Elt F .f32)
      = shapeCast S1x256 (W (Proc.devRef .tc main_arg15) : S256.Idx → Elt F .f32) shapeCasts_S256_S1x256 := by
  show StableHlo.after hostOps2 W (Proc.devRef .tc main_v12) = _
  after_results
  rfl
theorem bias1_2 (W : Valuation τ sig (Elt F)) (k : Fin 256) :
    (StableHlo.after hostOps2 W (Proc.devRef .tc main_v12) : S1x256.Idx → Elt F .f32) (ix2 0 k)
      = (W (Proc.devRef .tc main_arg15) : S256.Idx → Elt F .f32) (ix1 k) := by
  rw [bias1_2_eq]
  exact shapeCast_a_1a_apply _ _ 0 k

/-- The second layer's bias of call 2, `[256]`, as one row `[1, 256]`. -/
theorem bias2_2_eq (W : Valuation τ sig (Elt F)) :
    (StableHlo.after hostOps2 W (Proc.devRef .tc main_v13) : S1x256.Idx → Elt F .f32)
      = shapeCast S1x256 (W (Proc.devRef .tc main_arg17) : S256.Idx → Elt F .f32) shapeCasts_S256_S1x256 := by
  show StableHlo.after hostOps2 W (Proc.devRef .tc main_v13) = _
  after_results
  rfl
theorem bias2_2 (W : Valuation τ sig (Elt F)) (k : Fin 256) :
    (StableHlo.after hostOps2 W (Proc.devRef .tc main_v13) : S1x256.Idx → Elt F .f32) (ix2 0 k)
      = (W (Proc.devRef .tc main_arg17) : S256.Idx → Elt F .f32) (ix1 k) := by
  rw [bias2_2_eq]
  exact shapeCast_a_1a_apply _ _ 0 k

end Cert.KernelIdeal.HostRead

end
-- ==== Proof.PayIdx.lean ====
/-
  The kernel's payloads read at an index, at the ideal values (a float is an extended real, a format change the identity,
  an integer converted exactly, a matrix product into the zero splat a plain sum).

  Each of the three calls has the same three payloads at its own sizes. The first is the accumulator's initial value, zero.
  The second adds to the accumulator the product of the streamed feature tile `[C, T]` with the 0/1 selector matrix
  `[T, 256]` whose entry `(s, p)` says whether row `s` of tile `k`, that is position `s + k·T` on 32-bit words, is the
  position `q p`; over the tiles these products sum to the feature column at position `q p`, because every other product is
  `x · 0 = 0` on the extended reals and a word is the word of exactly one number below `2 ^ 32`. The third payload
  transposes the accumulator, applies the two layers (a product with the weights plus the bias row, the first followed by
  the maximum with zero) and divides each row by its Euclidean norm plus the small constant.
-/
import proofs.«402699_j35115652612732_3_alg».proof.Proof.Gen.KernelIdeal.Skeleton
import proofs.«402699_j35115652612732_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayIdx

open Idealize.ShloMosaic Idealize.ShloMosaic.ValueIdx Cert.KernelIdeal Cert.KernelIdeal.Gen

/-! ## Matrix products read at an index

For each of the four dimension records: the operand indices of output index `i` and contraction index `q`, axis by axis,
and then the product into the zero splat at `(m, n)` as the sum over the one contraction coordinate. -/

/-! ### The product of a `256 × 256` by a `256 × 256` matrix into the zero splat -/

theorem lhs_sq_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_sq_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_sq_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_sq_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- Entry `(m, n)` of the product is the sum over the contraction coordinate `k` of `lhs (m, k) * rhs (k, n)`. -/
theorem matmul_sq {φ₁ φ₂ : FTy} (lhs : FVec Ideal S256x256 φ₁) (rhs : FVec Ideal S256x256 φ₂) (m : Fin 256) (n : Fin 256) :
    matmul dot_S256x256_S256x256_S256x256_1_0_0_1_n_n none lhs rhs (constant (F := Ideal) S256x256 .f32 0x00000000#32) (ix2 m n)
      = ∑ k : Fin 256, lhs (ix2 m k) * rhs (ix2 k n) := by
  show FloatOps.matmul dot_S256x256_S256x256_S256x256_1_0_0_1_n_n none lhs rhs (constant (F := Ideal) S256x256 .f32 0x00000000#32) (ix2 m n) = _
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 m n) ((contrEquiv1 dot_S256x256_S256x256_S256x256_1_0_0_1_n_n 256 rfl rfl).symm k) = ix2 m k := funext fun a => Fin.ext (by
    match a with
    | ⟨0, _⟩ => exact lhs_sq_0 _ _
    | ⟨1, _⟩ => exact (lhs_sq_1 _ _).trans hk)
  have er : dot_S256x256_S256x256_S256x256_1_0_0_1_n_n.rhsIdx (ix2 m n) ((contrEquiv1 dot_S256x256_S256x256_S256x256_1_0_0_1_n_n 256 rfl rfl).symm k) = ix2 k n := funext fun a => Fin.ext (by
    match a with
    | ⟨0, _⟩ => exact (rhs_sq_0 _ _).trans hk
    | ⟨1, _⟩ => exact rhs_sq_1 _ _)
  rw [el, er]

/-! ### The product of a `256 × 128` by a `128 × 256` matrix into the zero splat -/

theorem lhs_128_0 (i : S256x256.Idx) (q : dot_S256x128_S128x256_S256x256_1_0_0_1_n_n.contr.Idx) :
    (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
theorem lhs_128_1 (i : S256x256.Idx) (q : dot_S256x128_S128x256_S256x256_1_0_0_1_n_n.contr.Idx) :
    (dot_S256x128_S128x256_S256x256_1_0_0_1_n_n.lhsIdx i q 1).val = (q ⟨0, by decide⟩).val :=
  dot_S256x128_S128x256_S256x256_1_0_0_1_n_n.lhsIdx_val_of_single rfl i q
theorem rhs_128_0 (i : S256x256.Idx) (q : dot_S256x128_S128x256_S256x256_1_0_0_1_n_n.contr.Idx) :
    (dot_S256x128_S128x256_S256x256_1_0_0_1_n_n.rhsIdx i q 0).val = (q ⟨0, by decide⟩).val :=
  dot_S256x128_S128x256_S256x256_1_0_0_1_n_n.rhsIdx_val_of_single rfl i q
theorem rhs_128_1 (i : S256x256.Idx) (q : dot_S256x128_S128x256_S256x256_1_0_0_1_n_n.contr.Idx) :
    (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl

/-- Entry `(m, n)` of the product is the sum over the contraction coordinate `k` of `lhs (m, k) * rhs (k, n)`. -/
theorem matmul_128 {φ₁ φ₂ : FTy} (lhs : FVec Ideal S256x128 φ₁) (rhs : FVec Ideal S128x256 φ₂) (m : Fin 256) (n : Fin 256) :
    matmul dot_S256x128_S128x256_S256x256_1_0_0_1_n_n none lhs rhs (constant (F := Ideal) S256x256 .f32 0x00000000#32) (ix2 m n)
      = ∑ k : Fin 128, lhs (ix2 m k) * rhs (ix2 k n) := by
  show FloatOps.matmul dot_S256x128_S128x256_S256x256_1_0_0_1_n_n none lhs rhs (constant (F := Ideal) S256x256 .f32 0x00000000#32) (ix2 m n) = _
  rw [Ideal.matmul_constant_zero_apply, ← Equiv.sum_comp (contrEquiv1 dot_S256x128_S128x256_S256x256_1_0_0_1_n_n 128 rfl rfl).symm]
  refine Finset.sum_congr rfl fun k _ => ?_
  have hk := contrEquiv1_symm_val dot_S256x128_S128x256_S256x256_1_0_0_1_n_n 128 rfl rfl k
  have el : dot_S256x128_S128x256_S256x256_1_0_0_1_n_n.lhsIdx (ix2 m n) ((contrEquiv1 dot_S256x128_S128x256_S256x256_1_0_0_1_n_n 128 rfl rfl).symm k) = ix2 m k := funext fun a => Fin.ext (by
    match a with
    | ⟨0, _⟩ => exact lhs_128_0 _ _
    | ⟨1, _⟩ => exact (lhs_128_1 _ _).trans hk)
  have er : dot_S256x128_S128x256_S256x256_1_0_0_1_n_n.rhsIdx (ix2 m n) ((contrEquiv1 dot_S256x128_S128x256_S256x256_1_0_0_1_n_n 128 rfl rfl).symm k) = ix2 k n := funext fun a => Fin.ext (by
    match a with
    | ⟨0, _⟩ => exact (rhs_128_0 _ _).trans hk
    | ⟨1, _⟩ => exact rhs_128_1 _ _)
  rw [el, er]

/-! ### The product of a `256 × 4096` by a `4096 × 256` matrix into the zero splat -/

theorem lhs_big1_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs_big1_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs_big1_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs_big1_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- Entry `(m, n)` of the product is the sum over the contraction coordinate `k` of `lhs (m, k) * rhs (k, n)`. -/
theorem matmul_big1 {φ₁ φ₂ : FTy} (lhs : FVec Ideal S256x4096 φ₁) (rhs : FVec Ideal S4096x256 φ₂) (m : Fin 256) (n : Fin 256) :
    matmul dot_S256x4096_S4096x256_S256x256_1_0_0_1_n_n none lhs rhs (constant (F := Ideal) S256x256 .f32 0x00000000#32) (ix2 m n)
      = ∑ k : Fin 4096, lhs (ix2 m k) * rhs (ix2 k n) := by
  show FloatOps.matmul dot_S256x4096_S4096x256_S256x256_1_0_0_1_n_n none lhs rhs (constant (F := Ideal) S256x256 .f32 0x00000000#32) (ix2 m n) = _
  rw [Ideal.matmul_constant_zero_apply, ← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 m n) ((contrEquiv1 dot_S256x4096_S4096x256_S256x256_1_0_0_1_n_n 4096 rfl rfl).symm k) = ix2 m k := funext fun a => Fin.ext (by
    match a with
    | ⟨0, _⟩ => exact lhs_big1_0 _ _
    | ⟨1, _⟩ => exact (lhs_big1_1 _ _).trans hk)
  have er : dot_S256x4096_S4096x256_S256x256_1_0_0_1_n_n.rhsIdx (ix2 m n) ((contrEquiv1 dot_S256x4096_S4096x256_S256x256_1_0_0_1_n_n 4096 rfl rfl).symm k) = ix2 k n := funext fun a => Fin.ext (by
    match a with
    | ⟨0, _⟩ => exact (rhs_big1_0 _ _).trans hk
    | ⟨1, _⟩ => exact rhs_big1_1 _ _)
  rw [el, er]

/-! ### The product of a `128 × 8192` by a `8192 × 256` matrix into the zero splat -/

theorem lhs_big0_0 (i : S128x256.Idx) (q : dot_S128x8192_S8192x256_S128x256_1_0_0_1_n_n.contr.Idx) :
    (dot_S128x8192_S8192x256_S128x256_1_0_0_1_n_n.lhsIdx i q 0).val = (i 0).val := by
  unfold DotDims.lhsIdx
  rw [dif_neg (show ¬(0 : Fin S128x8192.rank) ∈ dot_S128x8192_S8192x256_S128x256_1_0_0_1_n_n.lhsBatch by decide), dif_pos (show (0 : Fin S128x8192.rank) ∈ dot_S128x8192_S8192x256_S128x256_1_0_0_1_n_n.lhsNonContracting by decide)]
  rfl
theorem lhs_big0_1 (i : S128x256.Idx) (q : dot_S128x8192_S8192x256_S128x256_1_0_0_1_n_n.contr.Idx) :
    (dot_S128x8192_S8192x256_S128x256_1_0_0_1_n_n.lhsIdx i q 1).val = (q ⟨0, by decide⟩).val :=
  dot_S128x8192_S8192x256_S128x256_1_0_0_1_n_n.lhsIdx_val_of_single rfl i q
theorem rhs_big0_0 (i : S128x256.Idx) (q : dot_S128x8192_S8192x256_S128x256_1_0_0_1_n_n.contr.Idx) :
    (dot_S128x8192_S8192x256_S128x256_1_0_0_1_n_n.rhsIdx i q 0).val = (q ⟨0, by decide⟩).val :=
  dot_S128x8192_S8192x256_S128x256_1_0_0_1_n_n.rhsIdx_val_of_single rfl i q
theorem rhs_big0_1 (i : S128x256.Idx) (q : dot_S128x8192_S8192x256_S128x256_1_0_0_1_n_n.contr.Idx) :
    (dot_S128x8192_S8192x256_S128x256_1_0_0_1_n_n.rhsIdx i q 1).val = (i 1).val := by
  unfold DotDims.rhsIdx
  rw [dif_neg (show ¬(1 : Fin S8192x256.rank) ∈ dot_S128x8192_S8192x256_S128x256_1_0_0_1_n_n.rhsBatch by decide), dif_pos (show (1 : Fin S8192x256.rank) ∈ dot_S128x8192_S8192x256_S128x256_1_0_0_1_n_n.rhsNonContracting by decide)]
  rfl

/-- Entry `(m, n)` of the product is the sum over the contraction coordinate `k` of `lhs (m, k) * rhs (k, n)`. -/
theorem matmul_big0 {φ₁ φ₂ : FTy} (lhs : FVec Ideal S128x8192 φ₁) (rhs : FVec Ideal S8192x256 φ₂) (m : Fin 128) (n : Fin 256) :
    matmul dot_S128x8192_S8192x256_S128x256_1_0_0_1_n_n none lhs rhs (constant (F := Ideal) S128x256 .f32 0x00000000#32) (ix2 m n)
      = ∑ k : Fin 8192, lhs (ix2 m k) * rhs (ix2 k n) := by
  show FloatOps.matmul dot_S128x8192_S8192x256_S128x256_1_0_0_1_n_n none lhs rhs (constant (F := Ideal) S128x256 .f32 0x00000000#32) (ix2 m n) = _
  rw [Ideal.matmul_constant_zero_apply, ← Equiv.sum_comp (contrEquiv1 dot_S128x8192_S8192x256_S128x256_1_0_0_1_n_n 8192 rfl rfl).symm]
  refine Finset.sum_congr rfl fun k _ => ?_
  have hk := contrEquiv1_symm_val dot_S128x8192_S8192x256_S128x256_1_0_0_1_n_n 8192 rfl rfl k
  have el : dot_S128x8192_S8192x256_S128x256_1_0_0_1_n_n.lhsIdx (ix2 m n) ((contrEquiv1 dot_S128x8192_S8192x256_S128x256_1_0_0_1_n_n 8192 rfl rfl).symm k) = ix2 m k := funext fun a => Fin.ext (by
    match a with
    | ⟨0, _⟩ => exact lhs_big0_0 _ _
    | ⟨1, _⟩ => exact (lhs_big0_1 _ _).trans hk)
  have er : dot_S128x8192_S8192x256_S128x256_1_0_0_1_n_n.rhsIdx (ix2 m n) ((contrEquiv1 dot_S128x8192_S8192x256_S128x256_1_0_0_1_n_n 8192 rfl rfl).symm k) = ix2 k n := funext fun a => Fin.ext (by
    match a with
    | ⟨0, _⟩ => exact (rhs_big0_0 _ _).trans hk
    | ⟨1, _⟩ => exact rhs_big0_1 _ _)
  rw [el, er]

/-! ### Layout operations read at an index: a vector as a column, a column over many columns, a row of a reduction -/

/-- A length-`a` vector cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(p, c)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the columns inserts: row `p` with the coordinate `k`. -/
theorem lift_row (h : S256x256.Reduces [1] S256) (p k : Fin 256) : h.lift (ix1 p) k = ix2 p k :=
  funext fun a => Fin.ext (by match a with | ⟨0, _⟩ => rfl | ⟨1, _⟩ => rfl)

/-! ## The perceptron's layers and the normalisation, read at an index -/

/-- One layer before its nonlinearity, from `256` inputs: the product of a row `x` with the weights plus the bias row. -/
theorem layer_sq {φ₁ φ₂ : FTy} (X : FVec Ideal S256x256 φ₁) (W : FVec Ideal S256x256 φ₂) (B : Vec Ideal S1x256 .f32)
    (hs : S1x256.ShapeCasts S1x256) (hb : S1x256.Broadcasts S256x256) (p k : Fin 256) (x : Fin 256 → EReal)
    (hX : ∀ c, X (ix2 p c) = x c) :
    addf (matmul dot_S256x256_S256x256_S256x256_1_0_0_1_n_n none X W (constant (F := Ideal) S256x256 .f32 0x00000000#32))
        (broadcastTo S256x256 (shapeCast S1x256 B hs) hb) (ix2 p k)
      = ∑ c : Fin 256, x c * W (ix2 c k) + B (ix2 0 k) := by
  refine (addf_apply _ _ _).trans ?_
  rw [matmul_sq, broadcastTo_1b_ab_apply, shapeCast_self]
  exact congrArg (· + B (ix2 0 k)) (Finset.sum_congr rfl fun c _ => by rw [hX c])

/-- One layer before its nonlinearity, from `128` inputs: the product of a row `x` with the weights plus the bias row. -/
theorem layer_128 {φ₁ φ₂ : FTy} (X : FVec Ideal S256x128 φ₁) (W : FVec Ideal S128x256 φ₂) (B : Vec Ideal S1x256 .f32)
    (hs : S1x256.ShapeCasts S1x256) (hb : S1x256.Broadcasts S256x256) (p k : Fin 256) (x : Fin 128 → EReal)
    (hX : ∀ c, X (ix2 p c) = x c) :
    addf (matmul dot_S256x128_S128x256_S256x256_1_0_0_1_n_n none X W (constant (F := Ideal) S256x256 .f32 0x00000000#32))
        (broadcastTo S256x256 (shapeCast S1x256 B hs) hb) (ix2 p k)
      = ∑ c : Fin 128, x c * W (ix2 c k) + B (ix2 0 k) := by
  refine (addf_apply _ _ _).trans ?_
  rw [matmul_128, broadcastTo_1b_ab_apply, shapeCast_self]
  exact congrArg (· + B (ix2 0 k)) (Finset.sum_congr rfl fun c _ => by rw [hX c])

/-- The row divided by its Euclidean norm plus the small constant. -/
theorem normalize_apply (V : FVec Ideal S256x256 .f32) (h1 : S256x256.Reduces [1] S256) (hφ : FKind.Formats .f32)
    (hacc : (0x00000000#32 : BitVec 32) = FKind.add.neutral .f32 hφ) (h2 : S256.ShapeCasts S256x1) (h3 : S256x1.Broadcasts S256x256)
    (p j : Fin 256) (L : Fin 256 → EReal) (hV : ∀ k, V (ix2 p k) = L k) :
    divf V (broadcastTo S256x256 (addf (sqrt (shapeCast S256x1 (multiReduction .add [1] S256 (mulf V V) 0x00000000#32 h1 hφ hacc) h2))
        (broadcast S256x1 (Scalar.ofBits (F := Ideal) .f32 0x33D6BF95#32))) h3) (ix2 p j)
      = Ideal.div (L j) (Ideal.sqrt (∑ k : Fin 256, L k * L k) + Cert.Spec.eps) := by
  refine (divf_apply _ _ _).trans ?_
  rw [hV j]
  refine congrArg (Ideal.div (L j)) ?_
  refine (broadcastTo_a1_ab_apply _ h3 p j).trans ?_
  refine (addf_apply _ _ _).trans ?_
  refine congrArg (· + Cert.Spec.eps) (congrArg Ideal.sqrt ?_)
  refine (shapeCast_a_a1_apply _ h2 p 0).trans ?_
  refine (Ideal.multiReduction_add_single (mulf V V) 0x00000000#32 h1 hφ hacc (ix1 p)).trans ?_
  refine Finset.sum_congr rfl fun k _ => ?_
  rw [lift_row h1 p k]
  refine (mulf_apply _ _ _).trans ?_
  rw [hV k]

/-- Call 1's last payload at `(p, j)`: the perceptron of column `p` of the accumulator (its `256` channels), normalised. -/
theorem head_1 (acc w1 : Vec Ideal S256x256 .f32) (b1 : Vec Ideal S1x256 .f32) (w2 : Vec Ideal S256x256 .f32) (b2 : Vec Ideal S1x256 .f32) (p j : Fin 256) :
    Gen.k1_pay3 (F := Ideal) acc w1 b1 w2 b2 (ix2 p j)
      = Cert.Spec.head (fun c : Fin 256 => acc (ix2 c p)) (fun c k => w1 (ix2 c k)) (fun k => b1 (ix2 0 k)) (fun k j => w2 (ix2 k j)) (fun j => b2 (ix2 0 j)) j := by
  unfold Gen.k1_pay3
  refine normalize_apply _ _ _ _ _ _ p j _ fun j' => ?_
  refine (layer_sq _ _ _ _ _ p j' (Cert.Spec.hidden (fun c : Fin 256 => acc (ix2 c p)) (fun c k => w1 (ix2 c k)) (fun k => b1 (ix2 0 k))) fun k => ?_).trans rfl
  rw [truncf_apply, maximumf_apply]
  refine congrArg₂ max ?_ Ideal.ofBits_zero_f32
  refine (layer_sq _ _ _ _ _ p k (fun c : Fin 256 => acc (ix2 c p)) fun c => ?_).trans rfl
  rw [truncf_apply]
  exact transpose_ix2_apply acc _ p c

/-- Call 2's last payload at `(p, j)`: the perceptron of column `p` of the accumulator (its `256` channels), normalised. -/
theorem head_2 (acc w1 : Vec Ideal S256x256 .f32) (b1 : Vec Ideal S1x256 .f32) (w2 : Vec Ideal S256x256 .f32) (b2 : Vec Ideal S1x256 .f32) (p j : Fin 256) :
    Gen.k2_pay3 (F := Ideal) acc w1 b1 w2 b2 (ix2 p j)
      = Cert.Spec.head (fun c : Fin 256 => acc (ix2 c p)) (fun c k => w1 (ix2 c k)) (fun k => b1 (ix2 0 k)) (fun k j => w2 (ix2 k j)) (fun j => b2 (ix2 0 j)) j := by
  unfold Gen.k2_pay3
  refine normalize_apply _ _ _ _ _ _ p j _ fun j' => ?_
  refine (layer_sq _ _ _ _ _ p j' (Cert.Spec.hidden (fun c : Fin 256 => acc (ix2 c p)) (fun c k => w1 (ix2 c k)) (fun k => b1 (ix2 0 k))) fun k => ?_).trans rfl
  rw [truncf_apply, maximumf_apply]
  refine congrArg₂ max ?_ Ideal.ofBits_zero_f32
  refine (layer_sq _ _ _ _ _ p k (fun c : Fin 256 => acc (ix2 c p)) fun c => ?_).trans rfl
  rw [truncf_apply]
  exact transpose_ix2_apply acc _ p c

/-- Call 0's last payload at `(p, j)`: the perceptron of column `p` of the accumulator (its `128` channels), normalised. -/
theorem head_0 (acc w1 : Vec Ideal S128x256 .f32) (b1 : Vec Ideal S1x256 .f32) (w2 : Vec Ideal S256x256 .f32) (b2 : Vec Ideal S1x256 .f32) (p j : Fin 256) :
    Gen.k0_pay3 (F := Ideal) acc w1 b1 w2 b2 (ix2 p j)
      = Cert.Spec.head (fun c : Fin 128 => acc (ix2 c p)) (fun c k => w1 (ix2 c k)) (fun k => b1 (ix2 0 k)) (fun k j => w2 (ix2 k j)) (fun j => b2 (ix2 0 j)) j := by
  unfold Gen.k0_pay3
  refine normalize_apply _ _ _ _ _ _ p j _ fun j' => ?_
  refine (layer_sq _ _ _ _ _ p j' (Cert.Spec.hidden (fun c : Fin 128 => acc (ix2 c p)) (fun c k => w1 (ix2 c k)) (fun k => b1 (ix2 0 k))) fun k => ?_).trans rfl
  rw [truncf_apply, maximumf_apply]
  refine congrArg₂ max ?_ Ideal.ofBits_zero_f32
  refine (layer_128 _ _ _ _ _ p k (fun c : Fin 128 => acc (ix2 c p)) fun c => ?_).trans rfl
  rw [truncf_apply]
  exact transpose_ix2_apply acc _ p c

/-! ### The selector: one position of a row picked by a sum of products -/

/-- The 0/1 word of "`a` equals `b`", widened and read as a number: one when the words agree, zero otherwise. -/
theorem selector_word (a b : BitVec 32) :
    FloatOps.sitofp (F := Ideal) .f32 ((IntOp.cmpi .eq a b).setWidth 32) = if a = b then (1 : EReal) else 0 := by
  have e1 : ((BitVec.ofBool true).setWidth 32).toInt = 1 := by decide
  have e0 : ((BitVec.ofBool false).setWidth 32).toInt = 0 := by decide
  show ((((BitVec.ofBool (a == b)).setWidth 32).toInt : ℝ) : EReal) = _
  by_cases h : a = b
  · have hb : (a == b) = true := by simpa using h
    rw [if_pos h, hb, e1]; simp
  · have hb : (a == b) = false := by simpa using h
    rw [if_neg h, hb, e0]; simp

/-- Row index `s` of tile `k` of length `T`, as the kernel computes it on 32-bit words, is the word of `s + k·T`. -/
theorem tile_word (s k T : ℕ) :
    IntOp.addi (BitVec.ofNat 32 s) (Scalar.muli (BitVec.ofNat 32 k) (BitVec.ofNat 32 T)) = BitVec.ofNat 32 (s + k * T) := by
  show BitVec.ofNat 32 s + BitVec.ofNat 32 k * BitVec.ofNat 32 T = _
  rw [BitVec.ofNat_mul_ofNat, BitVec.ofNat_add_ofNat]

/-- A nonnegative signed word is its unsigned value. -/
theorem toNat_of_toInt_nonneg (q : BitVec 32) (h : 0 ≤ q.toInt) : q.toInt.toNat = q.toNat := by
  have hlt := q.isLt
  rw [BitVec.toInt_eq_toNat_cond] at h ⊢
  split at h <;> rename_i hc
  · rw [if_pos hc]; omega
  · omega

/-- Over a tile of `T` positions starting at `off`, the products of `f` with the selector of the word `q` sum to `f`'s entry
    at `q − off` when `q` lies in the tile, and to zero otherwise: every other product is `f s * 0`, and a word is the word
    of exactly one number below `2 ^ 32`. -/
theorem tile_sum {T : ℕ} (f : Fin T → EReal) (off : ℕ) (hoff : off + T ≤ 2 ^ 32) (q : BitVec 32) :
    ∑ s : Fin T, f s * (if BitVec.ofNat 32 (s.val + off) = q then (1 : EReal) else 0)
      = if h : off ≤ q.toNat ∧ q.toNat < off + T then f ⟨q.toNat - off, by omega⟩ else 0 := by
  have key : ∀ s : Fin T, BitVec.ofNat 32 (s.val + off) = q ↔ s.val + off = q.toNat := fun s => by
    have hs := s.isLt
    constructor
    · intro e
      have := congrArg BitVec.toNat e
      rwa [BitVec.toNat_ofNat, Nat.mod_eq_of_lt (by omega)] at this
    · intro e
      refine BitVec.eq_of_toNat_eq ?_
      rw [BitVec.toNat_ofNat, Nat.mod_eq_of_lt (by omega), e]
  split
  · rename_i h
    rw [Finset.sum_eq_single (⟨q.toNat - off, by omega⟩ : Fin T)]
    · rw [if_pos ((key _).mpr (by show q.toNat - off + off = q.toNat; omega)), mul_one]
    · intro s _ hs
      rw [if_neg (fun e => hs (Fin.ext (by have := (key s).mp e; show s.val = q.toNat - off; omega))), mul_zero]
    · intro h'; exact absurd (Finset.mem_univ _) h'
  · rename_i h
    refine Finset.sum_eq_zero fun s _ => ?_
    rw [if_neg (fun e => h (by have := (key s).mp e; have := s.isLt; omega)), mul_zero]

/-- The same against the specification's reading of a whole row of `S` numbers: the tile `[off, off + T)` of `row` gives
    `pickAt row q` when the position `q` (signed, in `[0, S)`) lies in the tile, and zero otherwise. -/
theorem tile_pick {S T : ℕ} (hS : 0 < S) (hS31 : S ≤ 2 ^ 31) (row : Fin S → EReal) (off : ℕ) (hoff : off + T ≤ S)
    (f : Fin T → EReal) (hf : ∀ s : Fin T, f s = row ⟨s.val + off, by have := s.isLt; omega⟩)
    (q : BitVec 32) (hq : 0 ≤ q.toInt ∧ q.toInt < S) :
    ∑ s : Fin T, f s * (if BitVec.ofNat 32 (s.val + off) = q then (1 : EReal) else 0)
      = if off ≤ q.toInt.toNat ∧ q.toInt.toNat < off + T then Cert.Spec.pickAt hS row q else 0 := by
  have hn := toNat_of_toInt_nonneg q hq.1
  have hlt : q.toInt.toNat < S := by omega
  rw [tile_sum f off (by omega) q, hn]
  split
  · rename_i h
    rw [hf]
    unfold Cert.Spec.pickAt
    exact congrArg row (Fin.ext (by show q.toNat - off + off = min q.toInt.toNat (S - 1); omega))
  · rfl

/-! ## The accumulation step and the accumulator -/

/-- Call 1's accumulation step at `(c, p)`: the accumulator plus the streamed tile's products with the selector of position `q p`. -/
theorem pay2_1_apply (i : grid1.Coords) (x : Vec Ideal S1x256x4096 .f32) (q : Vec Ideal S1x256 .i32) (acc : Vec Ideal S256x256 .f32) (c : Fin 256) (p : Fin 256) :
    Gen.k1_pay2 i x q acc (ix2 c p)
      = acc (ix2 c p) + ∑ s : Fin 4096, x (ix3 0 c s) * (if BitVec.ofNat 32 (s.val + (i 1).val * 4096) = q (ix2 0 p) then (1 : EReal) else 0) := by
  unfold Gen.k1_pay2
  rw [shapeCast_self, addf_apply, matmul_big1]
  refine congrArg (acc (ix2 c p) + ·) (Finset.sum_congr rfl fun s _ => ?_)
  rw [truncf_apply, shapeCast_1ab_ab_apply, truncf_apply, sitofp_apply, extui_apply]
  refine congrArg (x (ix3 0 c s) * ·) ?_
  refine (selector_word _ _).trans ?_
  rw [broadcastTo_a1_ab_apply, broadcastTo_1b_ab_apply, shapeCast_self]
  refine if_congr (Eq.congr_left ?_) rfl rfl
  refine Eq.trans ?_ (tile_word s.val (i 1).val 4096)
  refine congrArg₂ IntOp.addi (iota_single_apply _ _ _ _ _ _) rfl

/-- Call 2's accumulation step at `(c, p)`: the accumulator plus the streamed tile's products with the selector of position `q p`. -/
theorem pay2_2_apply (i : grid2.Coords) (x : Vec Ideal S1x256x4096 .f32) (q : Vec Ideal S1x256 .i32) (acc : Vec Ideal S256x256 .f32) (c : Fin 256) (p : Fin 256) :
    Gen.k2_pay2 i x q acc (ix2 c p)
      = acc (ix2 c p) + ∑ s : Fin 4096, x (ix3 0 c s) * (if BitVec.ofNat 32 (s.val + (i 1).val * 4096) = q (ix2 0 p) then (1 : EReal) else 0) := by
  unfold Gen.k2_pay2
  rw [shapeCast_self, addf_apply, matmul_big1]
  refine congrArg (acc (ix2 c p) + ·) (Finset.sum_congr rfl fun s _ => ?_)
  rw [truncf_apply, shapeCast_1ab_ab_apply, truncf_apply, sitofp_apply, extui_apply]
  refine congrArg (x (ix3 0 c s) * ·) ?_
  refine (selector_word _ _).trans ?_
  rw [broadcastTo_a1_ab_apply, broadcastTo_1b_ab_apply, shapeCast_self]
  refine if_congr (Eq.congr_left ?_) rfl rfl
  refine Eq.trans ?_ (tile_word s.val (i 1).val 4096)
  refine congrArg₂ IntOp.addi (iota_single_apply _ _ _ _ _ _) rfl

/-- Call 0's accumulation step at `(c, p)`: the accumulator plus the streamed tile's products with the selector of position `q p`. -/
theorem pay2_0_apply (i : grid0.Coords) (x : Vec Ideal S1x128x8192 .f32) (q : Vec Ideal S1x256 .i32) (acc : Vec Ideal S128x256 .f32) (c : Fin 128) (p : Fin 256) :
    Gen.k0_pay2 i x q acc (ix2 c p)
      = acc (ix2 c p) + ∑ s : Fin 8192, x (ix3 0 c s) * (if BitVec.ofNat 32 (s.val + (i 1).val * 8192) = q (ix2 0 p) then (1 : EReal) else 0) := by
  unfold Gen.k0_pay2
  rw [shapeCast_self, addf_apply, matmul_big0]
  refine congrArg (acc (ix2 c p) + ·) (Finset.sum_congr rfl fun s _ => ?_)
  rw [truncf_apply, shapeCast_1ab_ab_apply, truncf_apply, sitofp_apply, extui_apply]
  refine congrArg (x (ix3 0 c s) * ·) ?_
  refine (selector_word _ _).trans ?_
  rw [broadcastTo_a1_ab_apply, broadcastTo_1b_ab_apply, shapeCast_self]
  refine if_congr (Eq.congr_left ?_) rfl rfl
  refine Eq.trans ?_ (tile_word s.val (i 1).val 8192)
  refine congrArg₂ IntOp.addi (iota_single_apply _ _ _ _ _ _) rfl

/-- Call 1's first payload, the accumulator's initial value: zero everywhere. -/
theorem pay1_1 (j : S256x256.Idx) : Gen.k1_pay1 (F := Ideal) j = 0 := by
  unfold Gen.k1_pay1
  rw [shapeCast_self]
  exact Ideal.ofBits_zero_f32

/-- Call 2's first payload, the accumulator's initial value: zero everywhere. -/
theorem pay1_2 (j : S256x256.Idx) : Gen.k2_pay1 (F := Ideal) j = 0 := by
  unfold Gen.k2_pay1
  rw [shapeCast_self]
  exact Ideal.ofBits_zero_f32

/-- Call 0's first payload, the accumulator's initial value: zero everywhere. -/
theorem pay1_0 (j : S128x256.Idx) : Gen.k0_pay1 (F := Ideal) j = 0 := by
  unfold Gen.k0_pay1
  rw [shapeCast_self]
  exact Ideal.ofBits_zero_f32

/-- Call 1's accumulator after its one step from zero, at `(c, p)`: channel `c` of the feature row at position `q p`. -/
theorem acc_1 (i : grid1.Coords) (h : (i 1).val = 0) (x : Vec Ideal S1x256x4096 .f32) (q : Vec Ideal S1x256 .i32)
    (hq : ∀ p : Fin 256, 0 ≤ (q (ix2 0 p)).toInt ∧ (q (ix2 0 p)).toInt < 4096) (c p : Fin 256) :
    Gen.k1_pay2 i x q (Gen.k1_pay1 (F := Ideal)) (ix2 c p)
      = Cert.Spec.pickAt (S := 4096) (by decide) (fun s => x (ix3 0 c s)) (q (ix2 0 p)) := by
  rw [pay2_1_apply, pay1_1, zero_add, h]
  refine (tile_pick (S := 4096) (by decide) (by norm_num) (fun s => x (ix3 0 c s)) (0 * 4096) (by norm_num) (fun s => x (ix3 0 c s))
    (fun s => congrArg (fun t => x (ix3 0 c t)) (Fin.ext (by show s.val = s.val + 0 * 4096; omega))) _ (hq p)).trans ?_
  have := hq p
  rw [if_pos (by omega)]

/-- Call 2's accumulator after its one step from zero, at `(c, p)`: channel `c` of the feature row at position `q p`. -/
theorem acc_2 (i : grid2.Coords) (h : (i 1).val = 0) (x : Vec Ideal S1x256x4096 .f32) (q : Vec Ideal S1x256 .i32)
    (hq : ∀ p : Fin 256, 0 ≤ (q (ix2 0 p)).toInt ∧ (q (ix2 0 p)).toInt < 4096) (c p : Fin 256) :
    Gen.k2_pay2 i x q (Gen.k2_pay1 (F := Ideal)) (ix2 c p)
      = Cert.Spec.pickAt (S := 4096) (by decide) (fun s => x (ix3 0 c s)) (q (ix2 0 p)) := by
  rw [pay2_2_apply, pay1_2, zero_add, h]
  refine (tile_pick (S := 4096) (by decide) (by norm_num) (fun s => x (ix3 0 c s)) (0 * 4096) (by norm_num) (fun s => x (ix3 0 c s))
    (fun s => congrArg (fun t => x (ix3 0 c t)) (Fin.ext (by show s.val = s.val + 0 * 4096; omega))) _ (hq p)).trans ?_
  have := hq p
  rw [if_pos (by omega)]

/-- Call 0's accumulator after its two steps from zero (tiles 0 and 1 of the row of `16384` positions), at `(c, p)`: channel `c`
    of the feature row at position `q p` — the position lies in exactly one tile, and the other tile adds zero. -/
theorem acc_0 (i0 i1 : grid0.Coords) (h0 : (i0 1).val = 0) (h1 : (i1 1).val = 1)
    (x0 x1 : Vec Ideal S1x128x8192 .f32) (q : Vec Ideal S1x256 .i32)
    (hq : ∀ p : Fin 256, 0 ≤ (q (ix2 0 p)).toInt ∧ (q (ix2 0 p)).toInt < 16384) (c : Fin 128) (p : Fin 256) :
    Gen.k0_pay2 i1 x1 q (Gen.k0_pay2 i0 x0 q (Gen.k0_pay1 (F := Ideal))) (ix2 c p)
      = Cert.Spec.pickAt (S := 16384) (by decide)
          (fun s => if h : s.val < 8192 then x0 (ix3 0 c ⟨s.val, h⟩) else x1 (ix3 0 c ⟨s.val - 8192, by omega⟩)) (q (ix2 0 p)) := by
  rw [pay2_0_apply, pay2_0_apply, pay1_0, zero_add, h0, h1]
  have hf0 : ∀ s : Fin 8192, x0 (ix3 0 c s)
      = (fun s : Fin 16384 => if h : s.val < 8192 then x0 (ix3 0 c ⟨s.val, h⟩) else x1 (ix3 0 c ⟨s.val - 8192, by omega⟩))
          ⟨s.val + 0 * 8192, by have := s.isLt; omega⟩ := fun s => by
    have hs := s.isLt
    show _ = dite _ _ _
    rw [dif_pos (show s.val + 0 * 8192 < 8192 by omega)]
    exact congrArg (fun t => x0 (ix3 0 c t)) (Fin.ext (by show s.val = s.val + 0 * 8192; omega))
  have hf1 : ∀ s : Fin 8192, x1 (ix3 0 c s)
      = (fun s : Fin 16384 => if h : s.val < 8192 then x0 (ix3 0 c ⟨s.val, h⟩) else x1 (ix3 0 c ⟨s.val - 8192, by omega⟩))
          ⟨s.val + 1 * 8192, by have := s.isLt; omega⟩ := fun s => by
    have hs := s.isLt
    show _ = dite _ _ _
    rw [dif_neg (show ¬ s.val + 1 * 8192 < 8192 by omega)]
    exact congrArg (fun t => x1 (ix3 0 c t)) (Fin.ext (by show s.val = s.val + 1 * 8192 - 8192; omega))
  refine (congrArg₂ (· + ·)
    (tile_pick (S := 16384) (by decide) (by norm_num) (fun s : Fin 16384 => if h : s.val < 8192 then x0 (ix3 0 c ⟨s.val, h⟩) else x1 (ix3 0 c ⟨s.val - 8192, by omega⟩)) (0 * 8192) (by norm_num) (fun s => x0 (ix3 0 c s)) hf0 _ (hq p))
    (tile_pick (S := 16384) (by decide) (by norm_num) (fun s : Fin 16384 => if h : s.val < 8192 then x0 (ix3 0 c ⟨s.val, h⟩) else x1 (ix3 0 c ⟨s.val - 8192, by omega⟩)) (1 * 8192) (by norm_num) (fun s => x1 (ix3 0 c s)) hf1 _ (hq p))).trans ?_
  have := hq p
  by_cases hlt : (q (ix2 0 p)).toInt.toNat < 8192
  · rw [if_pos (by omega), if_neg (by omega), add_zero]
  · rw [if_neg (by omega), if_pos (by omega), zero_add]

end Cert.KernelIdeal.PayIdx

end
-- ==== Proof.KValue0.lean ====
/-
  Kernel call 0, the result array: what its pipeline leaves is the specification.

  The grid has 8 × 2 points, point `t = 2·b + k` of batch `b` and half `k` of the 16384 positions. The output window is
  written back at the odd points only, block `b` (rows `256·b … 256·b + 255`). What an odd point leaves there is the last
  payload of the accumulator after both halves: entry `(c, p)` of the accumulator is the feature of batch `b`, channel `c`
  at the position patch `p` names (the position lies in exactly one half, the other half adds zero), so row `p` of the
  block is `head` of the sampled column of batch `b` at patch `p`: row `256·b + p` of the specification. The eight
  blocks cover the array.
-/
import proofs.«402699_j35115652612732_3_alg».proof.Proof.FrameKI.R0Dat
import proofs.«402699_j35115652612732_3_alg».proof.Proof.PayIdx
import proofs.«402699_j35115652612732_3_alg».proof.Proof.Spec
import Idealize.ShloMosaic.Lib.Pipeline.Value
import Idealize.ShloMosaic.Lib.ValueIdx

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

/-! ## The block indices over the grid -/

/-- The parameter windows never move: their block index is zero at every point. -/
theorem index0_whole : ∀ t : Fin cfg0.N,
    (win0_0.index t 0 = 0 ∧ win0_0.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) :=
  (by decide +kernel : ∀ t : Fin grid0.N,
    (win0_0.index t 0 = 0 ∧ win0_0.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0))

/-- The feature window at point `t = 2·b + k` is block `(b, 0, k)`. -/
theorem index0_1 : ∀ t : Fin cfg0.N, win0_1.index t 0 = t.val / 2 ∧ win0_1.index t 1 = 0 ∧ win0_1.index t 2 = t.val % 2 :=
  (by decide +kernel : ∀ t : Fin grid0.N, win0_1.index t 0 = t.val / 2 ∧ win0_1.index t 1 = 0 ∧ win0_1.index t 2 = t.val % 2)

/-- The output window at point `t = 2·b + k` is block `(b, 0)`. -/
theorem index0_6 : ∀ t : Fin cfg0.N, win0_6.index t 0 = t.val / 2 ∧ win0_6.index t 1 = 0 :=
  (by decide +kernel : ∀ t : Fin grid0.N, win0_6.index t 0 = t.val / 2 ∧ win0_6.index t 1 = 0)

/-- At an odd point the position coordinate is 1, at the point before it 0. -/
theorem coords0_odd : ∀ t : Fin cfg0.N, t.val % 2 = 1 → ((grid0.coords t) 1).val = 1 ∧ ((grid0.coords (prev0 t)) 1).val = 0 :=
  (by decide +kernel : ∀ t : Fin grid0.N, t.val % 2 = 1 → ((grid0.coords t) 1).val = 1 ∧ ((grid0.coords (prev0 t)) 1).val = 0)

/-! ## The input blocks, read off the arrays the region finds -/

section Blocks
variable (V : (c : Dev nD) → (b : Ref sig .tc) → Buf (Elt Ideal) ((c : Thread nD τ).loc b)) (c : Dev nD)

/-- The positions' block is the whole `[1, 256]` array. -/
theorem iblk0_0_eq (t : Fin cfg0.N) :
    (iblk0 V c 0 t : Vec Ideal S1x256 .i32) = (V c main_v1 : Vec Ideal S1x256 .i32) := by
  funext y
  unfold iblk0
  rw [View.read_apply]
  show (V c main_v1 : Vec Ideal S1x256 .i32) _ = _
  congr 1
  funext a
  apply Fin.ext
  obtain ⟨⟨h0, h1⟩, -⟩ := index0_whole t
  match a with
  | ⟨0, _⟩ => show win0_0.index t 0 * 1 + 1 * (y 0).val = (y 0).val; rw [h0]; omega
  | ⟨1, _⟩ => show win0_0.index t 1 * 256 + 1 * (y 1).val = (y 1).val; rw [h1]; omega

/-- The first layer's weights' block is the whole array. -/
theorem iblk0_2_eq (t : Fin cfg0.N) :
    (iblk0 V c 2 t : Vec Ideal S128x256 .f32) = (V c main_arg6 : Vec Ideal S128x256 .f32) := by
  funext y
  unfold iblk0
  rw [View.read_apply]
  show (V c main_arg6 : Vec Ideal S128x256 .f32) _ = _
  congr 1
  funext a
  apply Fin.ext
  obtain ⟨-, ⟨h0, h1⟩, -⟩ := index0_whole t
  match a with
  | ⟨0, _⟩ => show win0_2.index t 0 * 128 + 1 * (y 0).val = (y 0).val; rw [h0]; omega
  | ⟨1, _⟩ => show win0_2.index t 1 * 256 + 1 * (y 1).val = (y 1).val; rw [h1]; omega

/-- The first layer's bias' block is the whole `[1, 256]` array. -/
theorem iblk0_3_eq (t : Fin cfg0.N) :
    (iblk0 V c 3 t : Vec Ideal S1x256 .f32) = (V c main_v2 : Vec Ideal S1x256 .f32) := by
  funext y
  unfold iblk0
  rw [View.read_apply]
  show (V c main_v2 : Vec Ideal S1x256 .f32) _ = _
  congr 1
  funext a
  apply Fin.ext
  obtain ⟨-, -, ⟨h0, h1⟩, -⟩ := index0_whole t
  match a with
  | ⟨0, _⟩ => show win0_3.index t 0 * 1 + 1 * (y 0).val = (y 0).val; rw [h0]; omega
  | ⟨1, _⟩ => show win0_3.index t 1 * 256 + 1 * (y 1).val = (y 1).val; rw [h1]; omega

/-- The second layer's weights' block is the whole array. -/
theorem iblk0_4_eq (t : Fin cfg0.N) :
    (iblk0 V c 4 t : Vec Ideal S256x256 .f32) = (V c main_arg8 : Vec Ideal S256x256 .f32) := by
  funext y
  unfold iblk0
  rw [View.read_apply]
  show (V c main_arg8 : Vec Ideal S256x256 .f32) _ = _
  congr 1
  funext a
  apply Fin.ext
  obtain ⟨-, -, -, ⟨h0, h1⟩, -⟩ := index0_whole t
  match a with
  | ⟨0, _⟩ => show win0_4.index t 0 * 256 + 1 * (y 0).val = (y 0).val; rw [h0]; omega
  | ⟨1, _⟩ => show win0_4.index t 1 * 256 + 1 * (y 1).val = (y 1).val; rw [h1]; omega

/-- The second layer's bias' block is the whole `[1, 256]` array. -/
theorem iblk0_5_eq (t : Fin cfg0.N) :
    (iblk0 V c 5 t : Vec Ideal S1x256 .f32) = (V c main_v3 : Vec Ideal S1x256 .f32) := by
  funext y
  unfold iblk0
  rw [View.read_apply]
  show (V c main_v3 : Vec Ideal S1x256 .f32) _ = _
  congr 1
  funext a
  apply Fin.ext
  obtain ⟨-, -, -, -, ⟨h0, h1⟩⟩ := index0_whole t
  match a with
  | ⟨0, _⟩ => show win0_5.index t 0 * 1 + 1 * (y 0).val = (y 0).val; rw [h0]; omega
  | ⟨1, _⟩ => show win0_5.index t 1 * 256 + 1 * (y 1).val = (y 1).val; rw [h1]; omega

/-- The features' block at point `t = 2·b + k`, at `(0, ch, s)`, is the features at `(b, ch, 8192·k + s)`. -/
theorem iblk0_1_apply (t : Fin cfg0.N) (ch : Fin 128) (s : Fin 8192) (bb : Fin 8) (ss : Fin 16384)
    (hb : bb.val = t.val / 2) (hs : ss.val = (t.val % 2) * 8192 + s.val) :
    (iblk0 V c 1 t : Vec Ideal S1x128x8192 .f32) (ix3 0 ch s) = (V c main_v0 : Vec Ideal S8x128x16384 .f32) (ix3 bb ch ss) := by
  unfold iblk0
  rw [View.read_apply]
  show (V c main_v0 : Vec Ideal S8x128x16384 .f32) _ = _
  congr 1
  funext a
  apply Fin.ext
  obtain ⟨h0, h1, h2⟩ := index0_1 t
  match a with
  | ⟨0, _⟩ => show win0_1.index t 0 * 1 + 1 * 0 = bb.val; rw [h0, hb]; omega
  | ⟨1, _⟩ => show win0_1.index t 1 * 128 + 1 * ch.val = ch.val; rw [h1]; omega
  | ⟨2, _⟩ => show win0_1.index t 2 * 8192 + 1 * s.val = ss.val; rw [h2, hs]; omega

end Blocks

/-! ## One odd point: the block it leaves is rows of the specification -/

/-- `head` depends on its five arguments only through their values. -/
theorem head_congr {C : Nat} {x x' : Fin C → EReal} {w1 w1' : Fin C → Fin 256 → EReal} {b1 b1' : Fin 256 → EReal}
    {w2 w2' : Fin 256 → Fin 256 → EReal} {b2 b2' : Fin 256 → EReal}
    (hx : x = x') (h1 : w1 = w1') (h2 : b1 = b1') (h3 : w2 = w2') (h4 : b2 = b2') (j : Fin 256) :
    Cert.Spec.head x w1 b1 w2 b2 j = Cert.Spec.head x' w1' b1' w2' b2' j := by
  subst hx h1 h2 h3 h4; rfl

/-- The last payload of the accumulator after both halves, at `(p, j)`: `head` of the column whose channel `c` is the
    glued row of `16384` positions (first half from the even point's tile, second from the odd one's) at the position
    patch `p` names. -/
theorem point_apply (i0 i1 : grid0.Coords) (h0 : (i0 1).val = 0) (h1 : (i1 1).val = 1)
    (x0 x1 : Vec Ideal S1x128x8192 .f32) (q0 q1 : Vec Ideal S1x256 .i32) (hqq : q0 = q1)
    (w1 : Vec Ideal S128x256 .f32) (b1 : Vec Ideal S1x256 .f32) (w2 : Vec Ideal S256x256 .f32) (b2 : Vec Ideal S1x256 .f32)
    (hq : ∀ p : Fin 256, 0 ≤ (q1 (ix2 0 p)).toInt ∧ (q1 (ix2 0 p)).toInt < 16384) (p j : Fin 256) :
    Gen.k0_pay3 (F := Ideal) (Gen.k0_pay2 i1 x1 q1 (Gen.k0_pay2 i0 x0 q0 (Gen.k0_pay1 (F := Ideal)))) w1 b1 w2 b2 (ix2 p j)
      = Cert.Spec.head (fun c : Fin 128 => Cert.Spec.pickAt (S := 16384) (by decide)
            (fun s => if h : s.val < 8192 then x0 (ix3 0 c ⟨s.val, h⟩) else x1 (ix3 0 c ⟨s.val - 8192, by omega⟩)) (q1 (ix2 0 p)))
          (fun c k => w1 (ix2 c k)) (fun k => b1 (ix2 0 k)) (fun k j => w2 (ix2 k j)) (fun j => b2 (ix2 0 j)) j := by
  subst hqq
  refine (PayIdx.head_0 _ w1 b1 w2 b2 p j).trans ?_
  exact head_congr (funext fun c => PayIdx.acc_0 i0 i1 h0 h1 x0 x1 q0 hq c p) rfl rfl rfl rfl j

/-- The glued row read at the position a patch names is the sampled column: the two tiles are the two halves of the
    features' row of batch `b`, channel `c`. -/
theorem column_of_halves (feat : (⟨4, ![8, 128, 128, 128]⟩ : Shape).Idx → EReal) (pid : (⟨1, ![256]⟩ : Shape).Idx → BitVec 32)
    (x0 x1 : Vec Ideal S1x128x8192 .f32) (b : Fin 8) (c : Fin 128)
    (hx0 : ∀ (s : Fin 8192) (ss : Fin 16384), ss.val = s.val →
      x0 (ix3 0 c s) = feat (ix4 b c ⟨ss.val / 128, by have := ss.isLt; omega⟩ ⟨ss.val % 128, Nat.mod_lt _ (by decide)⟩))
    (hx1 : ∀ (s : Fin 8192) (ss : Fin 16384), ss.val = s.val + 8192 →
      x1 (ix3 0 c s) = feat (ix4 b c ⟨ss.val / 128, by have := ss.isLt; omega⟩ ⟨ss.val % 128, Nat.mod_lt _ (by decide)⟩))
    (p : Fin 256) (q : BitVec 32) (hqp : q = pid (ix1 p)) :
    Cert.Spec.pickAt (S := 16384) (by decide)
        (fun s => if h : s.val < 8192 then x0 (ix3 0 c ⟨s.val, h⟩) else x1 (ix3 0 c ⟨s.val - 8192, by omega⟩)) q
      = Cert.Spec.column (C := 128) (H := 128) (W := 128) (by decide) feat pid b p c := by
  subst hqp
  unfold Cert.Spec.column
  refine congrArg (fun row => Cert.Spec.pickAt (S := 16384) (by decide) row (pid (ix1 p))) (funext fun s => ?_)
  by_cases h : s.val < 8192
  · show dite _ _ _ = _
    rw [dif_pos h]
    exact hx0 ⟨s.val, h⟩ s rfl
  · show dite _ _ _ = _
    rw [dif_neg h]
    exact hx1 ⟨s.val - 8192, by have := s.isLt; omega⟩ s (by show s.val = s.val - 8192 + 8192; omega)

section Point
variable (V : (c : Dev nD) → (b : Ref sig .tc) → Buf (Elt Ideal) ((c : Thread nD τ).loc b)) (c : Dev nD)
  (feat : (⟨4, ![8, 128, 128, 128]⟩ : Shape).Idx → EReal) (pid : (⟨1, ![256]⟩ : Shape).Idx → BitVec 32)
  (b1 b2 : (⟨1, ![256]⟩ : Shape).Idx → EReal)
  (hfeat : ∀ (b : Fin 8) (ch : Fin 128) (s : Fin 16384), V c main_v0 (ix3 b ch s)
    = feat (ix4 b ch ⟨s.val / 128, by have := s.isLt; omega⟩ ⟨s.val % 128, Nat.mod_lt _ (by decide)⟩))
  (hpid : ∀ p : Fin 256, V c main_v1 (ix2 0 p) = pid (ix1 p))
  (hb1 : ∀ k : Fin 256, V c main_v2 (ix2 0 k) = b1 (ix1 k)) (hb2 : ∀ k : Fin 256, V c main_v3 (ix2 0 k) = b2 (ix1 k))
  (hq : ∀ p : Fin 256, 0 ≤ (pid (ix1 p)).toInt ∧ (pid (ix1 p)).toInt < 16384)
include hfeat hpid hb1 hb2 hq

/-- What the odd point `t` leaves in the output's buffer, at `(p, j)`, is the specification at row `256·(t / 2) + p`. -/
theorem outAt0_apply (t : Fin cfg0.N) (ht : t.val % 2 = 1) (p j : Fin 256) (r : Fin 2048) (hr : r.val = 256 * (t.val / 2) + p.val) :
    outAt0 V c t (ix2 p j) = Cert.Spec.sampled0 feat pid (V c main_arg6) b1 (V c main_arg8) b2 (ix2 r j) := by
  have hN : cfg0.N = 16 := N_0
  have htl := t.isLt
  have hrl := r.isLt
  obtain ⟨hc1, hc0⟩ := coords0_odd t ht
  unfold outAt0
  rw [scAt0_odd V c t (by omega)]
  unfold accEven0
  refine (point_apply (grid0.coords (prev0 t)) (grid0.coords t) hc0 hc1 (iblk0 V c 1 (prev0 t)) (iblk0 V c 1 t)
    (iblk0 V c 0 (prev0 t)) (iblk0 V c 0 t) ((iblk0_0_eq V c (prev0 t)).trans (iblk0_0_eq V c t).symm)
    (iblk0 V c 2 t) (iblk0 V c 3 t) (iblk0 V c 4 t) (iblk0 V c 5 t) (fun p' => ?_) p j).trans ?_
  · rw [congrFun (iblk0_0_eq V c t) (ix2 0 p'), hpid]; exact hq p'
  refine (head_congr (x' := Cert.Spec.column (C := 128) (H := 128) (W := 128) (by decide) feat pid
      ⟨r.val / 256, by omega⟩ ⟨r.val % 256, Nat.mod_lt _ (by decide)⟩)
    (w1' := fun c' k => (V c main_arg6 : Vec Ideal S128x256 .f32) (ix2 c' k)) (b1' := fun k => b1 (ix1 k))
    (w2' := fun k j' => (V c main_arg8 : Vec Ideal S256x256 .f32) (ix2 k j')) (b2' := fun j' => b2 (ix1 j'))
    (funext fun c' => ?_) ?_ ?_ ?_ ?_ j).trans rfl
  · refine column_of_halves feat pid _ _ ⟨r.val / 256, by omega⟩ c' (fun s ss hss => ?_) (fun s ss hss => ?_)
      ⟨r.val % 256, Nat.mod_lt _ (by decide)⟩ _ ?_
    · refine (iblk0_1_apply V c (prev0 t) c' s ⟨r.val / 256, by omega⟩ ss (by show r.val / 256 = (t.val - 1) / 2; omega)
        (by show ss.val = (t.val - 1) % 2 * 8192 + s.val; omega)).trans ?_
      exact hfeat _ _ _
    · refine (iblk0_1_apply V c t c' s ⟨r.val / 256, by omega⟩ ss (by show r.val / 256 = t.val / 2; omega)
        (by show ss.val = t.val % 2 * 8192 + s.val; omega)).trans ?_
      exact hfeat _ _ _
    · refine (congrFun (iblk0_0_eq V c t) (ix2 0 p)).trans ((hpid p).trans ?_)
      exact congrArg (fun z => pid (ix1 z)) (Fin.ext (by show p.val = r.val % 256; omega))
  · rw [iblk0_2_eq V c t]
  · funext k; rw [congrFun (iblk0_3_eq V c t) (ix2 0 k), hb1]
  · rw [iblk0_4_eq V c t]
  · funext k; rw [congrFun (iblk0_5_eq V c t) (ix2 0 k), hb2]

end Point

/-! ## The write-backs and the array -/

section Final
variable (V : (c : Dev nD) → (b : Ref sig .tc) → Buf (Elt Ideal) ((c : Thread nD τ).loc b)) (c : Dev nD)
  (feat : (⟨4, ![8, 128, 128, 128]⟩ : Shape).Idx → EReal) (pid : (⟨1, ![256]⟩ : Shape).Idx → BitVec 32)
  (b1 b2 : (⟨1, ![256]⟩ : Shape).Idx → EReal)
  (hfeat : ∀ (b : Fin 8) (ch : Fin 128) (s : Fin 16384), V c main_v0 (ix3 b ch s)
    = feat (ix4 b ch ⟨s.val / 128, by have := s.isLt; omega⟩ ⟨s.val % 128, Nat.mod_lt _ (by decide)⟩))
  (hpid : ∀ p : Fin 256, V c main_v1 (ix2 0 p) = pid (ix1 p))
  (hb1 : ∀ k : Fin 256, V c main_v2 (ix2 0 k) = b1 (ix1 k)) (hb2 : ∀ k : Fin 256, V c main_v3 (ix2 0 k) = b2 (ix1 k))
  (hq : ∀ p : Fin 256, 0 ≤ (pid (ix1 p)).toInt ∧ (pid (ix1 p)).toInt < 16384)

include hfeat hpid hb1 hb2 hq in
/-- What a write-back writes is its block of the specification: for any proof data whose output buffer after point `t`
    is `outAt0 V c t`. -/
theorem flushed_eq_of (dat : Dat τ (Elt Ideal) Unit ℕ (UR sig nD τ) ℕ cfg0 c) (hafter : ∀ t, dat.after 6 t = outAt0 V c t)
    (t : Fin cfg0.N) (hf : (cfg0.win 6).flush t = true) :
    dat.flushed 6 t = ((cfg0.win 6).blk t).view.read (Elt Ideal)
      (Cert.Spec.sampled0 feat pid (V c main_arg6) b1 (V c main_arg8) b2) := by
  have ht : t.val % 2 = 1 := (flush0_6 t).mp hf
  have hN : cfg0.N = 16 := N_0
  have htl := t.isLt
  obtain ⟨h0, h1⟩ := index0_6 t
  show (cfg0.win 6).cut (grid0.coords t) (dat.after 6 t) = _
  rw [hafter]
  funext y
  rw [View.read_apply]
  have hy0 : (y 0).val < 256 := (y 0).isLt
  have hy1 : (y 1).val < 256 := (y 1).isLt
  have e : (cfg0.win 6).cut (grid0.coords t) (outAt0 V c t) y = outAt0 V c t (ix2 ⟨(y 0).val, hy0⟩ ⟨(y 1).val, hy1⟩) :=
    congrArg (outAt0 V c t) (funext fun a => by match a with | ⟨0, _⟩ => rfl | ⟨1, _⟩ => rfl)
  refine (e.trans (outAt0_apply V c feat pid b1 b2 hfeat hpid hb1 hb2 hq t ht ⟨(y 0).val, hy0⟩ ⟨(y 1).val, hy1⟩
    ⟨256 * (t.val / 2) + (y 0).val, by omega⟩ rfl)).trans ?_
  show Cert.Spec.sampled0 feat pid (V c main_arg6) b1 (V c main_arg8) b2 _ = Cert.Spec.sampled0 feat pid (V c main_arg6) b1 (V c main_arg8) b2 _
  congr 1
  funext a
  apply Fin.ext
  match a with
  | ⟨0, _⟩ => show 256 * (t.val / 2) + (y 0).val = win0_6.index t 0 * 256 + 1 * (y 0).val; rw [h0]; omega
  | ⟨1, _⟩ => show (y 1).val = win0_6.index t 1 * 256 + 1 * (y 1).val; rw [h1]; omega

/-- Row `r` of the result is in the block the odd point `2·(r / 256) + 1` writes back. -/
theorem cover0 (i : ((cfg0.win 6).arr.view.loc (c.tc : Thread nD τ)).2.ty.Idx) :
    ∃ t : Fin cfg0.N, (cfg0.win 6).flush t = true ∧ i ∈ ((cfg0.win 6).blk t).view.set := by
  have h0 : (i 0 : Nat) < 2048 := (i 0).isLt
  have h1 : (i 1 : Nat) < 256 := (i 1).isLt
  have hN : cfg0.N = 16 := N_0
  have hlt : 2 * ((i 0 : Nat) / 256) + 1 < cfg0.N := by omega
  refine ⟨⟨2 * ((i 0 : Nat) / 256) + 1, hlt⟩, (flush0_6 _).mpr (by show (2 * ((i 0 : Nat) / 256) + 1) % 2 = 1; omega), ?_⟩
  obtain ⟨e0, e1⟩ := index0_6 ⟨2 * ((i 0 : Nat) / 256) + 1, hlt⟩
  show i ∈ ((View.whole main_v4).slice (win0_6.rect ⟨2 * ((i 0 : Nat) / 256) + 1, hlt⟩)).set
  rw [View.set_slice_whole, Rect.mem_set_unit]
  intro a
  match a with
  | ⟨0, _⟩ =>
    show win0_6.index ⟨2 * ((i 0 : Nat) / 256) + 1, hlt⟩ 0 * 256 ≤ (i 0 : Nat)
      ∧ (i 0 : Nat) < win0_6.index ⟨2 * ((i 0 : Nat) / 256) + 1, hlt⟩ 0 * 256 + 256
    rw [e0]; dsimp only; omega
  | ⟨1, _⟩ =>
    show win0_6.index ⟨2 * ((i 0 : Nat) / 256) + 1, hlt⟩ 1 * 256 ≤ (i 1 : Nat)
      ∧ (i 1 : Nat) < win0_6.index ⟨2 * ((i 0 : Nat) / 256) + 1, hlt⟩ 1 * 256 + 256
    rw [e1]; omega

include hfeat hpid hb1 hb2 hq in
/-- So the result array ends holding the specification, for any such proof data. -/
theorem final0_of (dat : Dat τ (Elt Ideal) Unit ℕ (UR sig nD τ) ℕ cfg0 c) (hafter : ∀ t, dat.after 6 t = outAt0 V c t) :
    dat.arrAt 6 cfg0.N = Cert.Spec.sampled0 feat pid (V c main_arg6) b1 (V c main_arg8) b2 :=
  dat.arrAt_eq_of_cover 6 (Cert.Spec.sampled0 feat pid (V c main_arg6) b1 (V c main_arg8) b2)
    (flushed_eq_of V c feat pid b1 b2 hfeat hpid hb1 hb2 hq dat hafter) (cover0 c)

end Final

/-! ## The proof data of call 0 -/

/-- THE RESULT ARRAY of kernel call 0, after the pipeline's write-backs, is the specification of scale 0. -/
theorem final0 (V : (c : Dev nD) → (b : Ref sig .tc) → Buf (Elt Ideal) ((c : Thread nD τ).loc b)) (c : Dev nD)
    (feat : (⟨4, ![8, 128, 128, 128]⟩ : Shape).Idx → EReal) (pid : (⟨1, ![256]⟩ : Shape).Idx → BitVec 32)
    (b1 b2 : (⟨1, ![256]⟩ : Shape).Idx → EReal)
    (hfeat : ∀ (b : Fin 8) (ch : Fin 128) (s : Fin 16384), V c main_v0 (ix3 b ch s)
      = feat (ix4 b ch ⟨s.val / 128, by have := s.isLt; omega⟩ ⟨s.val % 128, Nat.mod_lt _ (by decide)⟩))
    (hpid : ∀ p : Fin 256, V c main_v1 (ix2 0 p) = pid (ix1 p))
    (hb1 : ∀ k : Fin 256, V c main_v2 (ix2 0 k) = b1 (ix1 k)) (hb2 : ∀ k : Fin 256, V c main_v3 (ix2 0 k) = b2 (ix1 k))
    (hq : ∀ p : Fin 256, 0 ≤ (pid (ix1 p)).toInt ∧ (pid (ix1 p)).toInt < 16384) :
    (dat0 V c).arrAt 6 cfg0.N = Cert.Spec.sampled0 feat pid (V c main_arg6) b1 (V c main_arg8) b2 :=
  final0_of V c feat pid b1 b2 hfeat hpid hb1 hb2 hq (dat0 V c) (after0_6 V c)

end Cert.KernelIdeal.KValue

end
-- ==== Proof.KValue1.lean ====
/-
  Call 1 (scale 1: 256 channels over 64 × 64 positions), kernel side: the result array its pipeline leaves is the
  specification.

  Point `t` of the grid is batch `t`. Its feature block is batch `t` of the features read as `[8, 256, 4096]`; its
  position, weight and bias blocks are the whole arrays. What the body leaves in the output block at `(p, j)` is the
  perceptron head of the feature column of batch `t` at position `pid p`, which is entry `(256·t + p, j)` of the
  specification; the output block of point `t` is rows `256·t … 256·t + 255` of the result array, every point writes
  its block back, and row `r` lies in the block of point `r / 256`: so the array ends holding the specification.
-/
import proofs.«402699_j35115652612732_3_alg».proof.Proof.FrameKI.R1Dat
import proofs.«402699_j35115652612732_3_alg».proof.Proof.PayIdx
import proofs.«402699_j35115652612732_3_alg».proof.Proof.Spec
import Idealize.ShloMosaic.Lib.Pipeline.Value
import Idealize.ShloMosaic.Lib.ValueIdx

noncomputable section

namespace Cert.KernelIdeal.KValue

open Idealize.ShloMosaic Idealize.ShloMosaic.TcCoe Idealize.ShloMosaic.ValueIdx
open Idealize.SL Idealize.SL.RA Idealize.SL.Sem
open Idealize.ShloMosaic.Rounds
open Idealize.ShloMosaic.Pipeline (Dat)
open Cert.KernelIdeal Cert.KernelIdeal.Gen Cert.KernelIdeal.Fr

/-- Where the grid's point `t` sits: batch `t`, position block 0; and the block indices of the seven windows there. -/
theorem point1_facts : ∀ t : Fin cfg1.N, (grid1.coords t 1).val = 0
    ∧ win1_0.index t (0 : Fin 2) = 0 ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section
variable (V : (c : Dev nD) → (b : Ref sig .tc) → Buf (Elt Ideal) ((c : Thread nD τ).loc b))

/-- The feature block of point `t` is batch `t` of the feature array. -/
theorem blk1_feat (c : Dev nD) (t : Fin cfg1.N) (ch : Fin 256) (s : Fin 4096) (b : Fin 8) (hb : b.val = t.val) :
    (iblk1 V c 1 t : Vec Ideal S1x256x4096 .f32) (ix3 0 ch s) = (V c main_v5 : S8x256x4096.Idx → EReal) (ix3 b ch s) := by
  obtain ⟨-, -, -, ea, eb, ec, -⟩ := point1_facts t
  unfold iblk1
  rw [View.read_apply]
  show V c main_v5 _ = V c main_v5 _
  congr 1
  funext a
  apply Fin.ext
  match a with
  | ⟨0, _⟩ => show win1_1.index t (0 : Fin 3) * 1 + 1 * 0 = b.val; rw [ea, hb]; omega
  | ⟨1, _⟩ => show win1_1.index t (1 : Fin 3) * 256 + 1 * ch.val = ch.val; rw [eb]; omega
  | ⟨2, _⟩ => show win1_1.index t (2 : Fin 3) * 4096 + 1 * s.val = s.val; rw [ec]; omega
end

section
variable (V : (c : Dev nD) → (b : Ref sig .tc) → Buf (Elt Ideal) ((c : Thread nD τ).loc b))

/-- The position block of every point is the whole one-row position array. -/
theorem blk1_pid (c : Dev nD) (t : Fin cfg1.N) (p : Fin 256) :
    (iblk1 V c 0 t : Vec Ideal S1x256 .i32) (ix2 0 p) = (V c main_v6 : S1x256.Idx → BitVec 32) (ix2 0 p) := by
  obtain ⟨-, ea, eb, -⟩ := point1_facts t
  unfold iblk1
  rw [View.read_apply]
  show V c main_v6 _ = V c main_v6 _
  congr 1
  funext a
  apply Fin.ext
  match a with
  | ⟨0, _⟩ => show win1_0.index t (0 : Fin 2) * 1 + 1 * 0 = 0; rw [ea]
  | ⟨1, _⟩ => show win1_0.index t (1 : Fin 2) * 256 + 1 * p.val = p.val; rw [eb]; omega

/-- The first layer's weight block of every point is the whole weight array. -/
theorem blk1_wa (c : Dev nD) (t : Fin cfg1.N) :
    (iblk1 V c 2 t : Vec Ideal S256x256 .f32) = (V c main_arg10 : S256x256.Idx → EReal) := by
  obtain ⟨-, -, -, -, -, -, ea, eb, -⟩ := point1_facts t
  funext y
  unfold iblk1
  rw [View.read_apply]
  show V c main_arg10 _ = V c main_arg10 _
  congr 1
  funext a
  apply Fin.ext
  match a with
  | ⟨0, _⟩ => show win1_2.index t (0 : Fin 2) * 256 + 1 * (y 0).val = (y 0).val; rw [ea]; omega
  | ⟨1, _⟩ => show win1_2.index t (1 : Fin 2) * 256 + 1 * (y 1).val = (y 1).val; rw [eb]; omega

/-- The first layer's bias block of every point is the whole one-row bias array. -/
theorem blk1_ba (c : Dev nD) (t : Fin cfg1.N) (k : Fin 256) :
    (iblk1 V c 3 t : Vec Ideal S1x256 .f32) (ix2 0 k) = (V c main_v7 : S1x256.Idx → EReal) (ix2 0 k) := by
  obtain ⟨-, -, -, -, -, -, -, -, ea, eb, -⟩ := point1_facts t
  unfold iblk1
  rw [View.read_apply]
  show V c main_v7 _ = V c main_v7 _
  congr 1
  funext a
  apply Fin.ext
  match a with
  | ⟨0, _⟩ => show win1_3.index t (0 : Fin 2) * 1 + 1 * 0 = 0; rw [ea]
  | ⟨1, _⟩ => show win1_3.index t (1 : Fin 2) * 256 + 1 * k.val = k.val; rw [eb]; omega

/-- The second layer's weight block of every point is the whole weight array. -/
theorem blk1_wb (c : Dev nD) (t : Fin cfg1.N) :
    (iblk1 V c 4 t : Vec Ideal S256x256 .f32) = (V c main_arg12 : S256x256.Idx → EReal) := by
  obtain ⟨-, -, -, -, -, -, -, -, -, -, ea, eb, -⟩ := point1_facts t
  funext y
  unfold iblk1
  rw [View.read_apply]
  show V c main_arg12 _ = V c main_arg12 _
  congr 1
  funext a
  apply Fin.ext
  match a with
  | ⟨0, _⟩ => show win1_4.index t (0 : Fin 2) * 256 + 1 * (y 0).val = (y 0).val; rw [ea]; omega
  | ⟨1, _⟩ => show win1_4.index t (1 : Fin 2) * 256 + 1 * (y 1).val = (y 1).val; rw [eb]; omega

/-- The second layer's bias block of every point is the whole one-row bias array. -/
theorem blk1_bb (c : Dev nD) (t : Fin cfg1.N) (k : Fin 256) :
    (iblk1 V c 5 t : Vec Ideal S1x256 .f32) (ix2 0 k) = (V c main_v8 : S1x256.Idx → EReal) (ix2 0 k) := by
  obtain ⟨-, -, -, -, -, -, -, -, -, -, -, -, ea, eb, -⟩ := point1_facts t
  unfold iblk1
  rw [View.read_apply]
  show V c main_v8 _ = V c main_v8 _
  congr 1
  funext a
  apply Fin.ext
  match a with
  | ⟨0, _⟩ => show win1_5.index t (0 : Fin 2) * 1 + 1 * 0 = 0; rw [ea]
  | ⟨1, _⟩ => show win1_5.index t (1 : Fin 2) * 256 + 1 * k.val = k.val; rw [eb]; omega
end

/-! ## One point's output block is a block of rows of the specification -/

/-- Row `256·b + p` of the specification is the perceptron head of the column of batch `b` at patch `p`. -/
theorem row1_sampled (feat : (⟨4, ![8, 256, 64, 64]⟩ : Shape).Idx → EReal) (pid : (⟨1, ![256]⟩ : Shape).Idx → BitVec 32)
    (wA : (⟨2, ![256, 256]⟩ : Shape).Idx → EReal) (bA : (⟨1, ![256]⟩ : Shape).Idx → EReal)
    (wB : (⟨2, ![256, 256]⟩ : Shape).Idx → EReal) (bB : (⟨1, ![256]⟩ : Shape).Idx → EReal)
    (b : Fin 8) (p j : Fin 256) (r : Fin 2048) (hr : r.val = 256 * b.val + p.val) :
    Cert.Spec.sampled12 feat pid wA bA wB bB (ix2 r j)
      = Cert.Spec.head (Cert.Spec.column (C := 256) (H := 64) (W := 64) (by decide) feat pid b p)
          (fun c k => wA (ix2 c k)) (fun k => bA (ix1 k)) (fun k j => wB (ix2 k j)) (fun j => bB (ix1 j)) j := by
  have hb : (⟨r.val / 256, by have := r.isLt; omega⟩ : Fin 8) = b :=
    Fin.ext (by show r.val / 256 = b.val; have := p.isLt; omega)
  have hp : (⟨r.val % 256, Nat.mod_lt _ (by decide)⟩ : Fin 256) = p :=
    Fin.ext (by show r.val % 256 = p.val; have := p.isLt; omega)
  show Cert.Spec.head (Cert.Spec.column (C := 256) (H := 64) (W := 64) (by decide) feat pid ⟨r.val / 256, by have := r.isLt; omega⟩
      ⟨r.val % 256, Nat.mod_lt _ (by decide)⟩) _ _ _ _ j = _
  rw [hb, hp]

/-- What one point leaves in its output block, over the blocks it loaded: when the feature block is batch `b` of the
    features, and the position and bias rows are the position and bias vectors, entry `(p, j)` is entry
    `(256·b + p, j)` of the specification. -/
theorem entry1_out (i : grid1.Coords) (hi : (i 1).val = 0)
    (x : Vec Ideal S1x256x4096 .f32) (q : Vec Ideal S1x256 .i32) (wA : Vec Ideal S256x256 .f32) (bAv : Vec Ideal S1x256 .f32)
    (wB : Vec Ideal S256x256 .f32) (bBv : Vec Ideal S1x256 .f32)
    (feat : (⟨4, ![8, 256, 64, 64]⟩ : Shape).Idx → EReal) (pid : (⟨1, ![256]⟩ : Shape).Idx → BitVec 32)
    (bA bB : (⟨1, ![256]⟩ : Shape).Idx → EReal) (b : Fin 8)
    (hx : ∀ (ch : Fin 256) (s : Fin 4096), x (ix3 0 ch s) = feat (ix4 b ch ⟨s.val / 64, by omega⟩ ⟨s.val % 64, Nat.mod_lt _ (by decide)⟩))
    (hqv : ∀ p : Fin 256, q (ix2 0 p) = pid (ix1 p))
    (hbA : ∀ k : Fin 256, bAv (ix2 0 k) = bA (ix1 k)) (hbB : ∀ k : Fin 256, bBv (ix2 0 k) = bB (ix1 k))
    (hq : ∀ p : Fin 256, 0 ≤ (pid (ix1 p)).toInt ∧ (pid (ix1 p)).toInt < 4096)
    (p j : Fin 256) (r : Fin 2048) (hr : r.val = 256 * b.val + p.val) :
    k1_pay3 (k1_pay2 i x q (k1_pay1 (F := Ideal))) wA bAv wB bBv (ix2 p j)
      = Cert.Spec.sampled12 feat pid wA bA wB bB (ix2 r j) := by
  rw [row1_sampled feat pid wA bA wB bB b p j r hr]
  refine (PayIdx.head_1 _ wA bAv wB bBv p j).trans ?_
  have hpick : (fun ch : Fin 256 => k1_pay2 i x q (k1_pay1 (F := Ideal)) (ix2 ch p))
      = Cert.Spec.column (C := 256) (H := 64) (W := 64) (by decide) feat pid b p := by
    funext ch
    refine (PayIdx.acc_1 i hi x q (fun p' => by rw [hqv p']; exact hq p') ch p).trans ?_
    exact congrArg₂ (Cert.Spec.pickAt (S := 4096) (by decide)) (funext fun s => hx ch s) (hqv p)
  have eb : (fun k : Fin 256 => bAv (ix2 0 k)) = fun k => bA (ix1 k) := funext hbA
  have ec : (fun k : Fin 256 => bBv (ix2 0 k)) = fun k => bB (ix1 k) := funext hbB
  rw [hpick, eb, ec]

/-! ## From the blocks to the array -/

section
variable (V : (c : Dev nD) → (b : Ref sig .tc) → Buf (Elt Ideal) ((c : Thread nD τ).loc b))

/-- What point `t` leaves in its output block is block `t` (rows `256·t … 256·t + 255`) of the specification. -/
theorem flushed1_eq (c : Dev nD) (t : Fin cfg1.N)
    (feat : (⟨4, ![8, 256, 64, 64]⟩ : Shape).Idx → EReal) (pid : (⟨1, ![256]⟩ : Shape).Idx → BitVec 32)
    (bA bB : (⟨1, ![256]⟩ : Shape).Idx → EReal)
    (hfeat : ∀ (b : Fin 8) (ch : Fin 256) (s : Fin 4096), V c main_v5 (ix3 b ch s) = feat (ix4 b ch ⟨s.val / 64, by omega⟩ ⟨s.val % 64, Nat.mod_lt _ (by decide)⟩))
    (hpid : ∀ p : Fin 256, V c main_v6 (ix2 0 p) = pid (ix1 p))
    (hbA : ∀ k : Fin 256, V c main_v7 (ix2 0 k) = bA (ix1 k)) (hbB : ∀ k : Fin 256, V c main_v8 (ix2 0 k) = bB (ix1 k))
    (hq : ∀ p : Fin 256, 0 ≤ (pid (ix1 p)).toInt ∧ (pid (ix1 p)).toInt < 4096) :
    k1_pay3 (k1_pay2 (grid1.coords t) (iblk1 V c 1 t) (iblk1 V c 0 t) (k1_pay1 (F := Ideal))) (iblk1 V c 2 t) (iblk1 V c 3 t) (iblk1 V c 4 t) (iblk1 V c 5 t)
      = ((cfg1.win 6).blk t).view.read (Elt Ideal) (Cert.Spec.sampled12 feat pid (V c main_arg10) bA (V c main_arg12) bB) := by
  obtain ⟨hi, -, -, -, -, -, -, -, -, -, -, -, -, -, ea, eb⟩ := point1_facts t
  have ht : t.val < 8 := lt_of_lt_of_eq t.isLt N_1
  rw [blk1_wa V c t, blk1_wb V c t]
  funext y
  obtain ⟨p, j, rfl⟩ : ∃ p j, y = ix2 p j := ⟨y 0, y 1, eq_ix2 y⟩
  rw [View.read_apply]
  show _ = Cert.Spec.sampled12 feat pid (V c main_arg10) bA (V c main_arg12) bB (((cfg1.win 6).blk t).view.emb (ix2 p j))
  refine (entry1_out (grid1.coords t) hi (iblk1 V c 1 t) (iblk1 V c 0 t) (V c main_arg10) (iblk1 V c 3 t) (V c main_arg12) (iblk1 V c 5 t)
    feat pid bA bB ⟨t.val, ht⟩
    (fun ch s => (blk1_feat V c t ch s ⟨t.val, ht⟩ rfl).trans (hfeat ⟨t.val, ht⟩ ch s))
    (fun p' => (blk1_pid V c t p').trans (hpid p'))
    (fun k => (blk1_ba V c t k).trans (hbA k)) (fun k => (blk1_bb V c t k).trans (hbB k)) hq
    p j ⟨256 * t.val + p.val, by have := p.isLt; omega⟩ rfl).trans ?_
  refine congrArg (Cert.Spec.sampled12 feat pid (V c main_arg10) bA (V c main_arg12) bB) ?_
  funext a
  apply Fin.ext
  match a with
  | ⟨0, _⟩ => show 256 * t.val + p.val = win1_6.index t (0 : Fin 2) * 256 + 1 * p.val; rw [ea]; omega
  | ⟨1, _⟩ => show j.val = win1_6.index t (1 : Fin 2) * 256 + 1 * j.val; rw [eb]; omega

/-- An index of the result array is in point `t`'s block when each coordinate is in the block's range on its axis. -/
theorem mem1_blk (t : Fin cfg1.N) (i : S2048x256.Idx) :
    i ∈ ((cfg1.win 6).blk t).view.set ↔ ∀ a : Fin 2, win1_6.index t a * S256x256.size a ≤ (i a).val
      ∧ (i a).val < win1_6.index t a * S256x256.size a + S256x256.size a := by
  show i ∈ ((View.whole main_v9).slice (win1_6.rect t)).set ↔ _
  rw [View.set_slice_whole, Rect.mem_set_unit]
  exact Iff.rfl

/-- Row `r` of the result array lies in the block of point `r / 256`, which is written back. -/
theorem cover1 (i : S2048x256.Idx) : ∃ t : Fin cfg1.N, (cfg1.win 6).flush t = true ∧ i ∈ ((cfg1.win 6).blk t).view.set := by
  have hrow : (i 0).val < 2048 := (i 0).isLt
  have hlane : (i 1).val < 256 := (i 1).isLt
  obtain ⟨t, ht⟩ : ∃ t : Fin cfg1.N, t.val = (i 0).val / 256 :=
    ⟨⟨(i 0).val / 256, by rw [show cfg1.N = 8 from N_1]; omega⟩, rfl⟩
  obtain ⟨-, -, -, -, -, -, -, -, -, -, -, -, -, -, ea, eb⟩ := point1_facts t
  refine ⟨t, flush1_6 t, ?_⟩
  rw [mem1_blk]
  intro a
  match a with
  | ⟨0, _⟩ =>
    show win1_6.index t (0 : Fin 2) * 256 ≤ (i 0).val ∧ (i 0).val < win1_6.index t (0 : Fin 2) * 256 + 256
    rw [ea, ht]; omega
  | ⟨1, _⟩ =>
    show win1_6.index t (1 : Fin 2) * 256 ≤ (i 1).val ∧ (i 1).val < win1_6.index t (1 : Fin 2) * 256 + 256
    rw [eb]; omega

/-- The result array after the pipeline's run, for any proof data whose output buffer after point `t` is the body's
    last payload over the point's blocks: the specification. -/
theorem final1_of (c : Dev nD) (dat : Dat τ (Elt Ideal) Unit ℕ (UR sig nD τ) ℕ cfg1 c)
    (hafter : ∀ t, dat.after 6 t = k1_pay3 (k1_pay2 (grid1.coords t) (iblk1 V c 1 t) (iblk1 V c 0 t) (k1_pay1 (F := Ideal))) (iblk1 V c 2 t) (iblk1 V c 3 t) (iblk1 V c 4 t) (iblk1 V c 5 t))
    (feat : (⟨4, ![8, 256, 64, 64]⟩ : Shape).Idx → EReal) (pid : (⟨1, ![256]⟩ : Shape).Idx → BitVec 32)
    (bA bB : (⟨1, ![256]⟩ : Shape).Idx → EReal)
    (hfeat : ∀ (b : Fin 8) (ch : Fin 256) (s : Fin 4096), V c main_v5 (ix3 b ch s) = feat (ix4 b ch ⟨s.val / 64, by omega⟩ ⟨s.val % 64, Nat.mod_lt _ (by decide)⟩))
    (hpid : ∀ p : Fin 256, V c main_v6 (ix2 0 p) = pid (ix1 p))
    (hbA : ∀ k : Fin 256, V c main_v7 (ix2 0 k) = bA (ix1 k)) (hbB : ∀ k : Fin 256, V c main_v8 (ix2 0 k) = bB (ix1 k))
    (hq : ∀ p : Fin 256, 0 ≤ (pid (ix1 p)).toInt ∧ (pid (ix1 p)).toInt < 4096) :
    dat.arrAt 6 cfg1.N = Cert.Spec.sampled12 feat pid (V c main_arg10) bA (V c main_arg12) bB :=
  dat.arrAt_eq_of_cover 6 (Cert.Spec.sampled12 feat pid (V c main_arg10) bA (V c main_arg12) bB)
    (fun t _ => by
      show (cfg1.win 6).cut (grid1.coords t) (dat.after 6 t) = _
      rw [hafter]
      exact flushed1_eq V c t feat pid bA bB hfeat hpid hbA hbB hq)
    cover1
end

section
variable (V : (c : Dev nD) → (b : Ref sig .tc) → Buf (Elt Ideal) ((c : Thread nD τ).loc b))

/-- THE RESULT ARRAY of call 1 after its pipeline's run, over the contents the region finds: the specification of scale 1
    over the features, positions, weights and biases those contents hold. -/
theorem final1 (c : Dev nD)
    (feat : (⟨4, ![8, 256, 64, 64]⟩ : Shape).Idx → EReal) (pid : (⟨1, ![256]⟩ : Shape).Idx → BitVec 32)
    (b1 b2 : (⟨1, ![256]⟩ : Shape).Idx → EReal)
    (hfeat : ∀ (b : Fin 8) (ch : Fin 256) (s : Fin 4096), V c main_v5 (ix3 b ch s) = feat (ix4 b ch ⟨s.val / 64, by omega⟩ ⟨s.val % 64, Nat.mod_lt _ (by decide)⟩))
    (hpid : ∀ p : Fin 256, V c main_v6 (ix2 0 p) = pid (ix1 p))
    (hb1 : ∀ k : Fin 256, V c main_v7 (ix2 0 k) = b1 (ix1 k)) (hb2 : ∀ k : Fin 256, V c main_v8 (ix2 0 k) = b2 (ix1 k))
    (hq : ∀ p : Fin 256, 0 ≤ (pid (ix1 p)).toInt ∧ (pid (ix1 p)).toInt < 4096) :
    (dat1 V c).arrAt 6 cfg1.N = Cert.Spec.sampled12 feat pid (V c main_arg10) b1 (V c main_arg12) b2 :=
  final1_of V c (dat1 V c) (fun t => after1_6 V c t) feat pid b1 b2 hfeat hpid hb1 hb2 hq
end

end Cert.KernelIdeal.KValue

end
-- ==== Proof.KSpec.lean ====
/-
  The kernel program's run ends with the specification.

  The run leaves each result array at what its call's pipeline leaves from the contents the call is entered from, and every
  argument as launched. A call is entered from the reshapes, by the host stretch before it, of buffers that nothing earlier
  has written: the flattened feature map reads the map at `(s / W, s % W)`, a row reads its vector. So each call's value
  theorem applies with the arguments' launch contents, and the three results are the specification's values of them.
-/
import proofs.«402699_j35115652612732_3_alg».proof.Proof.Spec
import proofs.«402699_j35115652612732_3_alg».proof.Proof.HostRead
import proofs.«402699_j35115652612732_3_alg».proof.Proof.FrameKI.Run
import proofs.«402699_j35115652612732_3_alg».proof.Proof.KValue0
import proofs.«402699_j35115652612732_3_alg».proof.Proof.KValue1
import proofs.«402699_j35115652612732_3_alg».proof.Proof.KValue2

noncomputable section

namespace Cert.KernelIdeal.KSpec

open Idealize.ShloMosaic Idealize.ShloMosaic.ValueIdx Idealize.ShloMosaic.TcCoe Idealize.SL.Sem Cert.KernelIdeal Cert.KernelIdeal.Gen Cert.KernelIdeal.Fr

variable (m : (ℓ : Loc nD τ sig) → Buf (Elt Ideal) ℓ) (ρ : Dev nD → PrngReg)

/-! ## An argument at each call's entry is the argument as launched

No host stretch writes an argument and no call outputs into one, so at every boundary an argument's buffer holds what the
launch memory holds. -/

theorem V1_arg (c : Dev nD) (b : Ref sig .tc) (h0 : b ∉ (hostOps0_W : List (Ref sig .tc))) :
    V1 m ρ c b = m ((c.tc : Thread nD τ).loc b) :=
  (W1_keep m ρ c b h0).trans rfl
theorem W2_arg (c : Dev nD) (b : Ref sig .tc) (h0 : b ∉ (hostOps0_W : List (Ref sig .tc))) (o0 : b ≠ Pipeline.arrRef spec0 6) :
    W2 m ρ c (Proc.devRef .tc b) = m ((c.tc : Thread nD τ).loc b) :=
  (W2_keep m ρ c b o0).trans (V1_arg m ρ c b h0)
theorem V3_arg (c : Dev nD) (b : Ref sig .tc) (h0 : b ∉ (hostOps0_W : List (Ref sig .tc))) (o0 : b ≠ Pipeline.arrRef spec0 6)
    (h1 : b ∉ (hostOps1_W : List (Ref sig .tc))) : V3 m ρ c b = m ((c.tc : Thread nD τ).loc b) :=
  (W3_keep m ρ c b h1).trans (W2_arg m ρ c b h0 o0)
theorem W4_arg (c : Dev nD) (b : Ref sig .tc) (h0 : b ∉ (hostOps0_W : List (Ref sig .tc))) (o0 : b ≠ Pipeline.arrRef spec0 6)
    (h1 : b ∉ (hostOps1_W : List (Ref sig .tc))) (o1 : b ≠ Pipeline.arrRef spec1 6) :
    W4 m ρ c (Proc.devRef .tc b) = m ((c.tc : Thread nD τ).loc b) :=
  (W4_keep m ρ c b o1).trans (V3_arg m ρ c b h0 o0 h1)
theorem V5_arg (c : Dev nD) (b : Ref sig .tc) (h0 : b ∉ (hostOps0_W : List (Ref sig .tc))) (o0 : b ≠ Pipeline.arrRef spec0 6)
    (h1 : b ∉ (hostOps1_W : List (Ref sig .tc))) (o1 : b ≠ Pipeline.arrRef spec1 6)
    (h2 : b ∉ (hostOps2_W : List (Ref sig .tc))) : V5 m ρ c b = m ((c.tc : Thread nD τ).loc b) :=
  (W5_keep m ρ c b h2).trans (W4_arg m ρ c b h0 o0 h1 o1)

/-! ## Each call's result array is the specification's value of the launch contents -/

/-- Call 0: entered from the first stretch's reshapes of the arguments as launched. -/
theorem out0 (c : Dev nD) (h3 : ∀ p : Fin 256, 0 ≤ ((m ((c.tc : Thread nD τ).loc main_arg3)) (ix1 p)).toInt ∧ ((m ((c.tc : Thread nD τ).loc main_arg3)) (ix1 p)).toInt < 16384) :
    (dat0 (V1 m ρ) c).arrAt 6 cfg0.N
      = Cert.Spec.sampled0 (m ((c.tc : Thread nD τ).loc main_arg0)) (m ((c.tc : Thread nD τ).loc main_arg3))
              (m ((c.tc : Thread nD τ).loc main_arg6)) (m ((c.tc : Thread nD τ).loc main_arg7))
              (m ((c.tc : Thread nD τ).loc main_arg8)) (m ((c.tc : Thread nD τ).loc main_arg9)) :=
  (KValue.final0 (V1 m ρ) c (m ((c.tc : Thread nD τ).loc main_arg0)) (m ((c.tc : Thread nD τ).loc main_arg3)) (m ((c.tc : Thread nD τ).loc main_arg7)) (m ((c.tc : Thread nD τ).loc main_arg9))
      (fun b ch s => HostRead.feat0 (W0 m ρ c) b ch s) (fun p => HostRead.pid0 (W0 m ρ c) p)
      (fun k => HostRead.bias1_0 (W0 m ρ c) k) (fun k => HostRead.bias2_0 (W0 m ρ c) k) h3).trans
    (congrArg₂ (fun w1 w2 => Cert.Spec.sampled0 (m ((c.tc : Thread nD τ).loc main_arg0)) (m ((c.tc : Thread nD τ).loc main_arg3)) w1 (m ((c.tc : Thread nD τ).loc main_arg7)) w2 (m ((c.tc : Thread nD τ).loc main_arg9)))
      (V1_arg m ρ c main_arg6 (by decide)) (V1_arg m ρ c main_arg8 (by decide)))

/-- Call 1: entered from the second stretch's reshapes of buffers that call 0 and the first stretch left as launched. -/
theorem out1 (c : Dev nD) (h4 : ∀ p : Fin 256, 0 ≤ ((m ((c.tc : Thread nD τ).loc main_arg4)) (ix1 p)).toInt ∧ ((m ((c.tc : Thread nD τ).loc main_arg4)) (ix1 p)).toInt < 4096) :
    (dat1 (V3 m ρ) c).arrAt 6 cfg1.N
      = Cert.Spec.sampled12 (m ((c.tc : Thread nD τ).loc main_arg1)) (m ((c.tc : Thread nD τ).loc main_arg4))
              (m ((c.tc : Thread nD τ).loc main_arg10)) (m ((c.tc : Thread nD τ).loc main_arg11))
              (m ((c.tc : Thread nD τ).loc main_arg12)) (m ((c.tc : Thread nD τ).loc main_arg13)) :=
  (KValue.final1 (V3 m ρ) c (m ((c.tc : Thread nD τ).loc main_arg1)) (m ((c.tc : Thread nD τ).loc main_arg4)) (m ((c.tc : Thread nD τ).loc main_arg11)) (m ((c.tc : Thread nD τ).loc main_arg13))
      (fun b ch s => (HostRead.feat1 (W2 m ρ c) b ch s).trans (congrFun (W2_arg m ρ c main_arg1 (by decide) (by decide)) _))
      (fun p => (HostRead.pid1 (W2 m ρ c) p).trans (congrFun (W2_arg m ρ c main_arg4 (by decide) (by decide)) _))
      (fun k => (HostRead.bias1_1 (W2 m ρ c) k).trans (congrFun (W2_arg m ρ c main_arg11 (by decide) (by decide)) _))
      (fun k => (HostRead.bias2_1 (W2 m ρ c) k).trans (congrFun (W2_arg m ρ c main_arg13 (by decide) (by decide)) _)) h4).trans
    (congrArg₂ (fun w1 w2 => Cert.Spec.sampled12 (m ((c.tc : Thread nD τ).loc main_arg1)) (m ((c.tc : Thread nD τ).loc main_arg4)) w1 (m ((c.tc : Thread nD τ).loc main_arg11)) w2 (m ((c.tc : Thread nD τ).loc main_arg13)))
      (V3_arg m ρ c main_arg10 (by decide) (by decide) (by decide)) (V3_arg m ρ c main_arg12 (by decide) (by decide) (by decide)))

/-- Call 2: entered from the third stretch's reshapes of buffers that the two calls and two stretches before left as launched. -/
theorem out2 (c : Dev nD) (h5 : ∀ p : Fin 256, 0 ≤ ((m ((c.tc : Thread nD τ).loc main_arg5)) (ix1 p)).toInt ∧ ((m ((c.tc : Thread nD τ).loc main_arg5)) (ix1 p)).toInt < 4096) :
    (dat2 (V5 m ρ) c).arrAt 6 cfg2.N
      = Cert.Spec.sampled12 (m ((c.tc : Thread nD τ).loc main_arg2)) (m ((c.tc : Thread nD τ).loc main_arg5))
              (m ((c.tc : Thread nD τ).loc main_arg14)) (m ((c.tc : Thread nD τ).loc main_arg15))
              (m ((c.tc : Thread nD τ).loc main_arg16)) (m ((c.tc : Thread nD τ).loc main_arg17)) :=
  (KValue.final2 (V5 m ρ) c (m ((c.tc : Thread nD τ).loc main_arg2)) (m ((c.tc : Thread nD τ).loc main_arg5)) (m ((c.tc : Thread nD τ).loc main_arg15)) (m ((c.tc : Thread nD τ).loc main_arg17))
      (fun b ch s => (HostRead.feat2 (W4 m ρ c) b ch s).trans (congrFun (W4_arg m ρ c main_arg2 (by decide) (by decide) (by decide) (by decide)) _))
      (fun p => (HostRead.pid2 (W4 m ρ c) p).trans (congrFun (W4_arg m ρ c main_arg5 (by decide) (by decide) (by decide) (by decide)) _))
      (fun k => (HostRead.bias1_2 (W4 m ρ c) k).trans (congrFun (W4_arg m ρ c main_arg15 (by decide) (by decide) (by decide) (by decide)) _))
      (fun k => (HostRead.bias2_2 (W4 m ρ c) k).trans (congrFun (W4_arg m ρ c main_arg17 (by decide) (by decide) (by decide) (by decide)) _)) h5).trans
    (congrArg₂ (fun w1 w2 => Cert.Spec.sampled12 (m ((c.tc : Thread nD τ).loc main_arg2)) (m ((c.tc : Thread nD τ).loc main_arg5)) w1 (m ((c.tc : Thread nD τ).loc main_arg15)) w2 (m ((c.tc : Thread nD τ).loc main_arg17)))
      (V5_arg m ρ c main_arg14 (by decide) (by decide) (by decide) (by decide) (by decide)) (V5_arg m ρ c main_arg16 (by decide) (by decide) (by decide) (by decide) (by decide)))

/-! ## The run -/

/-- Every weakly fair execution of the kernel program ends with its three results at the specification's values of the
    arguments' launch contents, the arguments unchanged — when every patch position lies inside its feature map. -/
theorem run_spec (h3 : ∀ (c : Dev nD) (p : Fin 256), 0 ≤ ((m ((c.tc : Thread nD τ).loc main_arg3)) (ix1 p)).toInt
      ∧ ((m ((c.tc : Thread nD τ).loc main_arg3)) (ix1 p)).toInt < 16384)
    (h4 : ∀ (c : Dev nD) (p : Fin 256), 0 ≤ ((m ((c.tc : Thread nD τ).loc main_arg4)) (ix1 p)).toInt
      ∧ ((m ((c.tc : Thread nD τ).loc main_arg4)) (ix1 p)).toInt < 4096)
    (h5 : ∀ (c : Dev nD) (p : Fin 256), 0 ≤ ((m ((c.tc : Thread nD τ).loc main_arg5)) (ix1 p)).toInt
      ∧ ((m ((c.tc : Thread nD τ).loc main_arg5)) (ix1 p)).toInt < 4096) :
    θ_run (defs (F := Ideal)) (onTc (τ := τ) (main (F := Ideal))) ⟨m, fun _ => 0, ρ⟩ (fun r => ∀ c : Dev nD,
      r.2.mem ((c.tc : Thread nD τ).loc main_v4)
          = Cert.Spec.sampled0 (m ((c.tc : Thread nD τ).loc main_arg0)) (m ((c.tc : Thread nD τ).loc main_arg3))
              (m ((c.tc : Thread nD τ).loc main_arg6)) (m ((c.tc : Thread nD τ).loc main_arg7))
              (m ((c.tc : Thread nD τ).loc main_arg8)) (m ((c.tc : Thread nD τ).loc main_arg9))
      ∧ r.2.mem ((c.tc : Thread nD τ).loc main_v9)
          = Cert.Spec.sampled12 (m ((c.tc : Thread nD τ).loc main_arg1)) (m ((c.tc : Thread nD τ).loc main_arg4))
              (m ((c.tc : Thread nD τ).loc main_arg10)) (m ((c.tc : Thread nD τ).loc main_arg11))
              (m ((c.tc : Thread nD τ).loc main_arg12)) (m ((c.tc : Thread nD τ).loc main_arg13))
      ∧ r.2.mem ((c.tc : Thread nD τ).loc main_v14)
          = Cert.Spec.sampled12 (m ((c.tc : Thread nD τ).loc main_arg2)) (m ((c.tc : Thread nD τ).loc main_arg5))
              (m ((c.tc : Thread nD τ).loc main_arg14)) (m ((c.tc : Thread nD τ).loc main_arg15))
              (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run (defs (F := Ideal)) _ _).mono (fun r h c =>
      ⟨(h c).1.trans (out0 m ρ c (h3 c)), (h c).2.1.trans (out1 m ρ c (h4 c)), (h c).2.2.1.trans (out2 m ρ c (h5 c)), (h c).2.2.2⟩)
    (results m ρ)

end Cert.KernelIdeal.KSpec

end
-- ==== Proof.RefValue.lean ====
/-
  The reference program's results are the specification.

  Each of the three results of the reference is, index by index, `Cert.Spec.head` of the sampled column: the gather of
  the transposed and flattened features reads `feat[b, c, s / W, s % W]` at the position `s` patch `p` names (read
  signed, held inside `[0, S − 1]`; a position that is not negative is not shifted by the select before it), the two
  contractions are the two layers' sums, the reduction's initial zero adds nothing, and the square root, the added
  constant and the division are the norm's.
-/
import proofs.«402699_j35115652612732_3_alg».proof.Proof.Spec
import proofs.«402699_j35115652612732_3_alg».proof.Proof.Gen.ReferenceIdeal.Read

noncomputable section

open scoped BigOperators

namespace Cert.ReferenceIdeal.RefValue

open Idealize.ShloMosaic Idealize.ShloMosaic.ValueIdx Idealize.SL.Sem Cert.ReferenceIdeal
open Cert.ReferenceIdeal.Gen Cert.ReferenceIdeal.Read

section Gather
variable {α : Type}

/-- The dimension numbers of a gather that picks, for every batch and channel, one position of the middle axis:
    operand `[8, S, C]`, start indices `[256, 1]`, result `[8, 256, C]`. -/
abbrev colDims (S C : Nat)
    (wf : GatherDims.WF ⟨3, ![8, S, C]⟩ ⟨2, ![256, 1]⟩ ⟨3, ![8, 256, C]⟩ [0, 2] [1] [] [1] [] 1 ![8, 1, C]) :
    GatherDims ⟨3, ![8, S, C]⟩ ⟨2, ![256, 1]⟩ ⟨3, ![8, 256, C]⟩ where
  offsetDims := [0, 2]
  collapsedSliceDims := [1]
  operandBatchingDims := []
  startIndicesBatchingDims := []
  startIndexMap := [1]
  indexVectorDim := 1
  sliceSizes := ![8, 1, C]
  wf := wf

variable {S C w : Nat}
  (wf : GatherDims.WF ⟨3, ![8, S, C]⟩ ⟨2, ![256, 1]⟩ ⟨3, ![8, 256, C]⟩ [0, 2] [1] [] [1] [] 1 ![8, 1, C])

private theorem sim0 : (0 : Fin 3) ∉ (colDims S C wf).startIndexMap := by
  show (0 : Fin 3) ∉ ([1] : List (Fin 3)); decide
private theorem sim2 : (2 : Fin 3) ∉ (colDims S C wf).startIndexMap := by
  show (2 : Fin 3) ∉ ([1] : List (Fin 3)); decide
private theorem kept0 : (0 : Fin 3) ∈ (colDims S C wf).sKept :=
  (GatherDims.mem_sKept _ _).mpr ⟨by show (0 : Fin 3) ∉ ([1] : List (Fin 3)); decide, List.not_mem_nil⟩
private theorem kept2 : (2 : Fin 3) ∈ (colDims S C wf).sKept :=
  (GatherDims.mem_sKept _ _).mpr ⟨by show (2 : Fin 3) ∉ ([1] : List (Fin 3)); decide, List.not_mem_nil⟩

/-- Axis 0 of the operand index is the result's batch coordinate. -/
theorem colDims_operand0 (idx : IVec ⟨2, ![256, 1]⟩ w) (b : Fin 8) (p : Fin 256) (c : Fin C) :
    ((colDims S C wf).operandIdx (ix3 b p c) idx 0).val = b.val := by
  show (colDims S C wf).start (ix3 b p c) idx 0 + (colDims S C wf).batchCoord (ix3 b p c) 0
    + (colDims S C wf).offCoord (ix3 b p c) 0 = _
  rw [GatherDims.batchCoord_eq_zero _ _ _ List.not_mem_nil, Nat.add_zero]
  unfold GatherDims.start GatherDims.offCoord
  rw [dif_neg (sim0 wf), dif_pos (kept0 wf), Nat.zero_add]
  rfl

/-- Axis 2 of the operand index is the result's channel coordinate. -/
theorem colDims_operand2 (idx : IVec ⟨2, ![256, 1]⟩ w) (b : Fin 8) (p : Fin 256) (c : Fin C) :
    ((colDims S C wf).operandIdx (ix3 b p c) idx 2).val = c.val := by
  show (colDims S C wf).start (ix3 b p c) idx 2 + (colDims S C wf).batchCoord (ix3 b p c) 2
    + (colDims S C wf).offCoord (ix3 b p c) 2 = _
  rw [GatherDims.batchCoord_eq_zero _ _ _ List.not_mem_nil, Nat.add_zero]
  unfold GatherDims.start GatherDims.offCoord
  rw [dif_neg (sim2 wf), dif_pos (kept2 wf), Nat.zero_add]
  rfl

/-- Axis 1 of the operand index is the start index of patch `p`, read signed and held inside `[0, S − 1]`. -/
theorem colDims_operand1 (idx : IVec ⟨2, ![256, 1]⟩ w) (b : Fin 8) (p : Fin 256) (c : Fin C) :
    ((colDims S C wf).operandIdx (ix3 b p c) idx 1).val = min (idx (ix2 p (0 : Fin 1))).toInt.toNat (S - 1) := by
  show (colDims S C wf).start (ix3 b p c) idx 1 + (colDims S C wf).batchCoord (ix3 b p c) 1
    + (colDims S C wf).offCoord (ix3 b p c) 1 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (1 : Fin 3) ∈ (colDims S C wf).startIndexMap from List.mem_singleton.mpr rfl)]
  have hsi : (colDims S C wf).siIdx (ix3 b p c) ⟨List.idxOf (1 : Fin 3) (colDims S C wf).startIndexMap,
      List.idxOf_lt_length_iff.2 (List.mem_singleton.mpr rfl)⟩ = ix2 p (0 : Fin 1) := by
    funext e; refine Fin.ext ?_
    match e with
    | ⟨0, _⟩ => rfl
    | ⟨1, _⟩ => rfl
  rw [hsi]
  rfl

/-- THE GATHER READ AT `(b, p, c)`: the operand at batch `b`, channel `c` and the position patch `p` names. -/
theorem gather_col_apply (hS : 0 < S)
    (x : (⟨3, ![8, S, C]⟩ : Shape).Idx → α) (idx : IVec ⟨2, ![256, 1]⟩ w) (b : Fin 8) (p : Fin 256) (c : Fin C) :
    Host.gather (colDims S C wf) x idx (ix3 b p c)
      = x (ix3 b ⟨min (idx (ix2 p (0 : Fin 1))).toInt.toNat (S - 1), by omega⟩ c) := by
  unfold Host.gather
  congr 1
  funext a
  refine Fin.ext ?_
  match a with
  | ⟨0, _⟩ => exact colDims_operand0 wf idx b p c
  | ⟨1, _⟩ => exact colDims_operand1 wf idx b p c
  | ⟨2, _⟩ => exact colDims_operand2 wf idx b p c

end Gather

/-! ## Words -/

/-- A position that is not negative is not below zero: the compare's bit is `0`. -/
theorem cmpi_slt_zero (q : BitVec 32) (h : 0 ≤ q.toInt) : IntOp.cmpi .slt q 0#32 = 0#1 := by
  have hq : q.slt 0#32 = false := by
    simp only [BitVec.slt, BitVec.toInt_zero, decide_eq_false_iff_not, not_lt]
    exact h
  simp only [IntOp.cmpi, hq]
  rfl

/-! ## Scale 0: 128 channels over 128 × 128 positions -/

section Scale0
variable (x0 : (⟨S8x128x128x128, .f32⟩ : BufTy).Contents (Elt Ideal)) (x3 : (⟨S256, .i32⟩ : BufTy).Contents (Elt Ideal))
  (x6 : (⟨S128x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))

/-- The start index of patch `p` is its position: the select keeps a position that is not negative. -/
theorem start0 (p : Fin 256) (h : 0 ≤ (x3 (ix1 p)).toInt) :
    val_main_v7 (F := Ideal) x3 (ix2 p (0 : Fin 1)) = x3 (ix1 p) := by
  have hi : idx_main_v7 (ix2 p (0 : Fin 1)) = ix1 p := by
    funext a; match a with | ⟨0, _⟩ => rfl
  rw [val_main_v7_apply, hi, val_main_v6_apply, val_main_v3_apply, val_main_v2_apply, val_main_c_apply,
    cmpi_slt_zero _ h, select_zero]

/-- The transposed and flattened features at `(b, s, c)` are the features at `(b, c, s / 128, s % 128)`. -/
theorem feat0 (b : Fin 8) (s : Fin 16384) (c : Fin 128) :
    val_main_v1 (F := Ideal) x0 (ix3 b s c)
      = x0 (ix4 b c ⟨s.val / 128, by omega⟩ ⟨s.val % 128, by omega⟩) := by
  rw [val_main_v1_apply, val_main_v0_apply]
  refine congrArg x0 (funext fun a => Fin.ext ?_)
  have hb := b.isLt; have hs := s.isLt; have hc := c.isLt
  match a with
  | ⟨0, _⟩ => show ((b.val * 16384 + s.val) * 128 + c.val) / 2097152 = b.val; omega
  | ⟨1, _⟩ => show ((b.val * 16384 + s.val) * 128 + c.val) % 128 = c.val; omega
  | ⟨2, _⟩ => show ((b.val * 16384 + s.val) * 128 + c.val) / 16384 % 128 = s.val / 128; omega
  | ⟨3, _⟩ => show ((b.val * 16384 + s.val) * 128 + c.val) / 128 % 128 = s.val % 128; omega

/-- Row `r` of the gathered columns is the sampled column of batch `r / 256` at patch `r % 256`. -/
theorem column0 (h3 : ∀ p : Fin 256, 0 ≤ (x3 (ix1 p)).toInt) (r : Fin 2048) (c : Fin 128) :
    val_main_v9 (F := Ideal) x0 x3 (ix2 r c) = (Cert.Spec.column (C := 128) (H := 128) (W := 128) (by decide) x0 x3 ⟨r.val / 256, by omega⟩ ⟨r.val % 256, by omega⟩) c := by
  have hr := r.isLt; have hc := c.isLt
  have hi : idx_main_v9 (ix2 r c) = ix3 (⟨r.val / 256, by omega⟩ : Fin 8) (⟨r.val % 256, by omega⟩ : Fin 256) c := by
    funext a; refine Fin.ext ?_
    match a with
    | ⟨0, _⟩ => show (r.val * 128 + c.val) / 32768 = r.val / 256; omega
    | ⟨1, _⟩ => show (r.val * 128 + c.val) / 128 % 256 = r.val % 256; omega
    | ⟨2, _⟩ => show (r.val * 128 + c.val) % 128 = c.val; omega
  rw [val_main_v9_apply, hi]
  unfold val_main_v8
  refine (gather_col_apply (S := 16384) (C := 128) gather_S8x16384x128_S256x1_S8x256x128_02_1_n_n_1_1_81128_wf
    (by decide) (val_main_v1 (F := Ideal) x0) (val_main_v7 (F := Ideal) x3) _ _ c).trans ?_
  simp only [start0 x3 _ (h3 _), feat0]
  rfl

/-- The first layer's row with its rectifier is `hidden` of the sampled column. -/
theorem hidden0 (h3 : ∀ p : Fin 256, 0 ≤ (x3 (ix1 p)).toInt) (r : Fin 2048) (k : Fin 256) :
    val_main_v14 (F := Ideal) x0 x3 x6 x7 (ix2 r k)
      = Cert.Spec.hidden (Cert.Spec.column (C := 128) (H := 128) (W := 128) (by decide) x0 x3 ⟨r.val / 256, by omega⟩ ⟨r.val % 256, by omega⟩)
          (fun c k => x6 (ix2 c k)) (fun k => x7 (ix1 k)) k := by
  have hb : idx_main_v11 (idx_main_v12 (ix2 r k)) = ix1 k := by
    funext a; match a with | ⟨0, _⟩ => rfl
  rw [val_main_v14_apply, val_main_v13_apply, val_main_v10_apply, val_main_v12_apply, val_main_v11_apply, hb,
    val_main_call0_v0_apply, val_main_call0_cst_apply]
  simp only [Ideal.maximumf_def, Ideal.addf_def, Ideal.ofBits_def, Ideal.ofBits_zero_f32]
  unfold Cert.Spec.hidden
  refine congrArg (fun t => max (t + x7 (ix1 k)) 0) (Finset.sum_congr rfl fun c _ => ?_)
  have hl : lidx_main_v10 (ix2 r k) c = ix2 r c := by
    funext a; match a with | ⟨0, _⟩ => rfl | ⟨1, _⟩ => rfl
  have hr' : ridx_main_v10 (ix2 r k) c = ix2 c k := by
    funext a; match a with | ⟨0, _⟩ => rfl | ⟨1, _⟩ => rfl
  rw [hl, hr', column0 x0 x3 h3]

/-- The second layer's row is `logit` of the sampled column. -/
theorem logit0 (h3 : ∀ p : Fin 256, 0 ≤ (x3 (ix1 p)).toInt) (r : Fin 2048) (j : Fin 256) :
    val_main_v18 (F := Ideal) x0 x3 x6 x7 x8 x9 (ix2 r j)
      = Cert.Spec.logit (Cert.Spec.column (C := 128) (H := 128) (W := 128) (by decide) x0 x3 ⟨r.val / 256, by omega⟩ ⟨r.val % 256, by omega⟩)
          (fun c k => x6 (ix2 c k)) (fun k => x7 (ix1 k)) (fun k j => x8 (ix2 k j)) (fun j => x9 (ix1 j)) j := by
  have hb : idx_main_v16 (idx_main_v17 (ix2 r j)) = ix1 j := by
    funext a; match a with | ⟨0, _⟩ => rfl
  rw [val_main_v18_apply, val_main_v15_apply, val_main_v17_apply, val_main_v16_apply, hb]
  simp only [Ideal.addf_def]
  unfold Cert.Spec.logit
  refine congrArg (fun t => t + x9 (ix1 j)) (Finset.sum_congr rfl fun k _ => ?_)
  have hl : lidx_main_v15 (ix2 r j) k = ix2 r k := by
    funext a; match a with | ⟨0, _⟩ => rfl | ⟨1, _⟩ => rfl
  have hr' : ridx_main_v15 (ix2 r j) k = ix2 k j := by
    funext a; match a with | ⟨0, _⟩ => rfl | ⟨1, _⟩ => rfl
  rw [hl, hr', hidden0 x0 x3 x6 x7 h3]

/-- The result's row is `head` of the sampled column: the second layer's row over its norm plus `eps`. -/
theorem head0 (h3 : ∀ p : Fin 256, 0 ≤ (x3 (ix1 p)).toInt) (r : Fin 2048) (j : Fin 256) :
    val_main_v26 (F := Ideal) x0 x3 x6 x7 x8 x9 (ix2 r j)
      = Cert.Spec.head (Cert.Spec.column (C := 128) (H := 128) (W := 128) (by decide) x0 x3 ⟨r.val / 256, by omega⟩ ⟨r.val % 256, by omega⟩)
          (fun c k => x6 (ix2 c k)) (fun k => x7 (ix1 k)) (fun k j => x8 (ix2 k j)) (fun j => x9 (ix1 j)) j := by
  have h25 : idx_main_v25 (ix2 r j) = ix2 r (0 : Fin 1) := by
    funext a; match a with | ⟨0, _⟩ => rfl | ⟨1, _⟩ => rfl
  have h21 : idx_main_v21 (ix2 r (0 : Fin 1)) = ix1 r := by
    funext a; match a with | ⟨0, _⟩ => rfl
  rw [val_main_v26_apply, val_main_v25_apply, h25, val_main_v24_apply, val_main_v22_apply, val_main_v21_apply, h21,
    val_main_v20_apply, val_main_v23_apply, val_main_cst_1_apply, val_main_cst_apply,
    logit0 x0 x3 x6 x7 x8 x9 h3]
  simp only [Ideal.hostDivf_def, Ideal.hostUnary_sqrt_def, Ideal.addf_def, Ideal.ofBits_def, Ideal.ofBits_zero_f32, zero_add]
  unfold Cert.Spec.head Cert.Spec.eps
  refine congrArg (fun t => Ideal.div _ (Ideal.sqrt t + _)) (Finset.sum_congr rfl fun k _ => ?_)
  have h20 : idx_main_v20 (ix1 r) k = ix2 r k := by
    funext a; match a with | ⟨0, _⟩ => rfl | ⟨1, _⟩ => rfl
  rw [h20, val_main_v19_apply, logit0 x0 x3 x6 x7 x8 x9 h3]
  rfl

/-- THE RESULT of this scale is the specification's. -/
theorem scale0 (h3 : ∀ p : Fin 256, 0 ≤ (x3 (ix1 p)).toInt ∧ (x3 (ix1 p)).toInt < 16384) :
    val_main_v26 (F := Ideal) x0 x3 x6 x7 x8 x9
      = Cert.Spec.sampled (C := 128) (H := 128) (W := 128) (by decide) x0 x3 x6 x7 x8 x9 := by
  funext i
  obtain ⟨r, j, rfl⟩ : ∃ r j, i = ix2 r j := ⟨i 0, i 1, eq_ix2 i⟩
  exact head0 x0 x3 x6 x7 x8 x9 (fun p => (h3 p).1) r j

end Scale0

/-! ## Scales 1 and 2: 256 channels over 64 × 64 positions -/

section Scale12
variable (x1 : (⟨S8x256x64x64, .f32⟩ : BufTy).Contents (Elt Ideal)) (x4 : (⟨S256, .i32⟩ : BufTy).Contents (Elt Ideal))
  (x10 : (⟨S256x256, .f32⟩ : BufTy).Contents (Elt Ideal)) (x11 : (⟨S256, .f32⟩ : BufTy).Contents (Elt Ideal))
  (x12 : (⟨S256x256, .f32⟩ : BufTy).Contents (Elt Ideal)) (x13 : (⟨S256, .f32⟩ : BufTy).Contents (Elt Ideal))

/-- The start index of patch `p` is its position: the select keeps a position that is not negative. -/
theorem start12 (p : Fin 256) (h : 0 ≤ (x4 (ix1 p)).toInt) :
    val_main_v34 (F := Ideal) x4 (ix2 p (0 : Fin 1)) = x4 (ix1 p) := by
  have hi : idx_main_v34 (ix2 p (0 : Fin 1)) = ix1 p := by
    funext a; match a with | ⟨0, _⟩ => rfl
  rw [val_main_v34_apply, hi, val_main_v33_apply, val_main_v30_apply, val_main_v29_apply, val_main_c_2_apply,
    cmpi_slt_zero _ h, select_zero]

/-- The transposed and flattened features at `(b, s, c)` are the features at `(b, c, s / 64, s % 64)`. -/
theorem feat12 (b : Fin 8) (s : Fin 4096) (c : Fin 256) :
    val_main_v28 (F := Ideal) x1 (ix3 b s c)
      = x1 (ix4 b c ⟨s.val / 64, by omega⟩ ⟨s.val % 64, by omega⟩) := by
  rw [val_main_v28_apply, val_main_v27_apply]
  refine congrArg x1 (funext fun a => Fin.ext ?_)
  have hb := b.isLt; have hs := s.isLt; have hc := c.isLt
  match a with
  | ⟨0, _⟩ => show ((b.val * 4096 + s.val) * 256 + c.val) / 1048576 = b.val; omega
  | ⟨1, _⟩ => show ((b.val * 4096 + s.val) * 256 + c.val) % 256 = c.val; omega
  | ⟨2, _⟩ => show ((b.val * 4096 + s.val) * 256 + c.val) / 16384 % 64 = s.val / 64; omega
  | ⟨3, _⟩ => show ((b.val * 4096 + s.val) * 256 + c.val) / 256 % 64 = s.val % 64; omega

/-- Row `r` of the gathered columns is the sampled column of batch `r / 256` at patch `r % 256`. -/
theorem column12 (h3 : ∀ p : Fin 256, 0 ≤ (x4 (ix1 p)).toInt) (r : Fin 2048) (c : Fin 256) :
    val_main_v36 (F := Ideal) x1 x4 (ix2 r c) = (Cert.Spec.column (C := 256) (H := 64) (W := 64) (by decide) x1 x4 ⟨r.val / 256, by omega⟩ ⟨r.val % 256, by omega⟩) c := by
  have hr := r.isLt; have hc := c.isLt
  have hi : idx_main_v36 (ix2 r c) = ix3 (⟨r.val / 256, by omega⟩ : Fin 8) (⟨r.val % 256, by omega⟩ : Fin 256) c := by
    funext a; refine Fin.ext ?_
    match a with
    | ⟨0, _⟩ => show (r.val * 256 + c.val) / 65536 = r.val / 256; omega
    | ⟨1, _⟩ => show (r.val * 256 + c.val) / 256 % 256 = r.val % 256; omega
    | ⟨2, _⟩ => show (r.val * 256 + c.val) % 256 = c.val; omega
  rw [val_main_v36_apply, hi]
  unfold val_main_v35
  refine (gather_col_apply (S := 4096) (C := 256) gather_S8x4096x256_S256x1_S8x256x256_02_1_n_n_1_1_81256_wf
    (by decide) (val_main_v28 (F := Ideal) x1) (val_main_v34 (F := Ideal) x4) _ _ c).trans ?_
  simp only [start12 x4 _ (h3 _), feat12]
  rfl

/-- The first layer's row with its rectifier is `hidden` of the sampled column. -/
theorem hidden12 (h3 : ∀ p : Fin 256, 0 ≤ (x4 (ix1 p)).toInt) (r : Fin 2048) (k : Fin 256) :
    val_main_v41 (F := Ideal) x1 x4 x10 x11 (ix2 r k)
      = Cert.Spec.hidden (Cert.Spec.column (C := 256) (H := 64) (W := 64) (by decide) x1 x4 ⟨r.val / 256, by omega⟩ ⟨r.val % 256, by omega⟩)
          (fun c k => x10 (ix2 c k)) (fun k => x11 (ix1 k)) k := by
  have hb : idx_main_v38 (idx_main_v39 (ix2 r k)) = ix1 k := by
    funext a; match a with | ⟨0, _⟩ => rfl
  rw [val_main_v41_apply, val_main_v40_apply, val_main_v37_apply, val_main_v39_apply, val_main_v38_apply, hb,
    val_main_call1_v0_apply, val_main_call1_cst_apply]
  simp only [Ideal.maximumf_def, Ideal.addf_def, Ideal.ofBits_def, Ideal.ofBits_zero_f32]
  unfold Cert.Spec.hidden
  refine congrArg (fun t => max (t + x11 (ix1 k)) 0) (Finset.sum_congr rfl fun c _ => ?_)
  have hl : lidx_main_v37 (ix2 r k) c = ix2 r c := by
    funext a; match a with | ⟨0, _⟩ => rfl | ⟨1, _⟩ => rfl
  have hr' : ridx_main_v37 (ix2 r k) c = ix2 c k := by
    funext a; match a with | ⟨0, _⟩ => rfl | ⟨1, _⟩ => rfl
  rw [hl, hr', column12 x1 x4 h3]

/-- The second layer's row is `logit` of the sampled column. -/
theorem logit12 (h3 : ∀ p : Fin 256, 0 ≤ (x4 (ix1 p)).toInt) (r : Fin 2048) (j : Fin 256) :
    val_main_v45 (F := Ideal) x1 x4 x10 x11 x12 x13 (ix2 r j)
      = Cert.Spec.logit (Cert.Spec.column (C := 256) (H := 64) (W := 64) (by decide) x1 x4 ⟨r.val / 256, by omega⟩ ⟨r.val % 256, by omega⟩)
          (fun c k => x10 (ix2 c k)) (fun k => x11 (ix1 k)) (fun k j => x12 (ix2 k j)) (fun j => x13 (ix1 j)) j := by
  have hb : idx_main_v43 (idx_main_v44 (ix2 r j)) = ix1 j := by
    funext a; match a with | ⟨0, _⟩ => rfl
  rw [val_main_v45_apply, val_main_v42_apply, val_main_v44_apply, val_main_v43_apply, hb]
  simp only [Ideal.addf_def]
  unfold Cert.Spec.logit
  refine congrArg (fun t => t + x13 (ix1 j)) (Finset.sum_congr rfl fun k _ => ?_)
  have hl : lidx_main_v42 (ix2 r j) k = ix2 r k := by
    funext a; match a with | ⟨0, _⟩ => rfl | ⟨1, _⟩ => rfl
  have hr' : ridx_main_v42 (ix2 r j) k = ix2 k j := by
    funext a; match a with | ⟨0, _⟩ => rfl | ⟨1, _⟩ => rfl
  rw [hl, hr', hidden12 x1 x4 x10 x11 h3]

/-- The result's row is `head` of the sampled column: the second layer's row over its norm plus `eps`. -/
theorem head12 (h3 : ∀ p : Fin 256, 0 ≤ (x4 (ix1 p)).toInt) (r : Fin 2048) (j : Fin 256) :
    val_main_v53 (F := Ideal) x1 x4 x10 x11 x12 x13 (ix2 r j)
      = Cert.Spec.head (Cert.Spec.column (C := 256) (H := 64) (W := 64) (by decide) x1 x4 ⟨r.val / 256, by omega⟩ ⟨r.val % 256, by omega⟩)
          (fun c k => x10 (ix2 c k)) (fun k => x11 (ix1 k)) (fun k j => x12 (ix2 k j)) (fun j => x13 (ix1 j)) j := by
  have h25 : idx_main_v52 (ix2 r j) = ix2 r (0 : Fin 1) := by
    funext a; match a with | ⟨0, _⟩ => rfl | ⟨1, _⟩ => rfl
  have h21 : idx_main_v48 (ix2 r (0 : Fin 1)) = ix1 r := by
    funext a; match a with | ⟨0, _⟩ => rfl
  rw [val_main_v53_apply, val_main_v52_apply, h25, val_main_v51_apply, val_main_v49_apply, val_main_v48_apply, h21,
    val_main_v47_apply, val_main_v50_apply, val_main_cst_5_apply, val_main_cst_4_apply,
    logit12 x1 x4 x10 x11 x12 x13 h3]
  simp only [Ideal.hostDivf_def, Ideal.hostUnary_sqrt_def, Ideal.addf_def, Ideal.ofBits_def, Ideal.ofBits_zero_f32, zero_add]
  unfold Cert.Spec.head Cert.Spec.eps
  refine congrArg (fun t => Ideal.div _ (Ideal.sqrt t + _)) (Finset.sum_congr rfl fun k _ => ?_)
  have h20 : idx_main_v47 (ix1 r) k = ix2 r k := by
    funext a; match a with | ⟨0, _⟩ => rfl | ⟨1, _⟩ => rfl
  rw [h20, val_main_v46_apply, logit12 x1 x4 x10 x11 x12 x13 h3]
  rfl

/-- THE RESULT of this scale is the specification's. -/
theorem scale12 (h3 : ∀ p : Fin 256, 0 ≤ (x4 (ix1 p)).toInt ∧ (x4 (ix1 p)).toInt < 4096) :
    val_main_v53 (F := Ideal) x1 x4 x10 x11 x12 x13
      = Cert.Spec.sampled (C := 256) (H := 64) (W := 64) (by decide) x1 x4 x10 x11 x12 x13 := by
  funext i
  obtain ⟨r, j, rfl⟩ : ∃ r j, i = ix2 r j := ⟨i 0, i 1, eq_ix2 i⟩
  exact head12 x1 x4 x10 x11 x12 x13 (fun p => (h3 p).1) r j

end Scale12

/-! ## Scale 2 is scale 1's operations on other buffers -/

/-- The third result's term is the second's at the third scale's arguments: the same operations, in the same order. -/
theorem val_main_v80_eq_v53 {F : FTy → Type} [FloatOps F]
    (x2 : (⟨S8x256x64x64, .f32⟩ : BufTy).Contents (Elt F)) (x5 : (⟨S256, .i32⟩ : BufTy).Contents (Elt F))
    (x14 : (⟨S256x256, .f32⟩ : BufTy).Contents (Elt F)) (x15 : (⟨S256, .f32⟩ : BufTy).Contents (Elt F))
    (x16 : (⟨S256x256, .f32⟩ : BufTy).Contents (Elt F)) (x17 : (⟨S256, .f32⟩ : BufTy).Contents (Elt F)) :
    val_main_v80 (F := F) x2 x5 x14 x15 x16 x17 = val_main_v53 (F := F) x2 x5 x14 x15 x16 x17 := rfl

/-! ## The run -/

/-- Every weakly fair execution of the reference ends with its three results at the specification's values of the
    arguments' launch contents, the arguments unchanged — when no patch position is negative. -/
theorem run_spec (m' : (ℓ : Loc nD τ sig) → Buf (Elt Ideal) ℓ) (ρ' : Dev nD → PrngReg)
    (h3 : ∀ (c : Dev nD) (p : Fin 256), 0 ≤ ((m' ((c.tc : Thread nD τ).loc main_arg3)) (ix1 p)).toInt
      ∧ ((m' ((c.tc : Thread nD τ).loc main_arg3)) (ix1 p)).toInt < 16384)
    (h4 : ∀ (c : Dev nD) (p : Fin 256), 0 ≤ ((m' ((c.tc : Thread nD τ).loc main_arg4)) (ix1 p)).toInt
      ∧ ((m' ((c.tc : Thread nD τ).loc main_arg4)) (ix1 p)).toInt < 4096)
    (h5 : ∀ (c : Dev nD) (p : Fin 256), 0 ≤ ((m' ((c.tc : Thread nD τ).loc main_arg5)) (ix1 p)).toInt
      ∧ ((m' ((c.tc : Thread nD τ).loc main_arg5)) (ix1 p)).toInt < 4096) :
    θ_run (defs (F := Ideal)) (onTc (τ := τ) (main (F := Ideal))) ⟨m', fun _ => 0, ρ'⟩ (fun r => ∀ c : Dev nD,
      r.2.mem ((c.tc : Thread nD τ).loc main_v26)
          = Cert.Spec.sampled0 (m' ((c.tc : Thread nD τ).loc main_arg0)) (m' ((c.tc : Thread nD τ).loc main_arg3))
              (m' ((c.tc : Thread nD τ).loc main_arg6)) (m' ((c.tc : Thread nD τ).loc main_arg7))
              (m' ((c.tc : Thread nD τ).loc main_arg8)) (m' ((c.tc : Thread nD τ).loc main_arg9))
      ∧ r.2.mem ((c.tc : Thread nD τ).loc main_v53)
          = Cert.Spec.sampled12 (m' ((c.tc : Thread nD τ).loc main_arg1)) (m' ((c.tc : Thread nD τ).loc main_arg4))
              (m' ((c.tc : Thread nD τ).loc main_arg10)) (m' ((c.tc : Thread nD τ).loc main_arg11))
              (m' ((c.tc : Thread nD τ).loc main_arg12)) (m' ((c.tc : Thread nD τ).loc main_arg13))
      ∧ r.2.mem ((c.tc : Thread nD τ).loc main_v80)
          = Cert.Spec.sampled12 (m' ((c.tc : Thread nD τ).loc main_arg2)) (m' ((c.tc : Thread nD τ).loc main_arg5))
              (m' ((c.tc : Thread nD τ).loc main_arg14)) (m' ((c.tc : Thread nD τ).loc main_arg15))
              (m' ((c.tc : Thread nD τ).loc main_arg16)) (m' ((c.tc : Thread nD τ).loc main_arg17))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)) :=
  (θ_run (defs (F := Ideal)) _ _).mono (fun r h c => by
      obtain ⟨h26, h53, h80, hargs⟩ := h c
      refine ⟨?_, ?_, ?_, hargs⟩
      · exact (h26.trans (val_main_v26_eq m' c)).trans (scale0 _ _ _ _ _ _ (h3 c))
      · exact (h53.trans (val_main_v53_eq m' c)).trans (scale12 _ _ _ _ _ _ (h4 c))
      · exact ((h80.trans (val_main_v80_eq m' c)).trans (val_main_v80_eq_v53 _ _ _ _ _ _)).trans
          (scale12 _ _ _ _ _ _ (h5 c)))
    (Cert.ReferenceIdeal.Value.run (F := Ideal) m' ρ')

end Cert.ReferenceIdeal.RefValue

end
-- ==== Proof.PreDecode.lean ====
/-
  Decoding the printed precondition: the three position tables lie in range.

  The precondition is one conjunction (a chain of bitwise "and" over one-bit words) whose last six
  conjuncts say, of the three integer tables: every entry of the first is at least 0 and below 16384;
  every entry of the second and of the third is at least 0 and below 4096. Each conjunct is an
  "all entries satisfy" reduction of a signed comparison of the table with a constant. From the
  conjunction being 1 we read each of the six conjuncts as 1, then each entry's comparison as 1, then
  the comparison as an inequality between signed values.
-/
import proofs.«402699_j35115652612732_3_alg».proof.Pre_finite_inputs
import proofs.«402699_j35115652612732_3_alg».proof.Proof.Gen.Pre_finite_inputs
import Idealize.ShloMosaic.Lib.ValueIdx
import Idealize.ShloMosaic.Lib.ReduceAll
import Idealize.ShloMosaic.Lib.StableHlo.Predicate

namespace Cert.PreDecode

open Idealize.ShloMosaic Idealize.ShloMosaic.ValueIdx Cert.Pre_finite_inputs

/-- The rank-0 shape has exactly one index. -/
instance : Subsingleton S_.Idx := ⟨fun a b => funext fun d => d.elim0⟩

/-- A conjunction of two one-bit words that is 1 has both words 1. -/
theorem and_split {x y : IVec S_ 1} {i : S_.Idx} (h : andi x y i = 1#1) : x i = 1#1 ∧ y i = 1#1 :=
  IntOp.andi_eq_one.1 h

/-- "All entries of the table are at least the constant k", read at one entry. -/
theorem all_sge (hb : S_.BroadcastsInDim S256 (![] : Fin 0 → Fin S256.rank)) (hr : S256.ReducesTo [0] S_)
    (hu : 0 < S_.numel) (a : IVec S256 32) (k : BitVec 32) (K : Int) (hk : k.toInt = K) (init : IVec S_ 1) (j : S_.Idx)
    (h : Host.reduce IntOp.andi (cmpi .sge a (broadcastInDim S256 ![] hb (constantI S_ 32 k))) init hr hu j = 1#1)
    (p : Fin 256) : K ≤ (a (ix1 p)).toInt := by
  have e : IntOp.cmpi .sge (a (ix1 p)) k = 1#1 := Host.reduce_andi_all _ init hr hu j h (ix1 p)
  rw [← hk]
  exact IntOp.cmpi_sge.1 e

/-- "All entries of the table are below the constant k", read at one entry. -/
theorem all_slt (hb : S_.BroadcastsInDim S256 (![] : Fin 0 → Fin S256.rank)) (hr : S256.ReducesTo [0] S_)
    (hu : 0 < S_.numel) (a : IVec S256 32) (k : BitVec 32) (K : Int) (hk : k.toInt = K) (init : IVec S_ 1) (j : S_.Idx)
    (h : Host.reduce IntOp.andi (cmpi .slt a (broadcastInDim S256 ![] hb (constantI S_ 32 k))) init hr hu j = 1#1)
    (p : Fin 256) : (a (ix1 p)).toInt < K := by
  have e : IntOp.cmpi .slt (a (ix1 p)) k = 1#1 := Host.reduce_andi_all _ init hr hu j h (ix1 p)
  rw [← hk]
  exact IntOp.cmpi_slt.1 e

theorem toInt_zero : (0#32 : BitVec 32).toInt = 0 := by decide
theorem toInt_4096 : (4096#32 : BitVec 32).toInt = 4096 := by decide
theorem toInt_16384 : (16384#32 : BitVec 32).toInt = 16384 := by decide

/-- The last part of the chain: the conjunction so far, the pending "second table is at least 0" mask, and the
    last three conjuncts. -/
theorem part5 (a4 a5 : IVec S256 32) (v81 : IVec S_ 1) (v83 : IVec S256 1) (c33 : IVec S_ 1)
    (h : fn_part5 (F := Ideal) a4 a5 v81 v83 c33 ix0 = 1#1) :
    v81 ix0 = 1#1 ∧ (∀ p : Fin 256, v83 (ix1 p) = 1#1)
      ∧ (∀ p : Fin 256, (a4 (ix1 p)).toInt < 4096)
      ∧ (∀ p : Fin 256, 0 ≤ (a5 (ix1 p)).toInt ∧ (a5 (ix1 p)).toInt < 4096) := by
  dsimp only [fn_part5] at h
  obtain ⟨h93, h96⟩ := and_split h
  obtain ⟨h89, h92⟩ := and_split h93
  obtain ⟨h85, h88⟩ := and_split h89
  obtain ⟨h81, h84⟩ := and_split h85
  exact ⟨h81, fun p => Host.reduce_andi_all _ _ _ _ _ h84 (ix1 p),
    fun p => all_slt _ _ _ a4 _ 4096 toInt_4096 _ _ h88 p,
    fun p => ⟨all_sge _ _ _ a5 _ 0 toInt_zero _ _ h92 p, all_slt _ _ _ a5 _ 4096 toInt_4096 _ _ h96 p⟩⟩

/-- The range facts the precondition states of the three integer tables. -/
def Ranges (a3 a4 a5 : IVec S256 32) : Prop :=
  (∀ p : Fin 256, 0 ≤ (a3 (ix1 p)).toInt ∧ (a3 (ix1 p)).toInt < 16384)
    ∧ (∀ p : Fin 256, 0 ≤ (a4 (ix1 p)).toInt ∧ (a4 (ix1 p)).toInt < 4096)
    ∧ (∀ p : Fin 256, 0 ≤ (a5 (ix1 p)).toInt ∧ (a5 (ix1 p)).toInt < 4096)

/-- The fourth part of the chain holds the first table's two conjuncts and the second table's lower bound. -/
theorem part4 (a3 a4 a5 : IVec S256 32) (a17 : FVec Ideal S256 .f32) (v63 v67 : IVec S_ 1)
    (h : fn_part4 (F := Ideal) a3 a4 a5 a17 v63 v67 ix0 = 1#1) : Ranges a3 a4 a5 := by
  dsimp only [fn_part4] at h
  obtain ⟨h81, h83, h4, h5⟩ := part5 _ _ _ _ _ h
  obtain ⟨h77, h80⟩ := and_split h81
  obtain ⟨_, h76⟩ := and_split h77
  exact ⟨fun p => ⟨all_sge _ _ _ a3 _ 0 toInt_zero _ _ h76 p, all_slt _ _ _ a3 _ 16384 toInt_16384 _ _ h80 p⟩,
    fun p => ⟨toInt_zero ▸ IntOp.cmpi_sge.1 (h83 p), h4 p⟩, h5⟩

theorem pid_ranges (a0 : FVec Ideal S8x128x128x128 .f32) (a1 a2 : FVec Ideal S8x256x64x64 .f32) (a3 a4 a5 : IVec S256 32)
    (a6 : FVec Ideal S128x256 .f32) (a7 : FVec Ideal S256 .f32) (a8 : FVec Ideal S256x256 .f32) (a9 : FVec Ideal S256 .f32)
    (a10 : FVec Ideal S256x256 .f32) (a11 : FVec Ideal S256 .f32) (a12 : FVec Ideal S256x256 .f32) (a13 : FVec Ideal S256 .f32)
    (a14 : FVec Ideal S256x256 .f32) (a15 : FVec Ideal S256 .f32) (a16 : FVec Ideal S256x256 .f32) (a17 : FVec Ideal S256 .f32)
    (h : Cert.Pre_finite_inputs.fn (F := Ideal) a0 a1 a2 a3 a4 a5 a6 a7 a8 a9 a10 a11 a12 a13 a14 a15 a16 a17 = (fun _ => 1#1)) :
    (∀ p : Fin 256, 0 ≤ (a3 (ix1 p)).toInt ∧ (a3 (ix1 p)).toInt < 16384)
    ∧ (∀ p : Fin 256, 0 ≤ (a4 (ix1 p)).toInt ∧ (a4 (ix1 p)).toInt < 4096)
    ∧ (∀ p : Fin 256, 0 ≤ (a5 (ix1 p)).toInt ∧ (a5 (ix1 p)).toInt < 4096) := by
  have h0 : Cert.Pre_finite_inputs.fn (F := Ideal) a0 a1 a2 a3 a4 a5 a6 a7 a8 a9 a10 a11 a12 a13 a14 a15 a16 a17 ix0 = 1#1 :=
    congrFun h ix0
  dsimp only [fn, fn_part1, fn_part2, fn_part3] at h0
  exact part4 _ _ _ _ _ _ h0

end Cert.PreDecode
-- ==== Proof.lean ====
/-
  The certificate of the patch-sampling kernel against its jnp reference.

  For each of three feature maps `feat : [8, C, H, W]`, patch positions `pid : [256]` and a two-layer perceptron, the
  result's row `256·b + p` is the perceptron applied to the `C` channels of batch `b` at position `pid p`, divided by
  its Euclidean norm plus 1e-7 (Proof/Spec.lean). The reference gathers the column (a gather whose start index is read
  signed and held inside the array) and runs the perceptron on all 2048 rows at once. The kernel streams the feature
  map through blocks of positions and multiplies each block by the 0/1 selector `[position = pid p]` on the matrix
  unit, accumulating over the position blocks; every product off the selected position is `x · 0 = 0` on the extended
  reals, so for `0 ≤ pid p < H·W` the accumulated block is the gathered column, and the perceptron and the
  normalisation are the same sums and quotients on both sides. Outside that range the two differ (the kernel's
  selector matches nothing; the reference wraps a negative index and clamps), which is why the precondition bounds
  the positions.

  Proof/FrameK, Proof/FrameKI: the run of @main's three kernel calls at the two instances (each call's body by the
  symbolic executor, its proof data, the launch). Proof/KValue0–2, Proof/KSpec: what the calls leave is the
  specification. Proof/RefValue: the reference's generated run read index by index is the specification.
  Proof/PreDecode: the positions' range out of the printed precondition.
-/
import proofs.«402699_j35115652612732_3_alg».proof.Defs
import proofs.«402699_j35115652612732_3_alg».proof.Proof.Gen.Kernel
import proofs.«402699_j35115652612732_3_alg».proof.Proof.Gen.KernelIdeal
import proofs.«402699_j35115652612732_3_alg».proof.Proof.Gen.ReferenceIdeal
import proofs.«402699_j35115652612732_3_alg».proof.Proof.Gen.Pre_finite_inputs
import proofs.«402699_j35115652612732_3_alg».proof.Proof.Gen.ReferenceIdeal.Run
import proofs.«402699_j35115652612732_3_alg».proof.Proof.FrameK.Run
import proofs.«402699_j35115652612732_3_alg».proof.Proof.FrameKI.Run
import proofs.«402699_j35115652612732_3_alg».proof.Proof.KSpec
import proofs.«402699_j35115652612732_3_alg».proof.Proof.RefValue
import proofs.«402699_j35115652612732_3_alg».proof.Proof.PreDecode

noncomputable section

namespace Cert.Proof

open Idealize.ShloMosaic Idealize.ShloMosaic.ValueIdx Idealize.SL.Sem

/-- The word-level program runs and leaves its arguments as launched. -/
theorem frame_k : Cert.frame_Kernel := fun m ρ _ => Cert.Kernel.Fr.frame (F := Bits) m ρ
/-- So does the idealized program. -/
theorem frame_ki : Cert.frame_KernelIdeal := fun m ρ _ => Cert.KernelIdeal.Fr.frame (F := Ideal) m ρ
/-- The reference's frame is its generated run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote nothing. -/
theorem preserves : Cert.preserves_Kernel_KernelIdeal := trivial

/-- Both idealized programs end at the specification of arguments that agree. -/
theorem algebraic : Cert.algebraic_KernelIdeal_ReferenceIdeal := by
  intro m ρ m' ρ' hpre hagree
  have hr := fun c => Cert.PreDecode.pid_ranges _ _ _ _ _ _ _ _ _ _ _ _ _ _ _ _ _ _ (hpre c)
  refine ⟨_, _, _, Cert.KernelIdeal.KSpec.run_spec m ρ (fun c p => (hr c).1 p) (fun c p => (hr c).2.1 p) (fun c p => (hr c).2.2 p), ?_⟩
  refine (θ_run Cert.ReferenceIdeal.defs _ _).mono (fun r h c => ?_)
    (Cert.ReferenceIdeal.RefValue.run_spec m' ρ'
      (fun c p => by rw [(hagree c).2.2.2.1]; exact (hr c).1 p)
      (fun c p => by rw [(hagree c).2.2.2.2.1]; exact (hr c).2.1 p)
      (fun c p => by rw [(hagree c).2.2.2.2.2.1]; exact (hr c).2.2 p))
  obtain ⟨a0, a1, a2, a3, a4, a5, a6, a7, a8, a9, a10, a11, a12, a13, a14, a15, a16, a17⟩ := hagree c
  rw [← a0, ← a1, ← a2, ← a3, ← a4, ← a5, ← a6, ← a7, ← a8, ← a9, ← a10, ← a11, ← a12, ← a13, ← a14, ← a15, ← a16, ← a17]
  exact h c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
